-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x3 : Shape := ⟨2, ![8192, 3]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x3 : S_.BroadcastsInDim S8192x3 (![] : Fin 0 → Fin S8192x3.rank)
  reducesTo_S8192x3_S_d0_1 : S8192x3.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x128 .f32) (main_arg1 : FVec F S8192x3 .f32) (main_arg2 : FVec F S8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8192x128 : Shape := ⟨2, ![8192, 128]⟩
abbrev S8192x3 : Shape := ⟨2, ![8192, 3]⟩
abbrev S8192 : Shape := ⟨1, ![8192]⟩
abbrev S8192x1 : Shape := ⟨2, ![8192, 1]⟩
abbrev S1x8192 : Shape := ⟨2, ![1, 8192]⟩
abbrev S3x8192 : Shape := ⟨2, ![3, 8192]⟩
abbrev S1024x3 : Shape := ⟨2, ![1024, 3]⟩
abbrev S3x512 : Shape := ⟨2, ![3, 512]⟩
abbrev S1024x1 : Shape := ⟨2, ![1024, 1]⟩
abbrev S1x512 : Shape := ⟨2, ![1, 512]⟩
abbrev S1024x512 : Shape := ⟨2, ![1024, 512]⟩
abbrev S1024 : Shape := ⟨1, ![1024]⟩
abbrev S8192x8192 : Shape := ⟨2, ![8192, 8192]⟩
abbrev S512x128 : Shape := ⟨2, ![512, 128]⟩
abbrev S1024x128 : Shape := ⟨2, ![1024, 128]⟩

abbrev nBuf : Space → Nat
  | .hbm => 10
  | .vmem => 28
  | .smem => 0
  | _ => 0

abbrev bufTy : (tb : Table) → Fin (tcTables nBuf tb) → BufTy
  | .hbm, ⟨0, _⟩ => ⟨S8192x128, .f32⟩
  | .hbm, ⟨1, _⟩ => ⟨S8192x3, .f32⟩
  | .hbm, ⟨2, _⟩ => ⟨S8192, .f32⟩
  | .hbm, ⟨3, _⟩ => ⟨S8192x1, .f32⟩
  | .hbm, ⟨4, _⟩ => ⟨S1x8192, .f32⟩
  | .hbm, ⟨5, _⟩ => ⟨S3x8192, .f32⟩
  | .hbm, ⟨6, _⟩ => ⟨S8192x128, .bf16⟩
  | .hbm, ⟨7, _⟩ => ⟨S8192x1, .f32⟩
  | .hbm, ⟨8, _⟩ => ⟨S8192x8192, .f32⟩
  | .hbm, ⟨9, _⟩ => ⟨S8192x128, .f32⟩
  | .local _ .vmem, ⟨0, _⟩ => ⟨S1024x3, .f32⟩
  | .local _ .vmem, ⟨1, _⟩ => ⟨S1024x3, .f32⟩
  | .local _ .vmem, ⟨2, _⟩ => ⟨S3x512, .f32⟩
  | .local _ .vmem, ⟨3, _⟩ => ⟨S3x512, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x3, .f32⟩
  | .local _ .vmem, ⟨12, _⟩ => ⟨S1024x3, .f32⟩
  | .local _ .vmem, ⟨13, _⟩ => ⟨S3x512, .f32⟩
  | .local _ .vmem, ⟨14, _⟩ => ⟨S3x512, .f32⟩
  | .local _ .vmem, ⟨15, _⟩ => ⟨S1024x1, .f32⟩
  | .local _ .vmem, ⟨16, _⟩ => ⟨S1024x1, .f32⟩
  | .local _ .vmem, ⟨17, _⟩ => ⟨S1x512, .f32⟩
  | .local _ .vmem, ⟨18, _⟩ => ⟨S1x512, .f32⟩
  | .local _ .vmem, ⟨19, _⟩ => ⟨S1024x1, .f32⟩
  | .local _ .vmem, ⟨20, _⟩ => ⟨S1024x1, .f32⟩
  | .local _ .vmem, ⟨21, _⟩ => ⟨S512x128, .bf16⟩
  | .local _ .vmem, ⟨22, _⟩ => ⟨S512x128, .bf16⟩
  | .local _ .vmem, ⟨23, _⟩ => ⟨S1024x512, .f32⟩
  | .local _ .vmem, ⟨24, _⟩ => ⟨S1024x512, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v92 : BitVec 1 := Scalar.cmpi .eq arg1 c15_i32
  let v93 : BitVec 32 := Scalar.extui v92
  let c0_i32_25 : BitVec 32 := 0#32
  let v94 : BitVec 1 := Scalar.cmpi .ne v93 c0_i32_25
  v94

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v101 : BitVec 1 := Scalar.cmpi .eq arg1 c15_i32
  let v102 : BitVec 32 := Scalar.extui v101
  let c0_i32_32 : BitVec 32 := 0#32
  let v103 : BitVec 1 := Scalar.cmpi .ne v102 c0_i32_32
  v103

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S3x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S8192_S8192x1 : S8192.ShapeCasts S8192x1
  shapeCasts_S8192_S1x8192 : S8192.ShapeCasts S1x8192
  transposes_S8192x3_S3x8192_1_0 : S8192x3.Transposes [1, 0] S3x8192
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x3_S1024x3_0_0 : ∀ a, (![0, 0] : Fin 2 → Nat) a + S1024x3.size a ≤ S1024x3.size a
  h_S1024x3 : 0 < S1024x3.numel
  inb_S3x512_S3x512_0_0 : ∀ a, (![0, 0] : Fin 2 → Nat) a + S3x512.size a ≤ S3x512.size a
  h_S3x512 : 0 < S3x512.numel
  shapeCasts_S3x512_S3x512 : S3x512.ShapeCasts S3x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  slices_S3x512_o0_0_S1x512 : S3x512.Slices ![0, 0] S1x512
  slices_S3x512_o1_0_S1x512 : S3x512.Slices ![1, 0] S1x512
  slices_S3x512_o2_0_S1x512 : S3x512.Slices ![2, 0] S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x512_S1024x512_0_0 : ∀ a, (![0, 0] : Fin 2 → Nat) a + S1024x512.size a ≤ S1024x512.size a
  h_S1024x512 : 0 < S1024x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x512.size a ≤ S3x8192.size a
  hwx0_1 : ∀ i : grid0.Coords, EltTy.bits .f32 = 32 ∨ (Rect.block (s := S3x8192) S3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3.size a ≤ S8192x3.size a
  hwx1_0 : ∀ i : grid1.Coords, EltTy.bits .f32 = 32 ∨ (Rect.block (s := S8192x3) S1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x512.size a ≤ S3x8192.size a
  hwx1_1 : ∀ i : grid1.Coords, EltTy.bits .f32 = 32 ∨ (Rect.block (s := S3x8192) S3x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .f32 = 32 ∨ (Rect.block (s := S1x8192) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S8192x128.size a
  hwx1_5 : ∀ i : grid1.Coords, EltTy.bits .bf16 = 32 ∨ (Rect.block (s := S8192x128) S512x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S8192x8192.size a
  hwx1_6 : ∀ i : grid1.Coords, EltTy.bits .f32 = 32 ∨ (Rect.block (s := S8192x8192) S1024x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S8192x128.size a
  hwx1_7 : ∀ i : grid1.Coords, EltTy.bits .f32 = 32 ∨ (Rect.block (s := S8192x128) S1024x128.size (cc1_transform_7 i) (hinb1_7 i)).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg1) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S3x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S512x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5_0) S1024x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v5_1) S1024x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x3 : Shape := ⟨2, ![8192, 3]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩

abbrev nBuf : Space → Nat
  | .hbm => 80
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x3, .f32⟩
  | .hbm, ⟨2, _⟩ => ⟨S8192, .f32⟩
  | .hbm, ⟨3, _⟩ => ⟨S8192x3, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S3x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x1, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S8192x8192, .i32⟩
  | .hbm, ⟨61, _⟩ => ⟨S8192x8192, .i32⟩
  | .hbm, ⟨62, _⟩ => ⟨S_, .i32⟩
  | .hbm, ⟨63, _⟩ => ⟨S8192x8192, .i32⟩
  | .hbm, ⟨64, _⟩ => ⟨S8192x8192, .i32⟩
  | .hbm, ⟨65, _⟩ => ⟨S8192x8192, .i1⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x8192, .f32⟩
  | .hbm, ⟨78, _⟩ => ⟨S8192x8192, .f32⟩
  | .hbm, ⟨79, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_cst_9 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_10 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_11 : Ref sig .tc := ⟨.hbm, 71, rfl⟩
abbrev main_v43 : Ref sig .tc := ⟨.hbm, 72, rfl⟩
abbrev main_v44 : Ref sig .tc := ⟨.hbm, 73, rfl⟩
abbrev main_cst_12 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩

abbrev nD : Nat := 1
abbrev τ : Topo := Topo.v7x

variable {F : FTy → Type} [FloatOps F]

class Facts₀ : Prop where
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  reducesTo_S8192x8192_S8192_d1 : S8192x8192.ReducesTo [1] S8192
  bcast_S_S8192x1 : S_.BroadcastsInDim S8192x1 (![] : Fin 0 → Fin S8192x1.rank)
  dot_S8192x3_S3x8192_S8192x8192_1_0_0_1_n_n_wf : DotDims.WF S8192x3 S3x8192 S8192x8192 [1] [0] [0] [1] [] []
  dot_S8192x8192_S8192x128_S8192x128_1_0_0_1_n_n_wf : DotDims.WF S8192x8192 S8192x128 S8192x128 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.RowSumRuns.lean ====
/-
  The row-sum pass (the first pallas_call) as one region of the pipeline, at the contents `V` its core's buffers
  hold when the region is entered, for any float instance.

  The grid is 8 row blocks × 16 column blocks, point `t` = (t / 16, t % 16). The body keeps a running row sum in a
  scratch buffer: it zeroes it where the column block is 0, adds the point's lane sums, and where the column block
  is 15 copies it into the output window, whose block is written back at exactly those points. So there are three
  control cases: A (column block 0), B (1 … 14), C (15). Per case the body's triple is run once on whole staging
  memrefs, the pieces it stores found by the run; `outsAt0` then says by recursion on the point what the output's
  buffer and the scratch hold after each point, the invariant `PhiS` carries the scratch from a point to the next,
  and the body obligation is a case split on `t % 16`.
-/
import proofs.«159665_j72739566125272_1_alg».proof.Proof.Gen.KernelIdeal.Launch
import proofs.«159665_j72739566125272_1_alg».proof.Proof.Gen.KernelIdeal.Skeleton
import proofs.«159665_j72739566125272_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.RowSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffers when the region is entered: the parameter everything below is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched the block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, in closed form over the grid -/

/-- `column block = 0`, as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- `column block = 15`, as the body computes it. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where a window is idle: the inputs never; the output wherever the column block is not 15, and there its
    block is not written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the pipeline calls the body with -/

abbrev ms0_0 (t : Fin cfg0.N) : Memref sig .tc .vmem S1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The scratch operand: the running row sum. -/
abbrev scM0 : Memref sig .tc .vmem S1024x1 .f32 := Memref.whole cc0_scratch0
/-- The views through which the scratch's and the output buffer's contents are stated. -/
abbrev VS0 : View sig .tc .vmem S1024x1 .f32 := scM0.view
abbrev VO0_4 : View sig .tc .vmem S1024x1 .f32 := (Memref.whole cc0_stg4_0 : Memref sig .tc .vmem S1024x1 .f32).view

/-! ## The invariant's parts: the scratch, and the core's other scoped buffers that are no staging buffer of this call -/

/-- The core's other scoped buffers (the other call's staging buffers and scratch), unopened. -/
abbrev others0 (c : Dev nD) : sProp 𝕄 :=
  Pipeline.scopedRestBut (Ix := Unit) (Name := ℕ) (U := UR sig nD τ) (Lvl := ℕ) (Val := Elt F) spec0 c [cc0_scratch0]
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others0 c) :=
  Pipeline.scopedRest_split_of_list spec0 c [cc0_scratch0] (by decide) (by decide)
/-- The class invariant with the scratch as a memref owned at some contents. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA; rw [scopedRest0_split]; simp only [scM0, owns_whole]; try rfl

/-! ## The body's triple, case by case -/

set_option maxHeartbeats 4000000 in
/-- CASE A (column block 0). On whole staging memrefs, the inputs' at their contents, the output's at contents
    handed back untouched, the scratch at anything: the body runs to the continuation holding the inputs' as they
    were and the scratch with the pieces `LS0` written (the reset, then the update). -/
noncomputable def kernelRun0_A (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x3 .f32) (x1 : Vec F S3x512 .f32) (x2 : Vec F S1024x1 .f32) (x3 : Vec F S1x512 .f32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__rowsum_kernel i arg2 harg2 arg3 harg3 arg4 harg4 arg5 harg5 arg6 harg6 arg7 harg7) K } := by
  refine ⟨?_, fun xi4 E K => ?run⟩
  case run =>
    simp only [cc0__rowsum_kernel_eq_skeleton]; unfold cc0__rowsum_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE B (column blocks 1 … 14): as case A, the scratch at the contents `xs0` the point before left, no reset. -/
noncomputable def kernelRun0_B (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x3 .f32) (x1 : Vec F S3x512 .f32) (x2 : Vec F S1024x1 .f32) (x3 : Vec F S1x512 .f32) (xs0 : Vec F S1024x1 .f32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__rowsum_kernel i arg2 harg2 arg3 harg3 arg4 harg4 arg5 harg5 arg6 harg6 arg7 harg7) K } := by
  refine ⟨?_, fun xi4 E K => ?run⟩
  case run =>
    simp only [cc0__rowsum_kernel_eq_skeleton]; unfold cc0__rowsum_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE C (column block 15): the scratch at `xs0`, the output's buffer at anything; the body leaves the scratch
    with `LS0` written and the output's buffer with `L4` written (the copy of the updated scratch). -/
noncomputable def kernelRun0_C (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x3 .f32) (x1 : Vec F S3x512 .f32) (x2 : Vec F S1024x1 .f32) (x3 : Vec F S1x512 .f32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__rowsum_kernel i arg2 harg2 arg3 harg3 arg4 harg4 arg5 harg5 arg6 harg6 arg7 harg7) K } := by
  refine ⟨?_, ?_, fun E K => ?run⟩
  case run =>
    simp only [cc0__rowsum_kernel_eq_skeleton]; unfold cc0__rowsum_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.RowSum

end
-- ==== Proof.RowSumFrame.lean ====
/-
  The row-sum pass as one region, continued: what each control case leaves in the scratch and in the output's
  buffer (the pieces its run found, read back), the contents point by point (`outsAt0`: the running row sum after
  point `t` is the case's update of what point `t − 1` left, reset where the column block is 0), the invariant that
  carries the scratch from point to point, the pipeline's proof data, and the body obligation at every point.
-/
import proofs.«159665_j72739566125272_1_alg».proof.Proof.Gen.KernelIdeal.Launch
import proofs.«159665_j72739566125272_1_alg».proof.Proof.Gen.KernelIdeal.Skeleton
import proofs.«159665_j72739566125272_1_alg».proof.Proof.Gen.KernelIdeal.Points
import proofs.«159665_j72739566125272_1_alg».proof.Proof.RowSumRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.RowSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces cover the scratch. -/
theorem scover0_A (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x3 .f32) (x1 : Vec F S3x512 .f32) (x2 : Vec F S1024x1 .f32) (x3 : Vec F S1x512 .f32) (y : S1024x1.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1024x1.size (by sl_kernel_rfl) y
/-- What case A leaves in the scratch: its pieces read back. -/
def sout0_A (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x3 .f32) (x1 : Vec F S3x512 .f32) (x2 : Vec F S1024x1 .f32) (x3 : Vec F S1x512 .f32) : Vec F S1024x1 .f32 :=
  VS0.read (Elt F) (VS0.writes (Elt F) VS0.junk (kernelRun0_A c i arg2 harg2 arg3 harg3 arg4 harg4 arg5 harg5 arg6 harg6 arg7 harg7 hc0 hc1 x0 x1 x2 x3).1)

theorem scover0_B (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x3 .f32) (x1 : Vec F S3x512 .f32) (x2 : Vec F S1024x1 .f32) (x3 : Vec F S1x512 .f32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S1024x1.size (by sl_kernel_rfl) y
def sout0_B (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x3 .f32) (x1 : Vec F S3x512 .f32) (x2 : Vec F S1024x1 .f32) (x3 : Vec F S1x512 .f32) (xs0 : Vec F S1024x1 .f32) : Vec F S1024x1 .f32 :=
  VS0.read (Elt F) (VS0.writes (Elt F) VS0.junk (kernelRun0_B c i arg2 harg2 arg3 harg3 arg4 harg4 arg5 harg5 arg6 harg6 arg7 harg7 hc0 hc1 x0 x1 x2 x3 xs0).1)

/-- Case C's pieces for the output's buffer cover it, -/
theorem cover0_C_4 (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x3 .f32) (x1 : Vec F S3x512 .f32) (x2 : Vec F S1024x1 .f32) (x3 : Vec F S1x512 .f32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y
/-- and what it leaves there: the row totals. -/
def out0_C_4 (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x3 .f32) (x1 : Vec F S3x512 .f32) (x2 : Vec F S1024x1 .f32) (x3 : Vec F S1x512 .f32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)
theorem scover0_C (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x3 .f32) (x1 : Vec F S3x512 .f32) (x2 : Vec F S1024x1 .f32) (x3 : Vec F S1x512 .f32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y
def sout0_C (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x3 .f32) (x1 : Vec F S3x512 .f32) (x2 : Vec F S1024x1 .f32) (x3 : Vec F S1x512 .f32) (xs0 : Vec F S1024x1 .f32) : Vec F S1024x1 .f32 :=
  VS0.read (Elt F) (VS0.writes (Elt F) VS0.junk (kernelRun0_C c i arg2 harg2 arg3 harg3 arg4 harg4 arg5 harg5 arg6 harg6 arg7 harg7 hc0 hc1 x0 x1 x2 x3 xs0).2.1)

/-- Where the output is idle nothing consults its buffer's contents: a placeholder. -/
def idle0_4 : Vec F S1024x1 .f32 := VO0_4.read (Elt F) (VO0_4.writes (Elt F) VO0_4.junk [])

/-! ## Point by point -/

/-- What the output's buffer and the scratch hold after the body at point `n`: the case `n % 16` selects, run at
    the point's memrefs and blocks, over the scratch as the point before left it. -/
def outsAt0 (c : Dev nD) : (n : ℕ) → n < cfg0.N → Vec F S1024x1 .f32 × Vec F S1024x1 .f32
  | 0, hn => (idle0_4, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 16 = 0 then
      if h1 : (n + 1) % 16 = 15 then
        False.elim (by omega)
      else
        (idle0_4, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (idle0_4, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (idle0_4, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (idle0_4, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the class's invariant (every scoped buffer at anything, the generator register at some
    state); before point `n + 1` the scratch at what point `n` left in it, the other scoped buffers at anything,
    the generator register at some state. -/
def PhiS (c : Dev nD) : (n : ℕ) → n ≤ cfg0.N → sProp 𝕄
  | 0, _ => Pipeline.ΦA spec0 c
  | n + 1, hn => iprop((owns (c : Thread nD τ) scM0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM0 fullShare ((outsAt0 V c n hn).2) ∗ others0 c) ∗ (∃ r, prngReg c r)) := rfl
theorem PhiS_pos (c : Dev nD) (n : ℕ) (h : n ≤ cfg0.N) (hz : n ≠ 0) :
    PhiS V c n h = iprop((owns (c : Thread nD τ) scM0 fullShare ((outsAt0 V c (n - 1) (by omega)).2) ∗ others0 c) ∗ (∃ r, prngReg c r)) := by
  cases n with
  | zero => exact absurd rfl hz
  | succ n => rfl

/-! ## The pipeline's proof data -/

/-- The arrays as the region finds them; after the body at point `t` each input's buffer at its block and the
    output's at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))
/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 8000000 in
/-- The body at any point: the inputs' memrefs hold their blocks; `t % 16` says which case the point is in; the
    invariant hands the body the scratch (at what the point before left, or at anything at the very first point) and
    takes it back at this point's contents; where the output is idle its buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 128 := lt_of_lt_of_eq t.isLt (show cfg0.N = 128 from N_0)
  by_cases h0 : t.val % 16 = 0
  · have h1 : ¬t.val % 16 = 15 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _
/-- and after the last point the invariant gives it back, the scratch's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 128 := N_0; omega
  rw [show (dat0 V c).Φ (Fin.last cfg0.N) = PhiS V c (Fin.last cfg0.N).val (Nat.le_of_lt_succ (Fin.last cfg0.N).isLt) from rfl,
    PhiS_pos V c _ _ hne, PhiA0_eq]
  iintro ⟨⟨HS0, Hoth⟩, Hg⟩
  isplitl [HS0 Hoth]
  · isplitl [HS0]
    · iexists _; iexact HS0
    iexact Hoth
  iexact Hg

end Cert.KernelIdeal.RowSum

end
-- ==== Proof.MainPassRuns.lean ====
/-
  The main pass (the second pallas_call) as one region of the pipeline, at the contents `V` its core's buffers
  hold when the region is entered, for any float instance.

  Same grid, 8 row blocks × 16 column blocks. At every point the body recomputes the tile of weights, divides it by
  the rows' totals (read through an input window) and stores the normalised tile whole into the first output's
  buffer, which is written back at every point; it keeps a [1024, 128] accumulator in a scratch buffer — zeroed where
  the column block is 0, the tile times the latent block added at every point — and where the column block is 15
  copies it into the second output's buffer, written back at exactly those points. Three control cases as in the
  row-sum pass: A (column block 0), B (1 … 14), C (15).
-/
import proofs.«159665_j72739566125272_1_alg».proof.Proof.Gen.KernelIdeal.Launch
import proofs.«159665_j72739566125272_1_alg».proof.Proof.Gen.KernelIdeal.Skeleton
import proofs.«159665_j72739566125272_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.MainPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, in closed form over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where a window is idle: only the second output, wherever the column block is not 15 -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The memrefs the pipeline calls the body with -/

abbrev ms1_0 (t : Fin cfg1.N) : Memref sig .tc .vmem S1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x128 .f32 := win1_7.stage (cfg1.slots t 7)
abbrev hs1_7 (t : Fin cfg1.N) : (ms1_7 t).IsWhole := hstage1_7 ((cfg1.slots t 7).cast nbuf1_7)
/-- The scratch operand: the accumulator of the product with the latents. -/
abbrev scM1 : Memref sig .tc .vmem S1024x128 .f32 := Memref.whole cc1_scratch0
abbrev VS1 : View sig .tc .vmem S1024x128 .f32 := scM1.view
abbrev VO1_6 : View sig .tc .vmem S1024x512 .f32 := (Memref.whole cc1_stg6_0 : Memref sig .tc .vmem S1024x512 .f32).view
abbrev VO1_7 : View sig .tc .vmem S1024x128 .f32 := (Memref.whole cc1_stg7_0 : Memref sig .tc .vmem S1024x128 .f32).view

/-! ## The invariant's parts -/

/-- The core's other scoped buffers (the other call's staging buffers and scratch), unopened. -/
abbrev others1 (c : Dev nD) : sProp 𝕄 :=
  Pipeline.scopedRestBut (Ix := Unit) (Name := ℕ) (U := UR sig nD τ) (Lvl := ℕ) (Val := Elt F) spec1 c [cc1_scratch0]
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others1 c) :=
  Pipeline.scopedRest_split_of_list spec1 c [cc1_scratch0] (by decide) (by decide)
theorem PhiA1_eq (c : Dev nD) :
    (Pipeline.ΦA spec1 c : sProp 𝕄)
      = iprop(((∃ d, owns (c : Thread nD τ) scM1 fullShare d) ∗ others1 c) ∗ (∃ r, prngReg c r)) := by
  unfold Pipeline.ΦA; rw [scopedRest1_split]; simp only [scM1, owns_whole]; try rfl

/-! ## The body's triple, case by case -/

set_option maxHeartbeats 4000000 in
/-- CASE A (column block 0): the inputs' memrefs at their contents, the first output's at anything, the second
    output's at contents handed back untouched, the scratch at anything; the body leaves the first output's buffer
    with `L6` written (the normalised tile) and the scratch with `LS0` written (the reset, then the update). -/
noncomputable def kernelRun1_A (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) :
    Σ' (L6 : List (View.Piece (Elt F) S1024x512 .f32)), { LS0 : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc1__main_kernel_eq_skeleton]; unfold cc1__main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

set_option maxHeartbeats 4000000 in
/-- CASE B (column blocks 1 … 14): as case A, the scratch at the contents `xs0` the point before left, no reset. -/
noncomputable def kernelRun1_B (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) :
    Σ' (L6 : List (View.Piece (Elt F) S1024x512 .f32)), { LS0 : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc1__main_kernel_eq_skeleton]; unfold cc1__main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

set_option maxHeartbeats 4000000 in
/-- CASE C (column block 15): the scratch at `xs0`, both outputs' buffers at anything; the body leaves the first
    output's buffer with `L6` written, the second's with `L7` written (the copy of the updated accumulator) and the
    scratch with `LS0` written. -/
noncomputable def kernelRun1_C (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) :
    Σ' (L6 : List (View.Piece (Elt F) S1024x512 .f32)) (L7 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__main_kernel_eq_skeleton]; unfold cc1__main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.KernelIdeal.MainPass

end
-- ==== Proof.MainPassFrame.lean ====
/-
  The main pass as one region, continued: what each control case leaves in the two outputs' buffers and in the
  scratch, the contents point by point (`outsAt1`), the invariant carrying the accumulator, the pipeline's proof
  data and the body obligation at every point.
-/
import proofs.«159665_j72739566125272_1_alg».proof.Proof.Gen.KernelIdeal.Launch
import proofs.«159665_j72739566125272_1_alg».proof.Proof.Gen.KernelIdeal.Skeleton
import proofs.«159665_j72739566125272_1_alg».proof.Proof.Gen.KernelIdeal.Points
import proofs.«159665_j72739566125272_1_alg».proof.Proof.MainPassRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.MainPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for the first output's buffer cover it, -/
theorem cover1_A_6 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (y : S1024x512.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).1 S1024x512.size (by sl_kernel_rfl) y
/-- and what it leaves there: the normalised tile. -/
def out1_A_6 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) : Vec F S1024x512 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 x0 x1 x2 x3 x4 x5).1)
theorem scover1_A (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (y : S1024x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).2.1 S1024x128.size (by sl_kernel_rfl) y
/-- In the scratch: the accumulator after the point. -/
def sout1_A (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) : Vec F S1024x128 .f32 :=
  VS1.read (Elt F) (VS1.writes (Elt F) VS1.junk (kernelRun1_A c i arg2 harg2 arg3 harg3 arg4 harg4 arg5 harg5 arg6 harg6 arg7 harg7 arg8 harg8 arg9 harg9 arg10 harg10 hc0 hc1 x0 x1 x2 x3 x4 x5).2.1)

/-- Case B's pieces for the first output's buffer cover it, -/
theorem cover1_B_6 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) (y : S1024x512.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs0).1 S1024x512.size (by sl_kernel_rfl) y
/-- and what it leaves there: the normalised tile. -/
def out1_B_6 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) : Vec F S1024x512 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 x0 x1 x2 x3 x4 x5 xs0).1)
theorem scover1_B (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) (y : S1024x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs0).2.1 S1024x128.size (by sl_kernel_rfl) y
/-- In the scratch: the accumulator after the point. -/
def sout1_B (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) : Vec F S1024x128 .f32 :=
  VS1.read (Elt F) (VS1.writes (Elt F) VS1.junk (kernelRun1_B c i arg2 harg2 arg3 harg3 arg4 harg4 arg5 harg5 arg6 harg6 arg7 harg7 arg8 harg8 arg9 harg9 arg10 harg10 hc0 hc1 x0 x1 x2 x3 x4 x5 xs0).2.1)

/-- Case C's pieces for the first output's buffer cover it, -/
theorem cover1_C_6 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) (y : S1024x512.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0).1 S1024x512.size (by sl_kernel_rfl) y
/-- and what it leaves there: the normalised tile. -/
def out1_C_6 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) : Vec F S1024x512 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 x5 xs0).1)
theorem cover1_C_7 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0).2.1 S1024x128.size (by sl_kernel_rfl) y
/-- In the second output's buffer: the accumulated product. -/
def out1_C_7 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) : Vec F S1024x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x3 x4 x5 xs0).2.1)
theorem scover1_C (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0).2.2.1 S1024x128.size (by sl_kernel_rfl) y
/-- In the scratch: the accumulator after the point. -/
def sout1_C (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) : Vec F S1024x128 .f32 :=
  VS1.read (Elt F) (VS1.writes (Elt F) VS1.junk (kernelRun1_C c i arg2 harg2 arg3 harg3 arg4 harg4 arg5 harg5 arg6 harg6 arg7 harg7 arg8 harg8 arg9 harg9 arg10 harg10 hc0 hc1 x0 x1 x2 x3 x4 x5 xs0).2.2.1)

/-- Where the second output is idle nothing consults its buffer's contents: a placeholder. -/
def idle1_7 : Vec F S1024x128 .f32 := VO1_7.read (Elt F) (VO1_7.writes (Elt F) VO1_7.junk [])

/-! ## Point by point -/

/-- What the two outputs' buffers and the scratch hold after the body at point `n`. -/
def outsAt1 (c : Dev nD) : (n : ℕ) → n < cfg1.N → Vec F S1024x512 .f32 × Vec F S1024x128 .f32 × Vec F S1024x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
      idle1_7,
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
         idle1_7,
         sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
         out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
         idle1_7,
         sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)

theorem outsAt1_A (c : Dev nD) (t : Fin cfg1.N) (h0 : t.val % 16 = 0) (h1 : ¬t.val % 16 = 15) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), idle1_7, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, idle1_7,
      sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2,
      out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

def PhiS1 (c : Dev nD) : (n : ℕ) → n ≤ cfg1.N → sProp 𝕄
  | 0, _ => Pipeline.ΦA spec1 c
  | n + 1, hn => iprop((owns (c : Thread nD τ) scM1 fullShare ((outsAt1 V c n hn).2.2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2.2) ∗ others1 c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2.2) ∗ others1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hN : t.val < 128 := lt_of_lt_of_eq t.isLt (show cfg1.N = 128 from N_1)
  by_cases h0 : t.val % 16 = 0
  · have h1 : ¬t.val % 16 = 15 := by omega
    rw [Dat.leavesExact_idle (dat1 V c) 7 t (idleAt1_7 t (fun h => h1 ((hcond1_1 t).mp h))) (noFlush1_7 t (fun h => h1 ((hcond1_1 t).mp h)))]
    rw [outsAt1_A V c t h0 h1]
    unfold out1_A_6 sout1_A; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _)
      iexists _; iexact H7
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexists _; iexact HS0
      iintro ⟨H0, H1, H2, H3, H4, H5, ⟨%e6, H6⟩, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _)
      iexists _; iexact H7
  · have hz : t.val ≠ 0 := fun h => h0 (by rw [h])
    by_cases h1 : t.val % 16 = 15
    · rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_C V c t h0 h1]
      unfold out1_C_6 out1_C_7 sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _ _ _)
    · rw [Dat.leavesExact_idle (dat1 V c) 7 t (idleAt1_7 t (fun h => h1 ((hcond1_1 t).mp h))) (noFlush1_7 t (fun h => h1 ((hcond1_1 t).mp h)))]
      rw [outsAt1_B V c t h0 h1]
      unfold out1_B_6 sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _)
      iexists _; iexact H7

set_option maxHeartbeats 4000000 in
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _
set_option maxHeartbeats 4000000 in
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, Hoth⟩, Hg⟩
  isplitl [HS0 Hoth]
  · isplitl [HS0]
    · iexists _; iexact HS0
    iexact Hoth
  iexact Hg

end Cert.KernelIdeal.MainPass

end
-- ==== Proof.WholeRun.lean ====
/-
  The whole program's run: @main is four host operations (the exponents reshaped to a column and to a row, the
  coordinates transposed, the latents narrowed), the row-sum pass, the main pass. The buffers' contents at each
  boundary are a fold from the launch memory: after the host operations (`X1`), after the row-sum pass (`X2`: its
  arrays at what its write-backs leave, every other buffer as entered) and after the main pass (`X3`). Each pass is
  a region of the pipeline over the thread state "every unscoped buffer at the boundary's contents, the generator
  register at some state, nothing owed"; the launch theorem for a list of segments composes them, and the last thread
  state read against the final memory gives every unscoped buffer at `X3` — from which the argument arrays are read
  back to the launch memory and the two results are the main pass's output arrays after its last write-back.
-/
import proofs.«159665_j72739566125272_1_alg».proof.Proof.Gen.KernelIdeal.Launch
import proofs.«159665_j72739566125272_1_alg».proof.Proof.Gen.KernelIdeal.Skeleton
import proofs.«159665_j72739566125272_1_alg».proof.Proof.Gen.KernelIdeal.Points
import proofs.«159665_j72739566125272_1_alg».proof.Proof.Gen.KernelIdeal.Regions
import proofs.«159665_j72739566125272_1_alg».proof.Proof.RowSumFrame
import proofs.«159665_j72739566125272_1_alg».proof.Proof.MainPassFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- After the host operations: the row-sum pass's entry. -/
abbrev X1 (c : Dev nD) : Valuation τ sig (Elt F) := Gen.V1 m c
/-- The same read at the TensorCore's references. -/
abbrev E1 : (c : Dev nD) → (b : Ref sig .tc) → Buf (Elt F) ((c : Thread nD τ).loc b) := fun c b => X1 m c b
/-- After the row-sum pass: its arrays at what the pipeline leaves, every other buffer as entered. -/
def X2 (c : Dev nD) : Valuation τ sig (Elt F) :=
  Pipeline.withArrays spec0 c (X1 m c) fun w => (RowSum.dat0 (E1 m) c).arrAt w cfg0.N
theorem X2_arr (c : Dev nD) (w : Fin cfg0.W) :
    X2 m c (Proc.devRef .tc (Pipeline.arrRef spec0 w)) = (RowSum.dat0 (E1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev E2 : (c : Dev nD) → (b : Ref sig .tc) → Buf (Elt F) ((c : Thread nD τ).loc b) := fun c b => X2 m c b
theorem hF0 (c : Dev nD) (w : Fin cfg0.W) : (RowSum.dat0 (E1 m) c).arrAt w cfg0.N = E2 m c (Pipeline.arrRef spec0 w) :=
  (X2_arr m c w).symm
theorem hrest0 (c : Dev nD) : ∀ b, b ∉ Finset.univ.image (Pipeline.arrRef spec0) → E2 m c b = E1 m c b :=
  fun b hb => X2_of_ne m c b fun w e => hb (Finset.mem_image.mpr ⟨w, Finset.mem_univ _, e⟩)
/-- After the main pass. -/
def X3 (c : Dev nD) : Valuation τ sig (Elt F) :=
  Pipeline.withArrays spec1 c (X2 m c) fun w => (MainPass.dat1 (E2 m) c).arrAt w cfg1.N
theorem X3_arr (c : Dev nD) (w : Fin cfg1.W) :
    X3 m c (Proc.devRef .tc (Pipeline.arrRef spec1 w)) = (MainPass.dat1 (E2 m) c).arrAt w cfg1.N := by
  unfold X3; exact Pipeline.withArrays_arr spec1 launch1.win.arr_inj c _ _ w
theorem X3_of_ne (c : Dev nD) (b : Ref sig .tc) (hb : ∀ w, Pipeline.arrRef spec1 w ≠ b) :
    X3 m c (Proc.devRef .tc b) = X2 m c (Proc.devRef .tc b) := by
  unfold X3; exact Pipeline.withArrays_of_ne spec1 c _ _ b hb
abbrev E3 : (c : Dev nD) → (b : Ref sig .tc) → Buf (Elt F) ((c : Thread nD τ).loc b) := fun c b => X3 m c b
theorem hF1 (c : Dev nD) (w : Fin cfg1.W) : (MainPass.dat1 (E2 m) c).arrAt w cfg1.N = E3 m c (Pipeline.arrRef spec1 w) :=
  (X3_arr m c w).symm
theorem hrest1 (c : Dev nD) : ∀ b, b ∉ Finset.univ.image (Pipeline.arrRef spec1) → E3 m c b = E2 m c b :=
  fun b hb => X3_of_ne m c b fun w e => hb (Finset.mem_image.mpr ⟨w, Finset.mem_univ _, e⟩)

/-! ### The arguments end as launched: the latents and the exponents are no window of either pass and no host
    operation writes them; the coordinates are an INPUT window of both passes, so each pass leaves them as entered -/

theorem X3_main_arg0 (c : Dev nD) : X3 m c (Proc.devRef .tc main_arg0) = m ((c : Thread nD τ).loc main_arg0) :=
  calc X3 m c (Proc.devRef .tc main_arg0)
    _ = X2 m c (Proc.devRef .tc main_arg0) := X3_of_ne m c main_arg0 (by decide)
    _ = X1 m c (Proc.devRef .tc main_arg0) := X2_of_ne m c main_arg0 (by decide)
    _ = Gen.V0 m c (Proc.devRef .tc main_arg0) := Gen.V1_of m c main_arg0 (by decide)
    _ = m ((c : Thread nD τ).loc main_arg0) := rfl
theorem X3_main_arg2 (c : Dev nD) : X3 m c (Proc.devRef .tc main_arg2) = m ((c : Thread nD τ).loc main_arg2) :=
  calc X3 m c (Proc.devRef .tc main_arg2)
    _ = X2 m c (Proc.devRef .tc main_arg2) := X3_of_ne m c main_arg2 (by decide)
    _ = X1 m c (Proc.devRef .tc main_arg2) := X2_of_ne m c main_arg2 (by decide)
    _ = Gen.V0 m c (Proc.devRef .tc main_arg2) := Gen.V1_of m c main_arg2 (by decide)
    _ = m ((c : Thread nD τ).loc main_arg2) := rfl
theorem X2_main_arg1 (c : Dev nD) : X2 m c (Proc.devRef .tc main_arg1) = m ((c : Thread nD τ).loc main_arg1) :=
  calc X2 m c (Proc.devRef .tc main_arg1)
    _ = (RowSum.dat0 (E1 m) c).arrAt 0 cfg0.N := X2_arr m c 0
    _ = (RowSum.dat0 (E1 m) c).A 0 := (RowSum.dat0 (E1 m) c).arrAt_in 0 rfl _
    _ = X1 m c (Proc.devRef .tc main_arg1) := RowSum.A_eq0 (E1 m) c 0
    _ = Gen.V0 m c (Proc.devRef .tc main_arg1) := Gen.V1_of m c main_arg1 (by decide)
    _ = m ((c : Thread nD τ).loc main_arg1) := rfl
theorem X3_main_arg1 (c : Dev nD) : X3 m c (Proc.devRef .tc main_arg1) = m ((c : Thread nD τ).loc main_arg1) :=
  calc X3 m c (Proc.devRef .tc main_arg1)
    _ = (MainPass.dat1 (E2 m) c).arrAt 0 cfg1.N := X3_arr m c 0
    _ = (MainPass.dat1 (E2 m) c).A 0 := (MainPass.dat1 (E2 m) c).arrAt_in 0 rfl _
    _ = X2 m c (Proc.devRef .tc main_arg1) := MainPass.A_eq1 (E2 m) c 0
    _ = m ((c : Thread nD τ).loc main_arg1) := X2_main_arg1 m c

/-! ## The proof-data family and the thread state -/

abbrev adm : (p : Fin 2) → (pcfgs (F := F) p).Adm := fun p => (cfgs p).toPCfg_adm
/-- Each pass's proof data at its entry contents: a literal `match`. -/
def pdats : (p : Fin 2) → (c : Dev nD) → Dat τ (Elt F) Unit ℕ (UR sig nD τ) ℕ (Pipeline.pin (pcfgs (F := F)) adm p) c
  | ⟨0, _⟩ => fun c => RowSum.dat0 (E1 m) c
  | ⟨1, _⟩ => fun c => MainPass.dat1 (E2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- The host operations as a segment from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (X3 m c) ∗ ∃ r, prngReg c r)

/-! ## The passes as segments -/

set_option backward.isDefEq.respectTransparency.types false in
/-- REGION 0 over the thread state: entered from every unscoped buffer at the boundary's contents, left with this
    region's arrays at what its write-backs leave and every other buffer as entered. Its arrays are split out of the
    unscoped buffers and put back at the exit; the generator register goes into the invariant and comes back; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (RowSum.body_obligation0 (E1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (RowSum.hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the boundary's contents, left with this
    region's arrays at what its write-backs leave and every other buffer as entered. Its arrays are split out of the
    unscoped buffers and put back at the exit; the generator register goes into the invariant and comes back; nothing
    is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (MainPass.body_obligation1 (E2 m) c).loose
  hwaits := Pipeline.hwaits_of_owed_zero _ _ _ _ L lv 1 fun _ _ => rfl
  pre c := iprop(StableHlo.held (c : Thread nD τ) (Pipeline.ucRefs τ sig) (X2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (MainPass.hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and the
    final memory holds every unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = X3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X3 m c b)
    (hfin := fun c s' => by
      iintro ⟨⟨Hh, -⟩, HSI⟩
      unfold StableHlo.held
      imodintro
      iapply (pointsTo_read_all (Pipeline.ucRefs τ sig) (fun b => (((c : Thread nD τ)).1, b)) (X3 m c) s')
      isplitl [Hh] <;> iassumption)
    (hQ := fun s h c => h c)

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (X3_main_arg0 m c),
     (h c _ (mem_uc main_arg1 (by decide))).trans (X3_main_arg1 m c),
     (h c _ (mem_uc main_arg2 (by decide))).trans (X3_main_arg2 m c)⟩) (run_all m ρ)

/-- The run with the two results named: the main pass's output arrays after its last write-back. -/
theorem run_results (ρ : Dev nD → PrngReg) : θ_run defs (onTc (τ := τ) (main (F := F))) ⟨m, fun _ => 0, ρ⟩ (fun r => ∀ c : Dev nD,
      r.2.mem ((c.tc : Thread nD τ).loc main_v5_1) = (MainPass.dat1 (E2 m) c).arrAt 7 cfg1.N
      ∧ r.2.mem ((c.tc : Thread nD τ).loc main_v5_0) = (MainPass.dat1 (E2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v5_1 (by decide))).trans (X3_arr m c 7),
     (h c _ (mem_uc main_v5_0 (by decide))).trans (X3_arr m c 6),
     (h c _ (mem_uc main_arg0 (by decide))).trans (X3_main_arg0 m c),
     (h c _ (mem_uc main_arg1 (by decide))).trans (X3_main_arg1 m c),
     (h c _ (mem_uc main_arg2 (by decide))).trans (X3_main_arg2 m c)⟩) (run_all m ρ)

end Cert.KernelIdeal.Whole

end
-- ==== Proof.KRowSumRuns.lean ====
/-
  The row-sum pass (the first pallas_call) as one region of the pipeline, at the contents `V` its core's buffers
  hold when the region is entered, for any float instance.

  The grid is 8 row blocks × 16 column blocks, point `t` = (t / 16, t % 16). The body keeps a running row sum in a
  scratch buffer: it zeroes it where the column block is 0, adds the point's lane sums, and where the column block
  is 15 copies it into the output window, whose block is written back at exactly those points. So there are three
  control cases: A (column block 0), B (1 … 14), C (15). Per case the body's triple is run once on whole staging
  memrefs, the pieces it stores found by the run; `outsAt0` then says by recursion on the point what the output's
  buffer and the scratch hold after each point, the invariant `PhiS` carries the scratch from a point to the next,
  and the body obligation is a case split on `t % 16`.
-/
import proofs.«159665_j72739566125272_1_alg».proof.Proof.Gen.Kernel.Launch
import proofs.«159665_j72739566125272_1_alg».proof.Proof.Gen.Kernel.Skeleton
import proofs.«159665_j72739566125272_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.RowSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffers when the region is entered: the parameter everything below is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched the block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, in closed form over the grid -/

/-- `column block = 0`, as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- `column block = 15`, as the body computes it. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where a window is idle: the inputs never; the output wherever the column block is not 15, and there its
    block is not written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the pipeline calls the body with -/

abbrev ms0_0 (t : Fin cfg0.N) : Memref sig .tc .vmem S1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The scratch operand: the running row sum. -/
abbrev scM0 : Memref sig .tc .vmem S1024x1 .f32 := Memref.whole cc0_scratch0
/-- The views through which the scratch's and the output buffer's contents are stated. -/
abbrev VS0 : View sig .tc .vmem S1024x1 .f32 := scM0.view
abbrev VO0_4 : View sig .tc .vmem S1024x1 .f32 := (Memref.whole cc0_stg4_0 : Memref sig .tc .vmem S1024x1 .f32).view

/-! ## The invariant's parts: the scratch, and the core's other scoped buffers that are no staging buffer of this call -/

/-- The core's other scoped buffers (the other call's staging buffers and scratch), unopened. -/
abbrev others0 (c : Dev nD) : sProp 𝕄 :=
  Pipeline.scopedRestBut (Ix := Unit) (Name := ℕ) (U := UR sig nD τ) (Lvl := ℕ) (Val := Elt F) spec0 c [cc0_scratch0]
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others0 c) :=
  Pipeline.scopedRest_split_of_list spec0 c [cc0_scratch0] (by decide) (by decide)
/-- The class invariant with the scratch as a memref owned at some contents. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA; rw [scopedRest0_split]; simp only [scM0, owns_whole]; try rfl

/-! ## The body's triple, case by case -/

set_option maxHeartbeats 4000000 in
/-- CASE A (column block 0). On whole staging memrefs, the inputs' at their contents, the output's at contents
    handed back untouched, the scratch at anything: the body runs to the continuation holding the inputs' as they
    were and the scratch with the pieces `LS0` written (the reset, then the update). -/
noncomputable def kernelRun0_A (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x3 .f32) (x1 : Vec F S3x512 .f32) (x2 : Vec F S1024x1 .f32) (x3 : Vec F S1x512 .f32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__rowsum_kernel i arg2 harg2 arg3 harg3 arg4 harg4 arg5 harg5 arg6 harg6 arg7 harg7) K } := by
  refine ⟨?_, fun xi4 E K => ?run⟩
  case run =>
    simp only [cc0__rowsum_kernel_eq_skeleton]; unfold cc0__rowsum_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE B (column blocks 1 … 14): as case A, the scratch at the contents `xs0` the point before left, no reset. -/
noncomputable def kernelRun0_B (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x3 .f32) (x1 : Vec F S3x512 .f32) (x2 : Vec F S1024x1 .f32) (x3 : Vec F S1x512 .f32) (xs0 : Vec F S1024x1 .f32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__rowsum_kernel i arg2 harg2 arg3 harg3 arg4 harg4 arg5 harg5 arg6 harg6 arg7 harg7) K } := by
  refine ⟨?_, fun xi4 E K => ?run⟩
  case run =>
    simp only [cc0__rowsum_kernel_eq_skeleton]; unfold cc0__rowsum_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE C (column block 15): the scratch at `xs0`, the output's buffer at anything; the body leaves the scratch
    with `LS0` written and the output's buffer with `L4` written (the copy of the updated scratch). -/
noncomputable def kernelRun0_C (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x3 .f32) (x1 : Vec F S3x512 .f32) (x2 : Vec F S1024x1 .f32) (x3 : Vec F S1x512 .f32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__rowsum_kernel i arg2 harg2 arg3 harg3 arg4 harg4 arg5 harg5 arg6 harg6 arg7 harg7) K } := by
  refine ⟨?_, ?_, fun E K => ?run⟩
  case run =>
    simp only [cc0__rowsum_kernel_eq_skeleton]; unfold cc0__rowsum_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.RowSum

end
-- ==== Proof.KRowSumFrame.lean ====
/-
  The row-sum pass as one region, continued: what each control case leaves in the scratch and in the output's
  buffer (the pieces its run found, read back), the contents point by point (`outsAt0`: the running row sum after
  point `t` is the case's update of what point `t − 1` left, reset where the column block is 0), the invariant that
  carries the scratch from point to point, the pipeline's proof data, and the body obligation at every point.
-/
import proofs.«159665_j72739566125272_1_alg».proof.Proof.Gen.Kernel.Launch
import proofs.«159665_j72739566125272_1_alg».proof.Proof.Gen.Kernel.Skeleton
import proofs.«159665_j72739566125272_1_alg».proof.Proof.Gen.Kernel.Points
import proofs.«159665_j72739566125272_1_alg».proof.Proof.KRowSumRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.RowSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces cover the scratch. -/
theorem scover0_A (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x3 .f32) (x1 : Vec F S3x512 .f32) (x2 : Vec F S1024x1 .f32) (x3 : Vec F S1x512 .f32) (y : S1024x1.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1024x1.size (by sl_kernel_rfl) y
/-- What case A leaves in the scratch: its pieces read back. -/
def sout0_A (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x3 .f32) (x1 : Vec F S3x512 .f32) (x2 : Vec F S1024x1 .f32) (x3 : Vec F S1x512 .f32) : Vec F S1024x1 .f32 :=
  VS0.read (Elt F) (VS0.writes (Elt F) VS0.junk (kernelRun0_A c i arg2 harg2 arg3 harg3 arg4 harg4 arg5 harg5 arg6 harg6 arg7 harg7 hc0 hc1 x0 x1 x2 x3).1)

theorem scover0_B (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x3 .f32) (x1 : Vec F S3x512 .f32) (x2 : Vec F S1024x1 .f32) (x3 : Vec F S1x512 .f32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S1024x1.size (by sl_kernel_rfl) y
def sout0_B (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x3 .f32) (x1 : Vec F S3x512 .f32) (x2 : Vec F S1024x1 .f32) (x3 : Vec F S1x512 .f32) (xs0 : Vec F S1024x1 .f32) : Vec F S1024x1 .f32 :=
  VS0.read (Elt F) (VS0.writes (Elt F) VS0.junk (kernelRun0_B c i arg2 harg2 arg3 harg3 arg4 harg4 arg5 harg5 arg6 harg6 arg7 harg7 hc0 hc1 x0 x1 x2 x3 xs0).1)

/-- Case C's pieces for the output's buffer cover it, -/
theorem cover0_C_4 (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x3 .f32) (x1 : Vec F S3x512 .f32) (x2 : Vec F S1024x1 .f32) (x3 : Vec F S1x512 .f32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y
/-- and what it leaves there: the row totals. -/
def out0_C_4 (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x3 .f32) (x1 : Vec F S3x512 .f32) (x2 : Vec F S1024x1 .f32) (x3 : Vec F S1x512 .f32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)
theorem scover0_C (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x3 .f32) (x1 : Vec F S3x512 .f32) (x2 : Vec F S1024x1 .f32) (x3 : Vec F S1x512 .f32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y
def sout0_C (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x3 .f32) (x1 : Vec F S3x512 .f32) (x2 : Vec F S1024x1 .f32) (x3 : Vec F S1x512 .f32) (xs0 : Vec F S1024x1 .f32) : Vec F S1024x1 .f32 :=
  VS0.read (Elt F) (VS0.writes (Elt F) VS0.junk (kernelRun0_C c i arg2 harg2 arg3 harg3 arg4 harg4 arg5 harg5 arg6 harg6 arg7 harg7 hc0 hc1 x0 x1 x2 x3 xs0).2.1)

/-- Where the output is idle nothing consults its buffer's contents: a placeholder. -/
def idle0_4 : Vec F S1024x1 .f32 := VO0_4.read (Elt F) (VO0_4.writes (Elt F) VO0_4.junk [])

/-! ## Point by point -/

/-- What the output's buffer and the scratch hold after the body at point `n`: the case `n % 16` selects, run at
    the point's memrefs and blocks, over the scratch as the point before left it. -/
def outsAt0 (c : Dev nD) : (n : ℕ) → n < cfg0.N → Vec F S1024x1 .f32 × Vec F S1024x1 .f32
  | 0, hn => (idle0_4, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 16 = 0 then
      if h1 : (n + 1) % 16 = 15 then
        False.elim (by omega)
      else
        (idle0_4, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (idle0_4, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (idle0_4, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (idle0_4, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the class's invariant (every scoped buffer at anything, the generator register at some
    state); before point `n + 1` the scratch at what point `n` left in it, the other scoped buffers at anything,
    the generator register at some state. -/
def PhiS (c : Dev nD) : (n : ℕ) → n ≤ cfg0.N → sProp 𝕄
  | 0, _ => Pipeline.ΦA spec0 c
  | n + 1, hn => iprop((owns (c : Thread nD τ) scM0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM0 fullShare ((outsAt0 V c n hn).2) ∗ others0 c) ∗ (∃ r, prngReg c r)) := rfl
theorem PhiS_pos (c : Dev nD) (n : ℕ) (h : n ≤ cfg0.N) (hz : n ≠ 0) :
    PhiS V c n h = iprop((owns (c : Thread nD τ) scM0 fullShare ((outsAt0 V c (n - 1) (by omega)).2) ∗ others0 c) ∗ (∃ r, prngReg c r)) := by
  cases n with
  | zero => exact absurd rfl hz
  | succ n => rfl

/-! ## The pipeline's proof data -/

/-- The arrays as the region finds them; after the body at point `t` each input's buffer at its block and the
    output's at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))
/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 8000000 in
/-- The body at any point: the inputs' memrefs hold their blocks; `t % 16` says which case the point is in; the
    invariant hands the body the scratch (at what the point before left, or at anything at the very first point) and
    takes it back at this point's contents; where the output is idle its buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 128 := lt_of_lt_of_eq t.isLt (show cfg0.N = 128 from N_0)
  by_cases h0 : t.val % 16 = 0
  · have h1 : ¬t.val % 16 = 15 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _
/-- and after the last point the invariant gives it back, the scratch's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 128 := N_0; omega
  rw [show (dat0 V c).Φ (Fin.last cfg0.N) = PhiS V c (Fin.last cfg0.N).val (Nat.le_of_lt_succ (Fin.last cfg0.N).isLt) from rfl,
    PhiS_pos V c _ _ hne, PhiA0_eq]
  iintro ⟨⟨HS0, Hoth⟩, Hg⟩
  isplitl [HS0 Hoth]
  · isplitl [HS0]
    · iexists _; iexact HS0
    iexact Hoth
  iexact Hg

end Cert.Kernel.RowSum

end
-- ==== Proof.KMainPassRuns.lean ====
/-
  The main pass (the second pallas_call) as one region of the pipeline, at the contents `V` its core's buffers
  hold when the region is entered, for any float instance.

  Same grid, 8 row blocks × 16 column blocks. At every point the body recomputes the tile of weights, divides it by
  the rows' totals (read through an input window) and stores the normalised tile whole into the first output's
  buffer, which is written back at every point; it keeps a [1024, 128] accumulator in a scratch buffer — zeroed where
  the column block is 0, the tile times the latent block added at every point — and where the column block is 15
  copies it into the second output's buffer, written back at exactly those points. Three control cases as in the
  row-sum pass: A (column block 0), B (1 … 14), C (15).
-/
import proofs.«159665_j72739566125272_1_alg».proof.Proof.Gen.Kernel.Launch
import proofs.«159665_j72739566125272_1_alg».proof.Proof.Gen.Kernel.Skeleton
import proofs.«159665_j72739566125272_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.MainPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, in closed form over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where a window is idle: only the second output, wherever the column block is not 15 -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The memrefs the pipeline calls the body with -/

abbrev ms1_0 (t : Fin cfg1.N) : Memref sig .tc .vmem S1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x128 .f32 := win1_7.stage (cfg1.slots t 7)
abbrev hs1_7 (t : Fin cfg1.N) : (ms1_7 t).IsWhole := hstage1_7 ((cfg1.slots t 7).cast nbuf1_7)
/-- The scratch operand: the accumulator of the product with the latents. -/
abbrev scM1 : Memref sig .tc .vmem S1024x128 .f32 := Memref.whole cc1_scratch0
abbrev VS1 : View sig .tc .vmem S1024x128 .f32 := scM1.view
abbrev VO1_6 : View sig .tc .vmem S1024x512 .f32 := (Memref.whole cc1_stg6_0 : Memref sig .tc .vmem S1024x512 .f32).view
abbrev VO1_7 : View sig .tc .vmem S1024x128 .f32 := (Memref.whole cc1_stg7_0 : Memref sig .tc .vmem S1024x128 .f32).view

/-! ## The invariant's parts -/

/-- The core's other scoped buffers (the other call's staging buffers and scratch), unopened. -/
abbrev others1 (c : Dev nD) : sProp 𝕄 :=
  Pipeline.scopedRestBut (Ix := Unit) (Name := ℕ) (U := UR sig nD τ) (Lvl := ℕ) (Val := Elt F) spec1 c [cc1_scratch0]
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others1 c) :=
  Pipeline.scopedRest_split_of_list spec1 c [cc1_scratch0] (by decide) (by decide)
theorem PhiA1_eq (c : Dev nD) :
    (Pipeline.ΦA spec1 c : sProp 𝕄)
      = iprop(((∃ d, owns (c : Thread nD τ) scM1 fullShare d) ∗ others1 c) ∗ (∃ r, prngReg c r)) := by
  unfold Pipeline.ΦA; rw [scopedRest1_split]; simp only [scM1, owns_whole]; try rfl

/-! ## The body's triple, case by case -/

set_option maxHeartbeats 4000000 in
/-- CASE A (column block 0): the inputs' memrefs at their contents, the first output's at anything, the second
    output's at contents handed back untouched, the scratch at anything; the body leaves the first output's buffer
    with `L6` written (the normalised tile) and the scratch with `LS0` written (the reset, then the update). -/
noncomputable def kernelRun1_A (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) :
    Σ' (L6 : List (View.Piece (Elt F) S1024x512 .f32)), { LS0 : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc1__main_kernel_eq_skeleton]; unfold cc1__main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

set_option maxHeartbeats 4000000 in
/-- CASE B (column blocks 1 … 14): as case A, the scratch at the contents `xs0` the point before left, no reset. -/
noncomputable def kernelRun1_B (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) :
    Σ' (L6 : List (View.Piece (Elt F) S1024x512 .f32)), { LS0 : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc1__main_kernel_eq_skeleton]; unfold cc1__main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

set_option maxHeartbeats 4000000 in
/-- CASE C (column block 15): the scratch at `xs0`, both outputs' buffers at anything; the body leaves the first
    output's buffer with `L6` written, the second's with `L7` written (the copy of the updated accumulator) and the
    scratch with `LS0` written. -/
noncomputable def kernelRun1_C (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) :
    Σ' (L6 : List (View.Piece (Elt F) S1024x512 .f32)) (L7 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__main_kernel_eq_skeleton]; unfold cc1__main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.Kernel.MainPass

end
-- ==== Proof.KMainPassFrame.lean ====
/-
  The main pass as one region, continued: what each control case leaves in the two outputs' buffers and in the
  scratch, the contents point by point (`outsAt1`), the invariant carrying the accumulator, the pipeline's proof
  data and the body obligation at every point.
-/
import proofs.«159665_j72739566125272_1_alg».proof.Proof.Gen.Kernel.Launch
import proofs.«159665_j72739566125272_1_alg».proof.Proof.Gen.Kernel.Skeleton
import proofs.«159665_j72739566125272_1_alg».proof.Proof.Gen.Kernel.Points
import proofs.«159665_j72739566125272_1_alg».proof.Proof.KMainPassRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.MainPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for the first output's buffer cover it, -/
theorem cover1_A_6 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (y : S1024x512.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).1 S1024x512.size (by sl_kernel_rfl) y
/-- and what it leaves there: the normalised tile. -/
def out1_A_6 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) : Vec F S1024x512 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 x0 x1 x2 x3 x4 x5).1)
theorem scover1_A (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (y : S1024x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).2.1 S1024x128.size (by sl_kernel_rfl) y
/-- In the scratch: the accumulator after the point. -/
def sout1_A (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) : Vec F S1024x128 .f32 :=
  VS1.read (Elt F) (VS1.writes (Elt F) VS1.junk (kernelRun1_A c i arg2 harg2 arg3 harg3 arg4 harg4 arg5 harg5 arg6 harg6 arg7 harg7 arg8 harg8 arg9 harg9 arg10 harg10 hc0 hc1 x0 x1 x2 x3 x4 x5).2.1)

/-- Case B's pieces for the first output's buffer cover it, -/
theorem cover1_B_6 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) (y : S1024x512.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs0).1 S1024x512.size (by sl_kernel_rfl) y
/-- and what it leaves there: the normalised tile. -/
def out1_B_6 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) : Vec F S1024x512 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 x0 x1 x2 x3 x4 x5 xs0).1)
theorem scover1_B (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) (y : S1024x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs0).2.1 S1024x128.size (by sl_kernel_rfl) y
/-- In the scratch: the accumulator after the point. -/
def sout1_B (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) : Vec F S1024x128 .f32 :=
  VS1.read (Elt F) (VS1.writes (Elt F) VS1.junk (kernelRun1_B c i arg2 harg2 arg3 harg3 arg4 harg4 arg5 harg5 arg6 harg6 arg7 harg7 arg8 harg8 arg9 harg9 arg10 harg10 hc0 hc1 x0 x1 x2 x3 x4 x5 xs0).2.1)

/-- Case C's pieces for the first output's buffer cover it, -/
theorem cover1_C_6 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) (y : S1024x512.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0).1 S1024x512.size (by sl_kernel_rfl) y
/-- and what it leaves there: the normalised tile. -/
def out1_C_6 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) : Vec F S1024x512 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 x5 xs0).1)
theorem cover1_C_7 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0).2.1 S1024x128.size (by sl_kernel_rfl) y
/-- In the second output's buffer: the accumulated product. -/
def out1_C_7 (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) : Vec F S1024x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x3 x4 x5 xs0).2.1)
theorem scover1_C (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0).2.2.1 S1024x128.size (by sl_kernel_rfl) y
/-- In the scratch: the accumulator after the point. -/
def sout1_C (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) : Vec F S1024x128 .f32 :=
  VS1.read (Elt F) (VS1.writes (Elt F) VS1.junk (kernelRun1_C c i arg2 harg2 arg3 harg3 arg4 harg4 arg5 harg5 arg6 harg6 arg7 harg7 arg8 harg8 arg9 harg9 arg10 harg10 hc0 hc1 x0 x1 x2 x3 x4 x5 xs0).2.2.1)

/-- Where the second output is idle nothing consults its buffer's contents: a placeholder. -/
def idle1_7 : Vec F S1024x128 .f32 := VO1_7.read (Elt F) (VO1_7.writes (Elt F) VO1_7.junk [])

/-! ## Point by point -/

/-- What the two outputs' buffers and the scratch hold after the body at point `n`. -/
def outsAt1 (c : Dev nD) : (n : ℕ) → n < cfg1.N → Vec F S1024x512 .f32 × Vec F S1024x128 .f32 × Vec F S1024x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
      idle1_7,
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
         idle1_7,
         sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
         out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
         idle1_7,
         sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)

theorem outsAt1_A (c : Dev nD) (t : Fin cfg1.N) (h0 : t.val % 16 = 0) (h1 : ¬t.val % 16 = 15) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), idle1_7, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, idle1_7,
      sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2,
      out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

def PhiS1 (c : Dev nD) : (n : ℕ) → n ≤ cfg1.N → sProp 𝕄
  | 0, _ => Pipeline.ΦA spec1 c
  | n + 1, hn => iprop((owns (c : Thread nD τ) scM1 fullShare ((outsAt1 V c n hn).2.2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2.2) ∗ others1 c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2.2) ∗ others1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hN : t.val < 128 := lt_of_lt_of_eq t.isLt (show cfg1.N = 128 from N_1)
  by_cases h0 : t.val % 16 = 0
  · have h1 : ¬t.val % 16 = 15 := by omega
    rw [Dat.leavesExact_idle (dat1 V c) 7 t (idleAt1_7 t (fun h => h1 ((hcond1_1 t).mp h))) (noFlush1_7 t (fun h => h1 ((hcond1_1 t).mp h)))]
    rw [outsAt1_A V c t h0 h1]
    unfold out1_A_6 sout1_A; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _)
      iexists _; iexact H7
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexists _; iexact HS0
      iintro ⟨H0, H1, H2, H3, H4, H5, ⟨%e6, H6⟩, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _)
      iexists _; iexact H7
  · have hz : t.val ≠ 0 := fun h => h0 (by rw [h])
    by_cases h1 : t.val % 16 = 15
    · rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_C V c t h0 h1]
      unfold out1_C_6 out1_C_7 sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _ _ _)
    · rw [Dat.leavesExact_idle (dat1 V c) 7 t (idleAt1_7 t (fun h => h1 ((hcond1_1 t).mp h))) (noFlush1_7 t (fun h => h1 ((hcond1_1 t).mp h)))]
      rw [outsAt1_B V c t h0 h1]
      unfold out1_B_6 sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _)
      iexists _; iexact H7

set_option maxHeartbeats 4000000 in
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _
set_option maxHeartbeats 4000000 in
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, Hoth⟩, Hg⟩
  isplitl [HS0 Hoth]
  · isplitl [HS0]
    · iexists _; iexact HS0
    iexact Hoth
  iexact Hg

end Cert.Kernel.MainPass

end
-- ==== Proof.KWholeRun.lean ====
/-
  The whole program's run: @main is four host operations (the exponents reshaped to a column and to a row, the
  coordinates transposed, the latents narrowed), the row-sum pass, the main pass. The buffers' contents at each
  boundary are a fold from the launch memory: after the host operations (`X1`), after the row-sum pass (`X2`: its
  arrays at what its write-backs leave, every other buffer as entered) and after the main pass (`X3`). Each pass is
  a region of the pipeline over the thread state "every unscoped buffer at the boundary's contents, the generator
  register at some state, nothing owed"; the launch theorem for a list of segments composes them, and the last thread
  state read against the final memory gives every unscoped buffer at `X3` — from which the argument arrays are read
  back to the launch memory and the two results are the main pass's output arrays after its last write-back.
-/
import proofs.«159665_j72739566125272_1_alg».proof.Proof.Gen.Kernel.Launch
import proofs.«159665_j72739566125272_1_alg».proof.Proof.Gen.Kernel.Skeleton
import proofs.«159665_j72739566125272_1_alg».proof.Proof.Gen.Kernel.Points
import proofs.«159665_j72739566125272_1_alg».proof.Proof.Gen.Kernel.Regions
import proofs.«159665_j72739566125272_1_alg».proof.Proof.KRowSumFrame
import proofs.«159665_j72739566125272_1_alg».proof.Proof.KMainPassFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- After the host operations: the row-sum pass's entry. -/
abbrev X1 (c : Dev nD) : Valuation τ sig (Elt F) := Gen.V1 m c
/-- The same read at the TensorCore's references. -/
abbrev E1 : (c : Dev nD) → (b : Ref sig .tc) → Buf (Elt F) ((c : Thread nD τ).loc b) := fun c b => X1 m c b
/-- After the row-sum pass: its arrays at what the pipeline leaves, every other buffer as entered. -/
def X2 (c : Dev nD) : Valuation τ sig (Elt F) :=
  Pipeline.withArrays spec0 c (X1 m c) fun w => (RowSum.dat0 (E1 m) c).arrAt w cfg0.N
theorem X2_arr (c : Dev nD) (w : Fin cfg0.W) :
    X2 m c (Proc.devRef .tc (Pipeline.arrRef spec0 w)) = (RowSum.dat0 (E1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev E2 : (c : Dev nD) → (b : Ref sig .tc) → Buf (Elt F) ((c : Thread nD τ).loc b) := fun c b => X2 m c b
theorem hF0 (c : Dev nD) (w : Fin cfg0.W) : (RowSum.dat0 (E1 m) c).arrAt w cfg0.N = E2 m c (Pipeline.arrRef spec0 w) :=
  (X2_arr m c w).symm
theorem hrest0 (c : Dev nD) : ∀ b, b ∉ Finset.univ.image (Pipeline.arrRef spec0) → E2 m c b = E1 m c b :=
  fun b hb => X2_of_ne m c b fun w e => hb (Finset.mem_image.mpr ⟨w, Finset.mem_univ _, e⟩)
/-- After the main pass. -/
def X3 (c : Dev nD) : Valuation τ sig (Elt F) :=
  Pipeline.withArrays spec1 c (X2 m c) fun w => (MainPass.dat1 (E2 m) c).arrAt w cfg1.N
theorem X3_arr (c : Dev nD) (w : Fin cfg1.W) :
    X3 m c (Proc.devRef .tc (Pipeline.arrRef spec1 w)) = (MainPass.dat1 (E2 m) c).arrAt w cfg1.N := by
  unfold X3; exact Pipeline.withArrays_arr spec1 launch1.win.arr_inj c _ _ w
theorem X3_of_ne (c : Dev nD) (b : Ref sig .tc) (hb : ∀ w, Pipeline.arrRef spec1 w ≠ b) :
    X3 m c (Proc.devRef .tc b) = X2 m c (Proc.devRef .tc b) := by
  unfold X3; exact Pipeline.withArrays_of_ne spec1 c _ _ b hb
abbrev E3 : (c : Dev nD) → (b : Ref sig .tc) → Buf (Elt F) ((c : Thread nD τ).loc b) := fun c b => X3 m c b
theorem hF1 (c : Dev nD) (w : Fin cfg1.W) : (MainPass.dat1 (E2 m) c).arrAt w cfg1.N = E3 m c (Pipeline.arrRef spec1 w) :=
  (X3_arr m c w).symm
theorem hrest1 (c : Dev nD) : ∀ b, b ∉ Finset.univ.image (Pipeline.arrRef spec1) → E3 m c b = E2 m c b :=
  fun b hb => X3_of_ne m c b fun w e => hb (Finset.mem_image.mpr ⟨w, Finset.mem_univ _, e⟩)

/-! ### The arguments end as launched: the latents and the exponents are no window of either pass and no host
    operation writes them; the coordinates are an INPUT window of both passes, so each pass leaves them as entered -/

theorem X3_main_arg0 (c : Dev nD) : X3 m c (Proc.devRef .tc main_arg0) = m ((c : Thread nD τ).loc main_arg0) :=
  calc X3 m c (Proc.devRef .tc main_arg0)
    _ = X2 m c (Proc.devRef .tc main_arg0) := X3_of_ne m c main_arg0 (by decide)
    _ = X1 m c (Proc.devRef .tc main_arg0) := X2_of_ne m c main_arg0 (by decide)
    _ = Gen.V0 m c (Proc.devRef .tc main_arg0) := Gen.V1_of m c main_arg0 (by decide)
    _ = m ((c : Thread nD τ).loc main_arg0) := rfl
theorem X3_main_arg2 (c : Dev nD) : X3 m c (Proc.devRef .tc main_arg2) = m ((c : Thread nD τ).loc main_arg2) :=
  calc X3 m c (Proc.devRef .tc main_arg2)
    _ = X2 m c (Proc.devRef .tc main_arg2) := X3_of_ne m c main_arg2 (by decide)
    _ = X1 m c (Proc.devRef .tc main_arg2) := X2_of_ne m c main_arg2 (by decide)
    _ = Gen.V0 m c (Proc.devRef .tc main_arg2) := Gen.V1_of m c main_arg2 (by decide)
    _ = m ((c : Thread nD τ).loc main_arg2) := rfl
theorem X2_main_arg1 (c : Dev nD) : X2 m c (Proc.devRef .tc main_arg1) = m ((c : Thread nD τ).loc main_arg1) :=
  calc X2 m c (Proc.devRef .tc main_arg1)
    _ = (RowSum.dat0 (E1 m) c).arrAt 0 cfg0.N := X2_arr m c 0
    _ = (RowSum.dat0 (E1 m) c).A 0 := (RowSum.dat0 (E1 m) c).arrAt_in 0 rfl _
    _ = X1 m c (Proc.devRef .tc main_arg1) := RowSum.A_eq0 (E1 m) c 0
    _ = Gen.V0 m c (Proc.devRef .tc main_arg1) := Gen.V1_of m c main_arg1 (by decide)
    _ = m ((c : Thread nD τ).loc main_arg1) := rfl
theorem X3_main_arg1 (c : Dev nD) : X3 m c (Proc.devRef .tc main_arg1) = m ((c : Thread nD τ).loc main_arg1) :=
  calc X3 m c (Proc.devRef .tc main_arg1)
    _ = (MainPass.dat1 (E2 m) c).arrAt 0 cfg1.N := X3_arr m c 0
    _ = (MainPass.dat1 (E2 m) c).A 0 := (MainPass.dat1 (E2 m) c).arrAt_in 0 rfl _
    _ = X2 m c (Proc.devRef .tc main_arg1) := MainPass.A_eq1 (E2 m) c 0
    _ = m ((c : Thread nD τ).loc main_arg1) := X2_main_arg1 m c

/-! ## The proof-data family and the thread state -/

abbrev adm : (p : Fin 2) → (pcfgs (F := F) p).Adm := fun p => (cfgs p).toPCfg_adm
/-- Each pass's proof data at its entry contents: a literal `match`. -/
def pdats : (p : Fin 2) → (c : Dev nD) → Dat τ (Elt F) Unit ℕ (UR sig nD τ) ℕ (Pipeline.pin (pcfgs (F := F)) adm p) c
  | ⟨0, _⟩ => fun c => RowSum.dat0 (E1 m) c
  | ⟨1, _⟩ => fun c => MainPass.dat1 (E2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- The host operations as a segment from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (X3 m c) ∗ ∃ r, prngReg c r)

/-! ## The passes as segments -/

set_option backward.isDefEq.respectTransparency.types false in
/-- REGION 0 over the thread state: entered from every unscoped buffer at the boundary's contents, left with this
    region's arrays at what its write-backs leave and every other buffer as entered. Its arrays are split out of the
    unscoped buffers and put back at the exit; the generator register goes into the invariant and comes back; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (RowSum.body_obligation0 (E1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (RowSum.hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the boundary's contents, left with this
    region's arrays at what its write-backs leave and every other buffer as entered. Its arrays are split out of the
    unscoped buffers and put back at the exit; the generator register goes into the invariant and comes back; nothing
    is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (MainPass.body_obligation1 (E2 m) c).loose
  hwaits := Pipeline.hwaits_of_owed_zero _ _ _ _ L lv 1 fun _ _ => rfl
  pre c := iprop(StableHlo.held (c : Thread nD τ) (Pipeline.ucRefs τ sig) (X2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (MainPass.hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and the
    final memory holds every unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = X3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X3 m c b)
    (hfin := fun c s' => by
      iintro ⟨⟨Hh, -⟩, HSI⟩
      unfold StableHlo.held
      imodintro
      iapply (pointsTo_read_all (Pipeline.ucRefs τ sig) (fun b => (((c : Thread nD τ)).1, b)) (X3 m c) s')
      isplitl [Hh] <;> iassumption)
    (hQ := fun s h c => h c)

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (X3_main_arg0 m c),
     (h c _ (mem_uc main_arg1 (by decide))).trans (X3_main_arg1 m c),
     (h c _ (mem_uc main_arg2 (by decide))).trans (X3_main_arg2 m c)⟩) (run_all m ρ)

/-- The run with the two results named: the main pass's output arrays after its last write-back. -/
theorem run_results (ρ : Dev nD → PrngReg) : θ_run defs (onTc (τ := τ) (main (F := F))) ⟨m, fun _ => 0, ρ⟩ (fun r => ∀ c : Dev nD,
      r.2.mem ((c.tc : Thread nD τ).loc main_v5_1) = (MainPass.dat1 (E2 m) c).arrAt 7 cfg1.N
      ∧ r.2.mem ((c.tc : Thread nD τ).loc main_v5_0) = (MainPass.dat1 (E2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v5_1 (by decide))).trans (X3_arr m c 7),
     (h c _ (mem_uc main_v5_0 (by decide))).trans (X3_arr m c 6),
     (h c _ (mem_uc main_arg0 (by decide))).trans (X3_main_arg0 m c),
     (h c _ (mem_uc main_arg1 (by decide))).trans (X3_main_arg1 m c),
     (h c _ (mem_uc main_arg2 (by decide))).trans (X3_main_arg2 m c)⟩) (run_all m ρ)

end Cert.Kernel.Whole

end
-- ==== Proof.Step.lean ====
/-
  What one grid point computes, as functions of the point's blocks — the skeleton's payloads composed as the two
  kernel bodies compose them, for any float instance. Grid point (a, b) is row block `a` (rows `1024 a + p`) against
  column block `b` (columns `512 b + q`).
  * `acc0`: the row-sum pass. The accumulator after the point: the accumulator before it plus, row by row, the sum over
    the 512 lanes of the tile of unnormalised weights.
  * `tile1`: the main pass. The tile of normalised weights, the raw tile divided row by row by (row total + 1e-8).
  * `acc1`: the main pass. The accumulator after the point: the accumulator before it plus the tile times the latent block.
-/
import proofs.«159665_j72739566125272_1_alg».proof.Proof.Gen.KernelIdeal.Skeleton

noncomputable section

namespace Cert.KernelIdeal.Step

open Idealize.ShloMosaic Cert.KernelIdeal Cert.KernelIdeal.Gen

variable {F : FTy → Type} [FloatOps F]

/-- The first row of row block `a`, as the body computes it (a 32-bit word). -/
abbrev rowWord (a : ℕ) : BitVec 32 := Scalar.muli (BitVec.ofNat 32 a) 1024#32
/-- The first column of column block `b`, as the body computes it. -/
abbrev colWord (b : ℕ) : BitVec 32 := Scalar.muli (BitVec.ofNat 32 b) 512#32

/-- Row-sum pass: the accumulator after point (a, b), from the points' coordinates `x0` (rows) and `x1` (columns,
    transposed), the exponents `x2` (rows) and `x3` (columns), and the accumulator before, `s`. -/
def acc0 (a b : ℕ) (x0 : Vec F S1024x3 .f32) (x1 : Vec F S3x512 .f32) (x2 : Vec F S1024x1 .f32) (x3 : Vec F S1x512 .f32)
    (s : Vec F S1024x1 .f32) : Vec F S1024x1 .f32 :=
  k0_pay1 (k0_pay14 (k0_pay4 x2) (k0_pay5 x3) (rowWord a) (colWord b) (k0_pay12 x0 x1) (k0_pay13 x0 x1) s)

/-- Main pass: the raw tile of weights at point (a, b). -/
def raw1 (a b : ℕ) (x0 : Vec F S1024x3 .f32) (x1 : Vec F S3x512 .f32) (x2 : Vec F S1024x1 .f32) (x3 : Vec F S1x512 .f32) :
    Vec F S1024x512 .f32 :=
  k1_pay15 (k1_pay5 x2) (k1_pay6 x3) (rowWord a) (colWord b) (k1_pay13 x0 x1) (k1_pay14 x0 x1)

/-- Main pass: the normalised tile, from the raw tile's inputs and the rows' totals `x4`. -/
def tile1 (a b : ℕ) (x0 : Vec F S1024x3 .f32) (x1 : Vec F S3x512 .f32) (x2 : Vec F S1024x1 .f32) (x3 : Vec F S1x512 .f32)
    (x4 : Vec F S1024x1 .f32) : Vec F S1024x512 .f32 :=
  k1_pay1 (raw1 a b x0 x1 x2 x3) (k1_pay16 x4)

/-- Main pass: the accumulator after point (a, b): the accumulator before, `s`, plus the normalised tile times the
    latent block `x5`. -/
def acc1 (a b : ℕ) (x0 : Vec F S1024x3 .f32) (x1 : Vec F S3x512 .f32) (x2 : Vec F S1024x1 .f32) (x3 : Vec F S1x512 .f32)
    (x4 : Vec F S1024x1 .f32) (x5 : Vec F S512x128 .bf16) (s : Vec F S1024x128 .f32) : Vec F S1024x128 .f32 :=
  k1_pay2 (raw1 a b x0 x1 x2 x3) (k1_pay16 x4) x5 s

end Cert.KernelIdeal.Step

end
-- ==== Proof.MainPassPieces.lean ====
/-
  The main pass: the pieces each control case's run found, read back, ARE the step functions `tile1` (first output)
  and `acc1` (scratch; second output where it is written) of the point's blocks; hence the contents point by point.
-/
import proofs.«159665_j72739566125272_1_alg».proof.Proof.Gen.KernelIdeal.Launch
import proofs.«159665_j72739566125272_1_alg».proof.Proof.Gen.KernelIdeal.Skeleton
import proofs.«159665_j72739566125272_1_alg».proof.Proof.Gen.KernelIdeal.Points
import proofs.«159665_j72739566125272_1_alg».proof.Proof.MainPassFrame
import proofs.«159665_j72739566125272_1_alg».proof.Proof.Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.MainPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Step

variable (V : (c : Dev nD) → (b : Ref sig .tc) → Buf (Elt F) ((c : Thread nD τ).loc b))

theorem coords1_row : ∀ t : Fin cfg1.N, ((grid1.coords t) 0).val = t.val / 16 :=
  (by decide +kernel : ∀ t : Fin grid1.N, ((grid1.coords t) 0).val = t.val / 16)
theorem coords1_col : ∀ t : Fin cfg1.N, ((grid1.coords t) 1).val = t.val % 16 :=
  (by decide +kernel : ∀ t : Fin grid1.N, ((grid1.coords t) 1).val = t.val % 16)

theorem out1_A_6_eq (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) :
    out1_A_6 c i arg2 harg2 arg3 harg3 arg4 harg4 arg5 harg5 arg6 harg6 arg7 harg7 arg8 harg8 arg9 harg9 arg10 harg10 hc0 hc1 x0 x1 x2 x3 x4 x5 = tile1 (i 0).val (i 1).val x0 x1 x2 x3 x4 := by
  have hz : (![0, 0] : Fin 2 → Nat) = fun _ => 0 := funext fun a => by fin_cases a <;> rfl
  unfold out1_A_6
  rw [View.read_writes_eq_canon _ _ _ (cover1_A_6 c i arg2 harg2 arg3 harg3 arg4 harg4 arg5 harg5 arg6 harg6 arg7 harg7 arg8 harg8 arg9 harg9 arg10 harg10 hc0 hc1 x0 x1 x2 x3 x4 x5)]
  unfold kernelRun1_A
  dsimp only
  sl_unfold_words
  rw [View.canon_unit_zero hz]
  simp only [View.readAt_eq_ld, Memref.IsWhole.read_unread, View.ld_unit_zero (S := S1024x3) hz, View.ld_unit_zero (S := S3x512) hz, View.ld_unit_zero (S := S1024x1) hz, View.ld_unit_zero (S := S1x512) hz, View.ld_unit_zero (S := S512x128) hz, View.ld_unit_zero (S := S1024x128) hz, View.ld_unit_zero (S := S1024x512) hz]
  rfl
theorem sout1_A_eq (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) :
    sout1_A c i arg2 harg2 arg3 harg3 arg4 harg4 arg5 harg5 arg6 harg6 arg7 harg7 arg8 harg8 arg9 harg9 arg10 harg10 hc0 hc1 x0 x1 x2 x3 x4 x5 = acc1 (i 0).val (i 1).val x0 x1 x2 x3 x4 x5 (k1_pay3 (F := F)) := by
  have hz : (![0, 0] : Fin 2 → Nat) = fun _ => 0 := funext fun a => by fin_cases a <;> rfl
  unfold sout1_A
  rw [View.read_writes_eq_canon _ _ _ (scover1_A c i arg2 harg2 arg3 harg3 arg4 harg4 arg5 harg5 arg6 harg6 arg7 harg7 arg8 harg8 arg9 harg9 arg10 harg10 hc0 hc1 x0 x1 x2 x3 x4 x5)]
  unfold kernelRun1_A
  dsimp only
  sl_unfold_words
  rw [View.canon_cons_unit_zero (S := S1024x128) hz, View.readCov_unit_zero (S := S1024x128) _ hz]
  simp only [View.readAt_eq_ld, Memref.IsWhole.read_unread, View.ld_unit_zero (S := S1024x3) hz, View.ld_unit_zero (S := S3x512) hz, View.ld_unit_zero (S := S1024x1) hz, View.ld_unit_zero (S := S1x512) hz, View.ld_unit_zero (S := S512x128) hz, View.ld_unit_zero (S := S1024x128) hz, View.ld_unit_zero (S := S1024x512) hz]
  rfl
theorem out1_B_6_eq (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) :
    out1_B_6 c i arg2 harg2 arg3 harg3 arg4 harg4 arg5 harg5 arg6 harg6 arg7 harg7 arg8 harg8 arg9 harg9 arg10 harg10 hc0 hc1 x0 x1 x2 x3 x4 x5 xs0 = tile1 (i 0).val (i 1).val x0 x1 x2 x3 x4 := by
  have hz : (![0, 0] : Fin 2 → Nat) = fun _ => 0 := funext fun a => by fin_cases a <;> rfl
  unfold out1_B_6
  rw [View.read_writes_eq_canon _ _ _ (cover1_B_6 c i arg2 harg2 arg3 harg3 arg4 harg4 arg5 harg5 arg6 harg6 arg7 harg7 arg8 harg8 arg9 harg9 arg10 harg10 hc0 hc1 x0 x1 x2 x3 x4 x5 xs0)]
  unfold kernelRun1_B
  dsimp only
  sl_unfold_words
  rw [View.canon_unit_zero hz]
  simp only [View.readAt_eq_ld, Memref.IsWhole.read_unread, View.ld_unit_zero (S := S1024x3) hz, View.ld_unit_zero (S := S3x512) hz, View.ld_unit_zero (S := S1024x1) hz, View.ld_unit_zero (S := S1x512) hz, View.ld_unit_zero (S := S512x128) hz, View.ld_unit_zero (S := S1024x128) hz, View.ld_unit_zero (S := S1024x512) hz]
  rfl
theorem sout1_B_eq (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) :
    sout1_B c i arg2 harg2 arg3 harg3 arg4 harg4 arg5 harg5 arg6 harg6 arg7 harg7 arg8 harg8 arg9 harg9 arg10 harg10 hc0 hc1 x0 x1 x2 x3 x4 x5 xs0 = acc1 (i 0).val (i 1).val x0 x1 x2 x3 x4 x5 xs0 := by
  have hz : (![0, 0] : Fin 2 → Nat) = fun _ => 0 := funext fun a => by fin_cases a <;> rfl
  unfold sout1_B
  rw [View.read_writes_eq_canon _ _ _ (scover1_B c i arg2 harg2 arg3 harg3 arg4 harg4 arg5 harg5 arg6 harg6 arg7 harg7 arg8 harg8 arg9 harg9 arg10 harg10 hc0 hc1 x0 x1 x2 x3 x4 x5 xs0)]
  unfold kernelRun1_B
  dsimp only
  sl_unfold_words
  rw [View.canon_unit_zero hz]
  simp only [View.readAt_eq_ld, Memref.IsWhole.read_unread, View.ld_unit_zero (S := S1024x3) hz, View.ld_unit_zero (S := S3x512) hz, View.ld_unit_zero (S := S1024x1) hz, View.ld_unit_zero (S := S1x512) hz, View.ld_unit_zero (S := S512x128) hz, View.ld_unit_zero (S := S1024x128) hz, View.ld_unit_zero (S := S1024x512) hz]
  rfl
theorem out1_C_6_eq (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) :
    out1_C_6 c i arg2 harg2 arg3 harg3 arg4 harg4 arg5 harg5 arg6 harg6 arg7 harg7 arg8 harg8 arg9 harg9 arg10 harg10 hc0 hc1 x0 x1 x2 x3 x4 x5 xs0 = tile1 (i 0).val (i 1).val x0 x1 x2 x3 x4 := by
  have hz : (![0, 0] : Fin 2 → Nat) = fun _ => 0 := funext fun a => by fin_cases a <;> rfl
  unfold out1_C_6
  rw [View.read_writes_eq_canon _ _ _ (cover1_C_6 c i arg2 harg2 arg3 harg3 arg4 harg4 arg5 harg5 arg6 harg6 arg7 harg7 arg8 harg8 arg9 harg9 arg10 harg10 hc0 hc1 x0 x1 x2 x3 x4 x5 xs0)]
  unfold kernelRun1_C
  dsimp only
  sl_unfold_words
  rw [View.canon_unit_zero hz]
  simp only [View.readAt_eq_ld, Memref.IsWhole.read_unread, View.ld_unit_zero (S := S1024x3) hz, View.ld_unit_zero (S := S3x512) hz, View.ld_unit_zero (S := S1024x1) hz, View.ld_unit_zero (S := S1x512) hz, View.ld_unit_zero (S := S512x128) hz, View.ld_unit_zero (S := S1024x128) hz, View.ld_unit_zero (S := S1024x512) hz]
  rfl
theorem sout1_C_eq (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) :
    sout1_C c i arg2 harg2 arg3 harg3 arg4 harg4 arg5 harg5 arg6 harg6 arg7 harg7 arg8 harg8 arg9 harg9 arg10 harg10 hc0 hc1 x0 x1 x2 x3 x4 x5 xs0 = acc1 (i 0).val (i 1).val x0 x1 x2 x3 x4 x5 xs0 := by
  have hz : (![0, 0] : Fin 2 → Nat) = fun _ => 0 := funext fun a => by fin_cases a <;> rfl
  unfold sout1_C
  rw [View.read_writes_eq_canon _ _ _ (scover1_C c i arg2 harg2 arg3 harg3 arg4 harg4 arg5 harg5 arg6 harg6 arg7 harg7 arg8 harg8 arg9 harg9 arg10 harg10 hc0 hc1 x0 x1 x2 x3 x4 x5 xs0)]
  unfold kernelRun1_C
  dsimp only
  sl_unfold_words
  rw [View.canon_unit_zero hz]
  simp only [View.readAt_eq_ld, Memref.IsWhole.read_unread, View.ld_unit_zero (S := S1024x3) hz, View.ld_unit_zero (S := S3x512) hz, View.ld_unit_zero (S := S1024x1) hz, View.ld_unit_zero (S := S1x512) hz, View.ld_unit_zero (S := S512x128) hz, View.ld_unit_zero (S := S1024x128) hz, View.ld_unit_zero (S := S1024x512) hz]
  rfl
theorem out1_C_7_eq (c : Dev nD) (i : grid1.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S512x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3 .f32) (x1 : Vec F S3x512 .f32) (x2 : Vec F S1024x1 .f32) (x3 : Vec F S1x512 .f32) (x4 : Vec F S1024x1 .f32) (x5 : Vec F S512x128 .bf16) (xs0 : Vec F S1024x128 .f32) :
    out1_C_7 c i arg2 harg2 arg3 harg3 arg4 harg4 arg5 harg5 arg6 harg6 arg7 harg7 arg8 harg8 arg9 harg9 arg10 harg10 hc0 hc1 x0 x1 x2 x3 x4 x5 xs0 = acc1 (i 0).val (i 1).val x0 x1 x2 x3 x4 x5 xs0 := by
  have hz : (![0, 0] : Fin 2 → Nat) = fun _ => 0 := funext fun a => by fin_cases a <;> rfl
  unfold out1_C_7
  rw [View.read_writes_eq_canon _ _ _ (cover1_C_7 c i arg2 harg2 arg3 harg3 arg4 harg4 arg5 harg5 arg6 harg6 arg7 harg7 arg8 harg8 arg9 harg9 arg10 harg10 hc0 hc1 x0 x1 x2 x3 x4 x5 xs0)]
  unfold kernelRun1_C
  dsimp only
  sl_unfold_words
  rw [View.canon_unit_zero hz, View.readCov_unit_zero (S := S1024x128) _ hz]
  simp only [View.readAt_eq_ld, Memref.IsWhole.read_unread, View.ld_unit_zero (S := S1024x3) hz, View.ld_unit_zero (S := S3x512) hz, View.ld_unit_zero (S := S1024x1) hz, View.ld_unit_zero (S := S1x512) hz, View.ld_unit_zero (S := S512x128) hz, View.ld_unit_zero (S := S1024x128) hz, View.ld_unit_zero (S := S1024x512) hz]
  rfl

/-- The first output's buffer after any point: the normalised tile of the point's blocks. -/
theorem tile1_at (c : Dev nD) (t : Fin cfg1.N) :
    (outsAt1 V c t.val t.isLt).1
      = tile1 ((grid1.coords t) 0).val ((grid1.coords t) 1).val (iblk1 V c 0 t) (iblk1 V c 1 t) (iblk1 V c 2 t) (iblk1 V c 3 t) (iblk1 V c 4 t) := by
  have hN : t.val < 128 := lt_of_lt_of_eq t.isLt (show cfg1.N = 128 from N_1)
  by_cases h0 : t.val % 16 = 0
  · have h1 : ¬t.val % 16 = 15 := by omega
    rw [outsAt1_A V c t h0 h1]; dsimp only; exact out1_A_6_eq (F := F) c _ _ _ _ _ _ _ _ _ _ _ _ _ _ _ _ _ _ _ _ _ _ _ _ _ _ _
  · by_cases h1 : t.val % 16 = 15
    · rw [outsAt1_C V c t h0 h1]; dsimp only; exact out1_C_6_eq (F := F) c _ _ _ _ _ _ _ _ _ _ _ _ _ _ _ _ _ _ _ _ _ _ _ _ _ _ _ _
    · rw [outsAt1_B V c t h0 h1]; dsimp only; exact out1_B_6_eq (F := F) c _ _ _ _ _ _ _ _ _ _ _ _ _ _ _ _ _ _ _ _ _ _ _ _ _ _ _ _
/-- The accumulator after a point whose column block is 0: the update of zeros. -/
theorem scratch1_reset (c : Dev nD) (t : Fin cfg1.N) (h0 : t.val % 16 = 0) :
    (outsAt1 V c t.val t.isLt).2.2
      = acc1 ((grid1.coords t) 0).val ((grid1.coords t) 1).val (iblk1 V c 0 t) (iblk1 V c 1 t) (iblk1 V c 2 t) (iblk1 V c 3 t) (iblk1 V c 4 t) (iblk1 V c 5 t) (k1_pay3 (F := F)) := by
  have hN : t.val < 128 := lt_of_lt_of_eq t.isLt (show cfg1.N = 128 from N_1)
  have h1 : ¬t.val % 16 = 15 := by omega
  rw [outsAt1_A V c t h0 h1]; dsimp only; exact sout1_A_eq (F := F) c _ _ _ _ _ _ _ _ _ _ _ _ _ _ _ _ _ _ _ _ _ _ _ _ _ _ _
/-- After any other point: the update of what the point before left. -/
theorem scratch1_step (c : Dev nD) (t : Fin cfg1.N) (h0 : ¬t.val % 16 = 0) :
    (outsAt1 V c t.val t.isLt).2.2
      = acc1 ((grid1.coords t) 0).val ((grid1.coords t) 1).val (iblk1 V c 0 t) (iblk1 V c 1 t) (iblk1 V c 2 t) (iblk1 V c 3 t) (iblk1 V c 4 t) (iblk1 V c 5 t)
          (outsAt1 V c (t.val - 1) (Nat.lt_of_le_of_lt (Nat.sub_le _ _) t.isLt)).2.2 := by
  by_cases h1 : t.val % 16 = 15
  · rw [outsAt1_C V c t h0 h1]; dsimp only; exact sout1_C_eq (F := F) c _ _ _ _ _ _ _ _ _ _ _ _ _ _ _ _ _ _ _ _ _ _ _ _ _ _ _ _
  · rw [outsAt1_B V c t h0 h1]; dsimp only; exact sout1_B_eq (F := F) c _ _ _ _ _ _ _ _ _ _ _ _ _ _ _ _ _ _ _ _ _ _ _ _ _ _ _ _
/-- Where the column block is 15 the second output's buffer holds the accumulator. -/
theorem out1_last (c : Dev nD) (t : Fin cfg1.N) (h1 : t.val % 16 = 15) :
    (outsAt1 V c t.val t.isLt).2.1 = (outsAt1 V c t.val t.isLt).2.2 := by
  have h0 : ¬t.val % 16 = 0 := by omega
  rw [outsAt1_C V c t h0 h1]; dsimp only; exact (out1_C_7_eq (F := F) c _ _ _ _ _ _ _ _ _ _ _ _ _ _ _ _ _ _ _ _ _ _ _ _ _ _ _ _).trans (sout1_C_eq (F := F) c _ _ _ _ _ _ _ _ _ _ _ _ _ _ _ _ _ _ _ _ _ _ _ _ _ _ _ _).symm

end Cert.KernelIdeal.MainPass

end
-- ==== Proof.RowSumPieces.lean ====
/-
  The row-sum pass: the pieces each control case's run found, read back, ARE the step function `acc0` of the point's
  blocks and of the scratch as the case found it (zeros after the reset in case A); hence the running row sum point
  by point, and the output's buffer where it is written.
-/
import proofs.«159665_j72739566125272_1_alg».proof.Proof.Gen.KernelIdeal.Launch
import proofs.«159665_j72739566125272_1_alg».proof.Proof.Gen.KernelIdeal.Skeleton
import proofs.«159665_j72739566125272_1_alg».proof.Proof.Gen.KernelIdeal.Points
import proofs.«159665_j72739566125272_1_alg».proof.Proof.RowSumFrame
import proofs.«159665_j72739566125272_1_alg».proof.Proof.Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.RowSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Step

variable (V : (c : Dev nD) → (b : Ref sig .tc) → Buf (Elt F) ((c : Thread nD τ).loc b))

/-- A grid point's row block and column block. -/
theorem coords0_row : ∀ t : Fin cfg0.N, ((grid0.coords t) 0).val = t.val / 16 :=
  (by decide +kernel : ∀ t : Fin grid0.N, ((grid0.coords t) 0).val = t.val / 16)
theorem coords0_col : ∀ t : Fin cfg0.N, ((grid0.coords t) 1).val = t.val % 16 :=
  (by decide +kernel : ∀ t : Fin grid0.N, ((grid0.coords t) 1).val = t.val % 16)

theorem sout0_A_eq (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x3 .f32) (x1 : Vec F S3x512 .f32) (x2 : Vec F S1024x1 .f32) (x3 : Vec F S1x512 .f32) :
    sout0_A c i arg2 harg2 arg3 harg3 arg4 harg4 arg5 harg5 arg6 harg6 arg7 harg7 hc0 hc1 x0 x1 x2 x3 = acc0 (i 0).val (i 1).val x0 x1 x2 x3 (k0_pay2 (F := F)) := by
  have hz : (![0, 0] : Fin 2 → Nat) = fun _ => 0 := funext fun a => by fin_cases a <;> rfl
  unfold sout0_A
  rw [View.read_writes_eq_canon _ _ _ (scover0_A c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, Memref.IsWhole.read_unread, View.ld_unit_zero (S := S1024x3) hz, View.ld_unit_zero (S := S3x512) hz,
    View.ld_unit_zero (S := S1024x1) hz, View.ld_unit_zero (S := S1x512) hz]
  first | rfl | (unfold acc0; rfl)
theorem sout0_B_eq (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x3 .f32) (x1 : Vec F S3x512 .f32) (x2 : Vec F S1024x1 .f32) (x3 : Vec F S1x512 .f32) (xs0 : Vec F S1024x1 .f32) :
    sout0_B c i arg2 harg2 arg3 harg3 arg4 harg4 arg5 harg5 arg6 harg6 arg7 harg7 hc0 hc1 x0 x1 x2 x3 xs0 = acc0 (i 0).val (i 1).val x0 x1 x2 x3 xs0 := by
  have hz : (![0, 0] : Fin 2 → Nat) = fun _ => 0 := funext fun a => by fin_cases a <;> rfl
  unfold sout0_B
  rw [View.read_writes_eq_canon _ _ _ (scover0_B c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, Memref.IsWhole.read_unread, View.ld_unit_zero (S := S1024x3) hz, View.ld_unit_zero (S := S3x512) hz,
    View.ld_unit_zero (S := S1024x1) hz, View.ld_unit_zero (S := S1x512) hz]
  first | rfl | (unfold acc0; rfl)
theorem sout0_C_eq (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x3 .f32) (x1 : Vec F S3x512 .f32) (x2 : Vec F S1024x1 .f32) (x3 : Vec F S1x512 .f32) (xs0 : Vec F S1024x1 .f32) :
    sout0_C c i arg2 harg2 arg3 harg3 arg4 harg4 arg5 harg5 arg6 harg6 arg7 harg7 hc0 hc1 x0 x1 x2 x3 xs0 = acc0 (i 0).val (i 1).val x0 x1 x2 x3 xs0 := by
  have hz : (![0, 0] : Fin 2 → Nat) = fun _ => 0 := funext fun a => by fin_cases a <;> rfl
  unfold sout0_C
  rw [View.read_writes_eq_canon _ _ _ (scover0_C c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, Memref.IsWhole.read_unread, View.ld_unit_zero (S := S1024x3) hz, View.ld_unit_zero (S := S3x512) hz,
    View.ld_unit_zero (S := S1024x1) hz, View.ld_unit_zero (S := S1x512) hz]
  first | rfl | (unfold acc0; rfl)
theorem out0_C_4_eq (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x3 .f32) (x1 : Vec F S3x512 .f32) (x2 : Vec F S1024x1 .f32) (x3 : Vec F S1x512 .f32) (xs0 : Vec F S1024x1 .f32) :
    out0_C_4 c i arg2 harg2 arg3 harg3 arg4 harg4 arg5 harg5 arg6 harg6 arg7 harg7 hc0 hc1 x0 x1 x2 x3 xs0 = acc0 (i 0).val (i 1).val x0 x1 x2 x3 xs0 := by
  have hz : (![0, 0] : Fin 2 → Nat) = fun _ => 0 := funext fun a => by fin_cases a <;> rfl
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  try rw [View.readCov_unit_zero (S := S1024x1) _ hz]
  simp only [View.readAt_eq_ld, Memref.IsWhole.read_unread, View.ld_unit_zero (S := S1024x3) hz, View.ld_unit_zero (S := S3x512) hz,
    View.ld_unit_zero (S := S1024x1) hz, View.ld_unit_zero (S := S1x512) hz]
  first | rfl | (unfold acc0; rfl)

/-- The running row sum after a point whose column block is 0: the update of zeros. -/
theorem scratch0_reset (c : Dev nD) (t : Fin cfg0.N) (h0 : t.val % 16 = 0) :
    (outsAt0 V c t.val t.isLt).2
      = acc0 ((grid0.coords t) 0).val ((grid0.coords t) 1).val (iblk0 V c 0 t) (iblk0 V c 1 t) (iblk0 V c 2 t) (iblk0 V c 3 t) (k0_pay2 (F := F)) := by
  have hN : t.val < 128 := lt_of_lt_of_eq t.isLt (show cfg0.N = 128 from N_0)
  have h1 : ¬t.val % 16 = 15 := by omega
  rw [outsAt0_A V c t h0 h1]; dsimp only; exact sout0_A_eq (F := F) c _ _ _ _ _ _ _ _ _ _ _ _ _ _ _ _ _ _ _
/-- After any other point: the update of what the point before left. -/
theorem scratch0_step (c : Dev nD) (t : Fin cfg0.N) (h0 : ¬t.val % 16 = 0) :
    (outsAt0 V c t.val t.isLt).2
      = acc0 ((grid0.coords t) 0).val ((grid0.coords t) 1).val (iblk0 V c 0 t) (iblk0 V c 1 t) (iblk0 V c 2 t) (iblk0 V c 3 t)
          (outsAt0 V c (t.val - 1) (Nat.lt_of_le_of_lt (Nat.sub_le _ _) t.isLt)).2 := by
  by_cases h1 : t.val % 16 = 15
  · rw [outsAt0_C V c t h0 h1]; dsimp only; exact sout0_C_eq (F := F) c _ _ _ _ _ _ _ _ _ _ _ _ _ _ _ _ _ _ _ _
  · rw [outsAt0_B V c t h0 h1]; dsimp only; exact sout0_B_eq (F := F) c _ _ _ _ _ _ _ _ _ _ _ _ _ _ _ _ _ _ _ _
/-- Where the column block is 15 the output's buffer holds the running row sum. -/
theorem out0_last (c : Dev nD) (t : Fin cfg0.N) (h1 : t.val % 16 = 15) :
    (outsAt0 V c t.val t.isLt).1 = (outsAt0 V c t.val t.isLt).2 := by
  have h0 : ¬t.val % 16 = 0 := by omega
  rw [outsAt0_C V c t h0 h1]; dsimp only; exact (out0_C_4_eq (F := F) c _ _ _ _ _ _ _ _ _ _ _ _ _ _ _ _ _ _ _ _).trans (sout0_C_eq (F := F) c _ _ _ _ _ _ _ _ _ _ _ _ _ _ _ _ _ _ _ _).symm

end Cert.KernelIdeal.RowSum

end
-- ==== Proof.Spec.lean ====
/-
  The specification of the distance-weighted diffusion step, over the extended reals.

  For points `x_r ∈ ℝ³` and exponents `α_r` (r < 8192) the unnormalised weight of the pair (r, c) is
      w(r, c) = clip( clip( D̃^(−a), 1e-8, 1000 ) · exp(−D / 12), 0, 1000 )   off the diagonal,   0 on it,
  with  D = sqrt(max(|x_r|² + |x_c|² − 2 x_r·x_c, 1e-12)) + 1e-6,  D̃ = max(D, 1e-6),  a = (α_r + α_c) / 2.
  The results are the row-normalised matrix  K(r, c) = w(r, c) / (Σ_c w(r, c) + 1e-8)  and  out = K · latent.

  The weight is stated twice over SCALARS (the three coordinates of each point, the two exponents, and whether the
  pair is on the diagonal): `wt` raises the base as `exp(−a · log D̃)`, negates as `0 − x` and selects `0` on the
  diagonal; `wtRef` uses the power function, the negation, and multiplies by `1 − δ`. They agree on real arguments
  (proved elsewhere). Float literals stay as their words: the same word on both sides is never evaluated.
-/
import Idealize.ShloMosaic.PureOps.Ideal
import Idealize.ShloMosaic.Lib.ValueIdx

noncomputable section

namespace Cert.Diffuse

open Idealize.ShloMosaic Idealize.ShloMosaic.ValueIdx

/-- A float literal, by its f32 word. -/
abbrev lit (b : BitVec 32) : EReal := Ideal.ofBits .f32 b

/-! ## One pair, over scalars -/

/-- The distance term `D` of a pair from the two points' coordinates: the squared norms are added as
    `(x² + y²) + z²`, the inner product likewise. -/
def distS (a0 a1 a2 b0 b1 b2 : EReal) : EReal :=
  Ideal.sqrt (max ((a0 * a0 + a1 * a1 + a2 * a2) + (b0 * b0 + b1 * b1 + b2 * b2)
      - lit 0x40000000#32 * (a0 * b0 + a1 * b1 + a2 * b2)) (lit 0x2B8CBCCC#32)) + lit 0x358637BD#32

/-- Half the sum of the two exponents. -/
def halfS (ar ac : EReal) : EReal := lit 0x3F000000#32 * (ar + ac)

/-- The weight of a pair, the power taken as `exp (−a · log D̃)`, zero selected on the diagonal. -/
def wt (a0 a1 a2 b0 b1 b2 ar ac : EReal) (diag : Prop) [Decidable diag] : EReal :=
  if diag then lit 0x00000000#32 else
    min (lit 0x447A0000#32) (max (lit 0x00000000#32)
      (min (lit 0x447A0000#32) (max (lit 0x322BCC77#32)
          (Ideal.exp ((lit 0x00000000#32 - halfS ar ac) * Ideal.log (max (distS a0 a1 a2 b0 b1 b2) (lit 0x358637BD#32)))))
        * Ideal.exp (Ideal.div (lit 0x00000000#32 - distS a0 a1 a2 b0 b1 b2) (lit 0x41400000#32))))

/-- The same weight with the power function, the negation, and the diagonal removed by the factor `1 − δ`. -/
def wtRef (a0 a1 a2 b0 b1 b2 ar ac : EReal) (diag : Prop) [Decidable diag] : EReal :=
  min (lit 0x447A0000#32) (max (lit 0x00000000#32)
      (min (lit 0x447A0000#32) (max (lit 0x322BCC77#32)
          (Ideal.pow (max (lit 0x358637BD#32) (distS a0 a1 a2 b0 b1 b2)) (-(halfS ar ac))))
        * Ideal.exp (Ideal.div (-(distS a0 a1 a2 b0 b1 b2)) (lit 0x41400000#32))))
    * (lit 0x3F800000#32 - (if diag then (1 : EReal) else 0))

/-- The weight does not depend on how the diagonal is spelt. -/
theorem wt_congr (a0 a1 a2 b0 b1 b2 ar ac : EReal) {P Q : Prop} [Decidable P] [Decidable Q] (h : P ↔ Q) :
    wt a0 a1 a2 b0 b1 b2 ar ac P = wt a0 a1 a2 b0 b1 b2 ar ac Q := by
  unfold wt; exact if_congr h rfl rfl

/-! ## Blocks: row block `i` holds rows `1024 i + p`, column block `j` columns `512 j + q` -/

/-- Row `p` of row block `i`. -/
def rowOf (i : Fin 8) (p : Fin 1024) : Fin 8192 := ⟨1024 * i.val + p.val, by have := i.isLt; have := p.isLt; omega⟩
/-- Column `q` of column block `j`. -/
def colOf (j : Fin 16) (q : Fin 512) : Fin 8192 := ⟨512 * j.val + q.val, by have := j.isLt; have := q.isLt; omega⟩

@[simp] theorem rowOf_val (i : Fin 8) (p : Fin 1024) : (rowOf i p).val = 1024 * i.val + p.val := rfl
@[simp] theorem colOf_val (j : Fin 16) (q : Fin 512) : (colOf j q).val = 512 * j.val + q.val := rfl

/-! ## The arrays -/

abbrev SCoords : Shape := ⟨2, ![8192, 3]⟩
abbrev SAlpha : Shape := ⟨1, ![8192]⟩
abbrev SLatent : Shape := ⟨2, ![8192, 128]⟩
abbrev SPair : Shape := ⟨2, ![8192, 8192]⟩

variable (X : SCoords.Idx → EReal) (A : SAlpha.Idx → EReal) (L : SLatent.Idx → EReal)

/-- The weight of the pair (r, c) of the arrays' points. -/
def weight (r c : Fin 8192) : EReal :=
  wt (X (ix2 r 0)) (X (ix2 r 1)) (X (ix2 r 2)) (X (ix2 c 0)) (X (ix2 c 1)) (X (ix2 c 2)) (A (ix1 r)) (A (ix1 c)) (r = c)

/-- The same through `wtRef`. -/
def weightRef (r c : Fin 8192) : EReal :=
  wtRef (X (ix2 r 0)) (X (ix2 r 1)) (X (ix2 r 2)) (X (ix2 c 0)) (X (ix2 c 1)) (X (ix2 c 2)) (A (ix1 r)) (A (ix1 c)) (r = c)

/-- A row's total weight. -/
def rowTotal (r : Fin 8192) : EReal := ∑ c : Fin 8192, weight X A r c

/-- The normalised weight. -/
def normW (r c : Fin 8192) : EReal := Ideal.div (weight X A r c) (rowTotal X A r + lit 0x322BCC77#32)

/-- The normalised matrix, as an array. -/
def GK : SPair.Idx → EReal := fun i => normW X A (i 0) (i 1)

/-- The aggregated latents: row r of `K · latent`. -/
def Gout : SLatent.Idx → EReal := fun i => ∑ k : Fin 8192, normW X A (i 0) k * L (ix2 k (i 1))

/-- The same three through `weightRef`. -/
def rowTotalRef (r : Fin 8192) : EReal := ∑ c : Fin 8192, weightRef X A r c
def normWRef (r c : Fin 8192) : EReal := Ideal.div (weightRef X A r c) (rowTotalRef X A r + lit 0x322BCC77#32)
def GKRef : SPair.Idx → EReal := fun i => normWRef X A (i 0) (i 1)
def GoutRef : SLatent.Idx → EReal := fun i => ∑ k : Fin 8192, normWRef X A (i 0) k * L (ix2 k (i 1))

end Cert.Diffuse

end
-- ==== Proof.Tile.lean ====
/-
  One grid point of each kernel, read at an index, at the extended reals.

  Grid point (a, b) pairs row block a (rows 1024 a + p) with column block b (columns 512 b + q). Entry (p, q) of the
  tile of unnormalised weights is the pair weight of row point p and column point q, zero where the two global
  indices coincide. The row-sum pass adds the tile's lane sums to its accumulator; the main pass divides the tile
  row by row by (row total + 1e-8) and adds the product of that tile with the latent block to its accumulator.
-/
import proofs.«159665_j72739566125272_1_alg».proof.Proof.Spec
import proofs.«159665_j72739566125272_1_alg».proof.Proof.Step
import Idealize.ShloMosaic.Lib.ValueIdx
import Idealize.ShloMosaic.Lib.ValueLayout
import Idealize.ShloMosaic.Lib.Pipeline.Value
import Idealize.ShloMosaic.PureOps.Ideal.Laws
import Mathlib.Tactic.NormNum

noncomputable section

namespace Cert.KernelIdeal.Tile

open Idealize.ShloMosaic Idealize.ShloMosaic.ValueIdx Cert.KernelIdeal Cert.KernelIdeal.Gen Cert.KernelIdeal.Step Cert.Diffuse

/-! ## Elementwise functions and integer operations at an index -/

theorem sqrt_apply {s : Shape} {φ : FTy} (x : FVec Ideal s φ) (i : s.Idx) :
    Idealize.ShloMosaic.sqrt x i = Ideal.sqrt (x i) := rfl
theorem exp_apply {s : Shape} {φ : FTy} (x : FVec Ideal s φ) (i : s.Idx) :
    Idealize.ShloMosaic.exp x i = Ideal.exp (x i) := rfl
theorem log_apply {s : Shape} {φ : FTy} (x : FVec Ideal s φ) (i : s.Idx) :
    Idealize.ShloMosaic.log x i = Ideal.log (x i) := rfl

/-! ## Layout operations at an index -/

/-- A column broadcast along the lanes reads its row's one element. -/
theorem bcastCol_apply {α : Type} (v : S1024x1.Idx → α) (h : S1024x1.Broadcasts S1024x512) (p : Fin 1024) (q : Fin 512) :
    broadcastTo S1024x512 v h (ix2 p q) = v (ix2 p (0 : Fin 1)) := by
  refine broadcastTo_apply v h (ix2 p q) (ix2 p (0 : Fin 1)) fun ax => ?_
  match ax with
  | ⟨0, _⟩ =>
    show p.val = if (1024 : Nat) = 1 then 0 else p.val
    rw [if_neg (by decide)]
  | ⟨1, _⟩ =>
    show 0 = if (1 : Nat) = 1 then 0 else q.val
    rw [if_pos rfl]

/-- A vector of 1024 elements cast to a column reads the same element. -/
theorem castCol_apply {α : Type} (x : S1024.Idx → α) (h : S1024.ShapeCasts S1024x1) (p : Fin 1024) :
    shapeCast S1024x1 x h (ix2 p (0 : Fin 1)) = x (ix1 p) :=
  shapeCast_apply x h _ _ (by
    rw [Shape.rowMajor_val_two, Shape.rowMajor_val_one]
    show p.val = p.val * 1 + 0
    omega)

/-- The lane sum of a tile at row p is the sum over the 512 lanes. -/
theorem laneSum_apply (v : FVec Ideal S1024x512 .f32) (p : Fin 1024) :
    multiReduction (F := Ideal) .add [1] S1024 v 0x00000000#32 reduces_S1024x512_S1024 (.inl rfl) rfl (ix1 p)
      = ∑ q : Fin 512, v (ix2 p q) :=
  (Ideal.multiReduction_add_single v _ reduces_S1024x512_S1024 _ _ (ix1 p)).trans
    (Finset.sum_congr rfl fun q _ => congrArg v (funext fun c => Fin.ext (by
      match c with
      | ⟨0, _⟩ => rfl
      | ⟨1, _⟩ => rfl)))

/-! ## The points' coordinates and exponents, as the payloads read them -/

theorem pay7_apply (x0 : Vec Ideal S1024x3 .f32) (p : Fin 1024) :
    k1_pay7 (F := Ideal) x0 (ix2 p (0 : Fin 1)) = x0 (ix2 p (0 : Fin 3)) := by
  unfold k1_pay7
  exact slice2_axis1_apply 0 x0 slices_S1024x3_o0_0_S1024x1 p (0 : Fin 1) (0 : Fin 3) rfl
theorem pay8_apply (x0 : Vec Ideal S1024x3 .f32) (p : Fin 1024) :
    k1_pay8 (F := Ideal) x0 (ix2 p (0 : Fin 1)) = x0 (ix2 p (1 : Fin 3)) := by
  unfold k1_pay8
  exact slice2_axis1_apply 1 x0 slices_S1024x3_o0_1_S1024x1 p (0 : Fin 1) (1 : Fin 3) rfl
theorem pay9_apply (x0 : Vec Ideal S1024x3 .f32) (p : Fin 1024) :
    k1_pay9 (F := Ideal) x0 (ix2 p (0 : Fin 1)) = x0 (ix2 p (2 : Fin 3)) := by
  unfold k1_pay9
  exact slice2_axis1_apply 2 x0 slices_S1024x3_o0_2_S1024x1 p (0 : Fin 1) (2 : Fin 3) rfl

theorem pay4_eq (x1 : Vec Ideal S3x512 .f32) : k1_pay4 (F := Ideal) x1 = x1 := by
  unfold k1_pay4
  exact shapeCast_self x1 _

theorem pay10_apply (x1 : Vec Ideal S3x512 .f32) (q : Fin 512) :
    k1_pay10 (F := Ideal) x1 (ix2 (0 : Fin 1) q) = x1 (ix2 (0 : Fin 3) q) := by
  unfold k1_pay10
  rw [pay4_eq]
  exact slice2_axis0_apply 0 x1 slices_S3x512_o0_0_S1x512 (0 : Fin 1) q (0 : Fin 3) rfl
theorem pay11_apply (x1 : Vec Ideal S3x512 .f32) (q : Fin 512) :
    k1_pay11 (F := Ideal) x1 (ix2 (0 : Fin 1) q) = x1 (ix2 (1 : Fin 3) q) := by
  unfold k1_pay11
  rw [pay4_eq]
  exact slice2_axis0_apply 1 x1 slices_S3x512_o1_0_S1x512 (0 : Fin 1) q (1 : Fin 3) rfl
theorem pay12_apply (x1 : Vec Ideal S3x512 .f32) (q : Fin 512) :
    k1_pay12 (F := Ideal) x1 (ix2 (0 : Fin 1) q) = x1 (ix2 (2 : Fin 3) q) := by
  unfold k1_pay12
  rw [pay4_eq]
  exact slice2_axis0_apply 2 x1 slices_S3x512_o2_0_S1x512 (0 : Fin 1) q (2 : Fin 3) rfl

theorem pay5_eq (x2 : Vec Ideal S1024x1 .f32) : k1_pay5 (F := Ideal) x2 = x2 := by
  unfold k1_pay5
  exact shapeCast_self x2 _
theorem pay6_eq (x3 : Vec Ideal S1x512 .f32) : k1_pay6 (F := Ideal) x3 = x3 := by
  unfold k1_pay6
  exact shapeCast_self x3 _

/-- The sum of the two squared norms at (p, q). -/
theorem pay13_apply (x0 : Vec Ideal S1024x3 .f32) (x1 : Vec Ideal S3x512 .f32) (p : Fin 1024) (q : Fin 512) :
    k1_pay13 (F := Ideal) x0 x1 (ix2 p q)
      = (x0 (ix2 p (0 : Fin 3)) * x0 (ix2 p (0 : Fin 3)) + x0 (ix2 p (1 : Fin 3)) * x0 (ix2 p (1 : Fin 3))
          + x0 (ix2 p (2 : Fin 3)) * x0 (ix2 p (2 : Fin 3)))
        + (x1 (ix2 (0 : Fin 3) q) * x1 (ix2 (0 : Fin 3) q) + x1 (ix2 (1 : Fin 3) q) * x1 (ix2 (1 : Fin 3) q)
          + x1 (ix2 (2 : Fin 3) q) * x1 (ix2 (2 : Fin 3) q)) := by
  unfold k1_pay13
  refine (addf_apply _ _ _).trans ?_
  rw [bcastCol_apply, broadcastTo_1b_ab_apply]
  simp only [addf_apply, mulf_apply, pay7_apply, pay8_apply, pay9_apply, pay10_apply, pay11_apply, pay12_apply]

/-- Twice the inner product at (p, q). -/
theorem pay14_apply (x0 : Vec Ideal S1024x3 .f32) (x1 : Vec Ideal S3x512 .f32) (p : Fin 1024) (q : Fin 512) :
    k1_pay14 (F := Ideal) x0 x1 (ix2 p q)
      = lit 0x40000000#32 * (x0 (ix2 p (0 : Fin 3)) * x1 (ix2 (0 : Fin 3) q) + x0 (ix2 p (1 : Fin 3)) * x1 (ix2 (1 : Fin 3) q)
          + x0 (ix2 p (2 : Fin 3)) * x1 (ix2 (2 : Fin 3) q)) := by
  unfold k1_pay14
  refine (mulf_apply _ _ _).trans ?_
  refine congrArg (lit 0x40000000#32 * ·) ?_
  simp only [addf_apply, mulf_apply, bcastCol_apply, broadcastTo_1b_ab_apply, pay7_apply, pay8_apply, pay9_apply,
    pay10_apply, pay11_apply, pay12_apply]

/-! ## The diagonal test -/

/-- The comparison bit is set exactly when the two words are equal. -/
theorem cmpi_eq_one_iff (x y : BitVec 32) : IntOp.cmpi .eq x y = 1#1 ↔ x = y := by
  show BitVec.ofBool (x == y) = 1#1 ↔ x = y
  rw [← beq_iff_eq (a := x) (b := y)]
  generalize (x == y) = c
  cases c <;> decide

/-- Below 2^32 a natural number is recovered from its word. -/
theorem ofNat_inj_of_lt {m n : ℕ} (hm : m < 2 ^ 32) (hn : n < 2 ^ 32) : BitVec.ofNat 32 m = BitVec.ofNat 32 n ↔ m = n := by
  constructor
  · intro h
    have h' := congrArg BitVec.toNat h
    rwa [BitVec.toNat_ofNat, BitVec.toNat_ofNat, Nat.mod_eq_of_lt hm, Nat.mod_eq_of_lt hn] at h'
  · rintro rfl; rfl

/-- The word of a block's first index plus an offset is the word of the global index: nothing wraps. -/
theorem word_add (k c i : ℕ) (h : c * k + i < 2 ^ 32) (hc : c < 2 ^ 32) :
    BitVec.ofNat 32 k * BitVec.ofNat 32 c + BitVec.ofNat 32 i = BitVec.ofNat 32 (c * k + i) := by
  apply BitVec.eq_of_toNat_eq
  rw [BitVec.toNat_add, BitVec.toNat_mul, BitVec.toNat_ofNat, BitVec.toNat_ofNat, BitVec.toNat_ofNat, BitVec.toNat_ofNat]
  rw [Nat.mul_comm c k] at h ⊢
  have hk : k * c < 2 ^ 32 := by omega
  rcases Nat.eq_zero_or_pos c with rfl | hpos
  · simp
  · have hk' : k < 2 ^ 32 := by
      by_contra hge
      have : 2 ^ 32 * 1 ≤ k * c := Nat.mul_le_mul (by omega) hpos
      omega
    have hi : i < 2 ^ 32 := by omega
    rw [Nat.mod_eq_of_lt hk', Nat.mod_eq_of_lt hc, Nat.mod_eq_of_lt hi, Nat.mod_eq_of_lt hk, Nat.mod_eq_of_lt h]

/-- The body's test at (p, q) of grid point (a, b) is the equality of the two global indices. -/
theorem diag_iff (a b : ℕ) (ha : a < 8) (hb : b < 16) (p : Fin 1024) (q : Fin 512) :
    IntOp.cmpi .eq (rowWord a + BitVec.ofNat 32 p.val) (colWord b + BitVec.ofNat 32 q.val) = 1#1
      ↔ 1024 * a + p.val = 512 * b + q.val := by
  have hp := p.isLt
  have hq := q.isLt
  have hr : rowWord a + BitVec.ofNat 32 p.val = BitVec.ofNat 32 (1024 * a + p.val) :=
    word_add a 1024 p.val (by omega) (by norm_num)
  have hcw : colWord b + BitVec.ofNat 32 q.val = BitVec.ofNat 32 (512 * b + q.val) :=
    word_add b 512 q.val (by omega) (by norm_num)
  rw [cmpi_eq_one_iff, hr, hcw]
  exact ofNat_inj_of_lt (by omega) (by omega)

/-- The test vector at (p, q). -/
theorem diag_bit (w10 w11 : BitVec 32) (p : Fin 1024) (q : Fin 512) :
    cmpi .eq (addi (broadcast S1024x512 w10) (iota .tc S1024x512 32 [0] iota_S1024x512_d0_w32))
        (addi (broadcast S1024x512 w11) (iota .tc S1024x512 32 [1] iota_S1024x512_d1_w32)) (ix2 p q)
      = IntOp.cmpi .eq (w10 + BitVec.ofNat 32 p.val) (w11 + BitVec.ofNat 32 q.val) := by
  show IntOp.cmpi .eq (IntOp.addi w10 (iota .tc S1024x512 32 [0] iota_S1024x512_d0_w32 (ix2 p q)))
      (IntOp.addi w11 (iota .tc S1024x512 32 [1] iota_S1024x512_d1_w32 (ix2 p q))) = _
  rw [iota_single_apply, iota_single_apply]
  rfl

/-- A select on a bit that is set exactly when `P` holds is the `if` on `P`. -/
theorem select_of_iff {α : Type} {c c' : BitVec 1} (hc : c = c') (P : Prop) [Decidable P] (h : c' = 1#1 ↔ P) (x y : α) :
    Scalar.select c x y = if P then x else y := by
  subst hc
  by_cases hp : P
  · rw [if_pos hp, h.mpr hp, select_one]
  · rw [if_neg hp, eq_zero_of_ne_one (fun hc => hp (h.mp hc)), select_zero]

/-! ## One entry of the tile of unnormalised weights -/

/-- The pair weight from the sum `n` of the two squared norms, twice the inner product `t`, and the two exponents. -/
def wtOf (n t ar ac : EReal) (P : Prop) [Decidable P] : EReal :=
  if P then lit 0x00000000#32 else
    min (lit 0x447A0000#32) (max (lit 0x00000000#32)
      (min (lit 0x447A0000#32) (max (lit 0x322BCC77#32)
          (Ideal.exp ((lit 0x00000000#32 - lit 0x3F000000#32 * (ar + ac))
            * Ideal.log (max (Ideal.sqrt (max (n - t) (lit 0x2B8CBCCC#32)) + lit 0x358637BD#32) (lit 0x358637BD#32)))))
        * Ideal.exp (Ideal.div (lit 0x00000000#32 - (Ideal.sqrt (max (n - t) (lit 0x2B8CBCCC#32)) + lit 0x358637BD#32))
            (lit 0x41400000#32))))

theorem wt_eq_wtOf (a0 a1 a2 b0 b1 b2 ar ac : EReal) (P : Prop) [Decidable P] :
    wt a0 a1 a2 b0 b1 b2 ar ac P
      = wtOf ((a0 * a0 + a1 * a1 + a2 * a2) + (b0 * b0 + b1 * b1 + b2 * b2))
          (lit 0x40000000#32 * (a0 * b0 + a1 * b1 + a2 * b2)) ar ac P := rfl

/-- The select chain of the two kernel bodies at (p, q), over its operands. -/
theorem pay15_apply (v7 : FVec Ideal S1024x1 .f32) (v9 : FVec Ideal S1x512 .f32) (w10 w11 : BitVec 32)
    (v41 v43 : FVec Ideal S1024x512 .f32) (p : Fin 1024) (q : Fin 512) (P : Prop) [Decidable P]
    (hP : IntOp.cmpi .eq (w10 + BitVec.ofNat 32 p.val) (w11 + BitVec.ofNat 32 q.val) = 1#1 ↔ P) :
    k1_pay15 (F := Ideal) v7 v9 w10 w11 v41 v43 (ix2 p q)
      = wtOf (v41 (ix2 p q)) (v43 (ix2 p q)) (v7 (ix2 p (0 : Fin 1))) (v9 (ix2 (0 : Fin 1) q)) P := by
  unfold k1_pay15
  refine (select_apply _ _ _ _).trans ?_
  refine (select_of_iff (diag_bit w10 w11 p q) P hP _ _).trans ?_
  unfold wtOf
  refine if_congr Iff.rfl rfl ?_
  simp only [minimumf_apply, maximumf_apply, mulf_apply, subf_apply, addf_apply, divf_apply, broadcast_apply,
    exp_apply, log_apply, sqrt_apply, bcastCol_apply, broadcastTo_1b_ab_apply, Ideal.ofBits_def]

/-- Entry (p, q) of the raw tile at grid point (a, b): the pair weight, zero where the global indices coincide. -/
theorem raw1_apply (a b : ℕ) (ha : a < 8) (hb : b < 16) (x0 : Vec Ideal S1024x3 .f32) (x1 : Vec Ideal S3x512 .f32)
    (x2 : Vec Ideal S1024x1 .f32) (x3 : Vec Ideal S1x512 .f32) (p : Fin 1024) (q : Fin 512) :
    raw1 (F := Ideal) a b x0 x1 x2 x3 (ix2 p q)
      = wt (x0 (ix2 p 0)) (x0 (ix2 p 1)) (x0 (ix2 p 2)) (x1 (ix2 0 q)) (x1 (ix2 1 q)) (x1 (ix2 2 q))
          (x2 (ix2 p 0)) (x3 (ix2 0 q)) (1024 * a + p.val = 512 * b + q.val) := by
  unfold raw1
  refine (pay15_apply _ _ _ _ _ _ p q _ (diag_iff a b ha hb p q)).trans ?_
  rw [pay13_apply, pay14_apply, pay5_eq, pay6_eq]
  exact (wt_eq_wtOf _ _ _ _ _ _ _ _ _).symm

/-! ## The accumulators' reset value -/

/-- The zero the accumulators are reset to. -/
theorem pay2_apply (y : S1024x1.Idx) : k0_pay2 (F := Ideal) y = 0 := by
  unfold k0_pay2
  refine (congrFun (shapeCast_self _ _) y).trans ?_
  exact Ideal.ofBits_zero_f32
theorem pay3_apply (y : S1024x128.Idx) : k1_pay3 (F := Ideal) y = 0 := by
  unfold k1_pay3
  refine (congrFun (shapeCast_self _ _) y).trans ?_
  exact Ideal.ofBits_zero_f32

/-! ## The row-sum pass -/

/-- The row-sum pass's chain is the main pass's tile, summed along the lanes and added to the accumulator. -/
theorem acc0_eq (a b : ℕ) (x0 : Vec Ideal S1024x3 .f32) (x1 : Vec Ideal S3x512 .f32)
    (x2 : Vec Ideal S1024x1 .f32) (x3 : Vec Ideal S1x512 .f32) (s : Vec Ideal S1024x1 .f32) :
    acc0 (F := Ideal) a b x0 x1 x2 x3 s
      = addf s (shapeCast S1024x1 (multiReduction (F := Ideal) .add [1] S1024 (raw1 (F := Ideal) a b x0 x1 x2 x3)
          0x00000000#32 reduces_S1024x512_S1024 (.inl rfl) rfl) shapeCasts_S1024_S1024x1) := by
  unfold acc0 k0_pay1
  refine (shapeCast_self _ _).trans ?_
  rfl

/-- Row-sum pass, row p: the accumulator before plus the lane sum of the tile's weights. -/
theorem acc0_apply (a b : ℕ) (ha : a < 8) (hb : b < 16) (x0 : Vec Ideal S1024x3 .f32) (x1 : Vec Ideal S3x512 .f32)
    (x2 : Vec Ideal S1024x1 .f32) (x3 : Vec Ideal S1x512 .f32) (s : Vec Ideal S1024x1 .f32) (p : Fin 1024) :
    acc0 (F := Ideal) a b x0 x1 x2 x3 s (ix2 p 0)
      = s (ix2 p 0) + ∑ q : Fin 512, wt (x0 (ix2 p 0)) (x0 (ix2 p 1)) (x0 (ix2 p 2)) (x1 (ix2 0 q)) (x1 (ix2 1 q)) (x1 (ix2 2 q))
          (x2 (ix2 p 0)) (x3 (ix2 0 q)) (1024 * a + p.val = 512 * b + q.val) := by
  rw [acc0_eq]
  refine (addf_apply _ _ _).trans ?_
  refine congrArg (s (ix2 p 0) + ·) ?_
  refine (castCol_apply _ _ p).trans ?_
  refine (laneSum_apply _ p).trans ?_
  exact Finset.sum_congr rfl fun q _ => raw1_apply a b ha hb x0 x1 x2 x3 p q

/-! ## The main pass -/

/-- The row totals plus 1e-8, at row p. -/
theorem pay16_apply (x4 : Vec Ideal S1024x1 .f32) (p : Fin 1024) :
    k1_pay16 (F := Ideal) x4 (ix2 p (0 : Fin 1)) = x4 (ix2 p (0 : Fin 1)) + lit 0x322BCC77#32 := by
  unfold k1_pay16
  refine (addf_apply _ _ _).trans ?_
  rw [shapeCast_self]
  rfl

/-- The division of a tile by a column, at (p, q). -/
theorem pay1_apply (v84 : FVec Ideal S1024x512 .f32) (v88 : FVec Ideal S1024x1 .f32) (p : Fin 1024) (q : Fin 512) :
    k1_pay1 (F := Ideal) v84 v88 (ix2 p q) = Ideal.div (v84 (ix2 p q)) (v88 (ix2 p (0 : Fin 1))) := by
  unfold k1_pay1
  refine (divf_apply _ _ _).trans ?_
  rw [bcastCol_apply]

/-- Main pass, entry (p, q) of the normalised tile. -/
theorem tile1_apply (a b : ℕ) (ha : a < 8) (hb : b < 16) (x0 : Vec Ideal S1024x3 .f32) (x1 : Vec Ideal S3x512 .f32)
    (x2 : Vec Ideal S1024x1 .f32) (x3 : Vec Ideal S1x512 .f32) (x4 : Vec Ideal S1024x1 .f32) (p : Fin 1024) (q : Fin 512) :
    tile1 (F := Ideal) a b x0 x1 x2 x3 x4 (ix2 p q)
      = Ideal.div (wt (x0 (ix2 p 0)) (x0 (ix2 p 1)) (x0 (ix2 p 2)) (x1 (ix2 0 q)) (x1 (ix2 1 q)) (x1 (ix2 2 q))
          (x2 (ix2 p 0)) (x3 (ix2 0 q)) (1024 * a + p.val = 512 * b + q.val)) (x4 (ix2 p 0) + lit 0x322BCC77#32) := by
  unfold tile1
  rw [pay1_apply, pay16_apply, raw1_apply a b ha hb]

/-! ### The product with the latent block -/

/-- The left operand's row is the result's row. -/
theorem lhs_axis0 (i : S1024x128.Idx) (k : dot_S1024x512_S512x128_S1024x128_1_0_0_1_n_n.contr.Idx) :
    (dot_S1024x512_S512x128_S1024x128_1_0_0_1_n_n.lhsIdx i k 0).val = (i 0).val := by
  unfold DotDims.lhsIdx
  rw [dif_neg (show ¬(0 : Fin S1024x512.rank) ∈ dot_S1024x512_S512x128_S1024x128_1_0_0_1_n_n.lhsBatch by decide),
    dif_pos (show (0 : Fin S1024x512.rank) ∈ dot_S1024x512_S512x128_S1024x128_1_0_0_1_n_n.lhsNonContracting by decide)]
  rfl
/-- The left operand's column is the contraction coordinate. -/
theorem lhs_axis1 (i : S1024x128.Idx) (k : dot_S1024x512_S512x128_S1024x128_1_0_0_1_n_n.contr.Idx) :
    (dot_S1024x512_S512x128_S1024x128_1_0_0_1_n_n.lhsIdx i k 1).val = (k ⟨0, by decide⟩).val :=
  dot_S1024x512_S512x128_S1024x128_1_0_0_1_n_n.lhsIdx_val_of_single rfl i k
/-- The right operand's row is the contraction coordinate. -/
theorem rhs_axis0 (i : S1024x128.Idx) (k : dot_S1024x512_S512x128_S1024x128_1_0_0_1_n_n.contr.Idx) :
    (dot_S1024x512_S512x128_S1024x128_1_0_0_1_n_n.rhsIdx i k 0).val = (k ⟨0, by decide⟩).val :=
  dot_S1024x512_S512x128_S1024x128_1_0_0_1_n_n.rhsIdx_val_of_single rfl i k
/-- The right operand's column is the result's column. -/
theorem rhs_axis1 (i : S1024x128.Idx) (k : dot_S1024x512_S512x128_S1024x128_1_0_0_1_n_n.contr.Idx) :
    (dot_S1024x512_S512x128_S1024x128_1_0_0_1_n_n.rhsIdx i k 1).val = (i 1).val := by
  unfold DotDims.rhsIdx
  rw [dif_neg (show ¬(1 : Fin S512x128.rank) ∈ dot_S1024x512_S512x128_S1024x128_1_0_0_1_n_n.rhsBatch by decide),
    dif_pos (show (1 : Fin S512x128.rank) ∈ dot_S1024x512_S512x128_S1024x128_1_0_0_1_n_n.rhsNonContracting by decide)]
  rfl

/-- The product of a tile with a block, into zero, at (p, d): the sum over the tile's 512 lanes. -/
theorem matmul_apply_ix (L : FVec Ideal S1024x512 .bf16) (R : FVec Ideal S512x128 .bf16) (p : Fin 1024) (d : Fin 128) :
    FloatOps.matmul dot_S1024x512_S512x128_S1024x128_1_0_0_1_n_n none L R (constant S1024x128 .f32 0x00000000#32) (ix2 p d)
      = ∑ q : Fin 512, L (ix2 p q) * R (ix2 q d) := by
  rw [Ideal.matmul_constant_zero_apply,
    ← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx (ix2 p d)
      ((contrEquiv1 dot_S1024x512_S512x128_S1024x128_1_0_0_1_n_n 512 rfl rfl).symm k) = ix2 p k :=
    funext fun ax => Fin.ext (by
      match ax with
      | ⟨0, _⟩ => exact lhs_axis0 _ _
      | ⟨1, _⟩ => exact (lhs_axis1 _ _).trans hk)
  have er : dot_S1024x512_S512x128_S1024x128_1_0_0_1_n_n.rhsIdx (ix2 p d)
      ((contrEquiv1 dot_S1024x512_S512x128_S1024x128_1_0_0_1_n_n 512 rfl rfl).symm k) = ix2 k d :=
    funext fun ax => Fin.ext (by
      match ax with
      | ⟨0, _⟩ => exact (rhs_axis0 _ _).trans hk
      | ⟨1, _⟩ => exact rhs_axis1 _ _)
  rw [el, er]

/-- The accumulator's update at (p, d), over the update's operands. -/
theorem pay2_apply_ix (v84 : FVec Ideal S1024x512 .f32) (v88 : FVec Ideal S1024x1 .f32) (v92 : Vec Ideal S512x128 .bf16)
    (v94 : Vec Ideal S1024x128 .f32) (p : Fin 1024) (d : Fin 128) :
    k1_pay2 (F := Ideal) v84 v88 v92 v94 (ix2 p d)
      = v94 (ix2 p d) + ∑ q : Fin 512, k1_pay1 (F := Ideal) v84 v88 (ix2 p q) * v92 (ix2 q d) := by
  unfold k1_pay2
  refine (congrFun (shapeCast_self _ _) (ix2 p d)).trans ?_
  refine (addf_apply _ _ _).trans ?_
  refine congrArg (v94 (ix2 p d) + ·) ?_
  refine (matmul_apply_ix _ _ p d).trans ?_
  refine Finset.sum_congr rfl fun q _ => ?_
  rw [shapeCast_self]
  rfl

/-- Main pass, entry (p, d) of the accumulator: the accumulator before plus the tile's row p against column d of the
    latent block. -/
theorem acc1_apply (a b : ℕ) (x0 : Vec Ideal S1024x3 .f32) (x1 : Vec Ideal S3x512 .f32)
    (x2 : Vec Ideal S1024x1 .f32) (x3 : Vec Ideal S1x512 .f32) (x4 : Vec Ideal S1024x1 .f32) (x5 : Vec Ideal S512x128 .bf16)
    (s : Vec Ideal S1024x128 .f32) (p : Fin 1024) (d : Fin 128) :
    acc1 (F := Ideal) a b x0 x1 x2 x3 x4 x5 s (ix2 p d)
      = s (ix2 p d) + ∑ q : Fin 512, tile1 (F := Ideal) a b x0 x1 x2 x3 x4 (ix2 p q) * x5 (ix2 q d) :=
  pay2_apply_ix _ _ x5 s p d

end Cert.KernelIdeal.Tile

end
-- ==== Proof.Sums.lean ====
/-
  Finite sums over the block decomposition of the index ranges.

  A column index c < 8192 is written uniquely as c = 512 j + q with j < 16 and q < 512, and a row index r < 8192
  uniquely as r = 1024 i + p with i < 8 and p < 1024. Hence a sum over all columns is the iterated sum over the
  sixteen column blocks and the 512 lanes of each. A running sum that starts from zero and adds one term per step
  is, after step n, the sum of the first n + 1 terms.
-/
import proofs.«159665_j72739566125272_1_alg».proof.Proof.Spec
import Mathlib.Algebra.BigOperators.Fin
import Mathlib.Algebra.BigOperators.Group.Finset.Basic
import Mathlib.Data.Fintype.BigOperators

namespace Cert.Diffuse

/-! ## Every index lies in exactly one block -/

/-- Every row is row `p` of exactly one row block. -/
theorem exists_rowOf (r : Fin 8192) : ∃ (i : Fin 8) (p : Fin 1024), r = rowOf i p := by
  have hr := r.isLt
  refine ⟨⟨r.val / 1024, by omega⟩, ⟨r.val % 1024, by omega⟩, ?_⟩
  apply Fin.ext
  simp only [rowOf_val, Fin.val_mk]
  omega

theorem exists_colOf (c : Fin 8192) : ∃ (j : Fin 16) (q : Fin 512), c = colOf j q := by
  have hc := c.isLt
  refine ⟨⟨c.val / 512, by omega⟩, ⟨c.val % 512, by omega⟩, ?_⟩
  apply Fin.ext
  simp only [colOf_val, Fin.val_mk]
  omega

theorem rowOf_inj {i i' : Fin 8} {p p' : Fin 1024} (h : rowOf i p = rowOf i' p') : i = i' ∧ p = p' := by
  have hv := congrArg Fin.val h
  simp only [rowOf_val] at hv
  have hp := p.isLt
  have hp' := p'.isLt
  exact ⟨Fin.ext (by omega), Fin.ext (by omega)⟩

theorem colOf_inj {j j' : Fin 16} {q q' : Fin 512} (h : colOf j q = colOf j' q') : j = j' ∧ q = q' := by
  have hv := congrArg Fin.val h
  simp only [colOf_val] at hv
  have hq := q.isLt
  have hq' := q'.isLt
  exact ⟨Fin.ext (by omega), Fin.ext (by omega)⟩

/-! ## The columns as sixteen blocks of 512 -/

/-- The pairs (block, lane) are the columns: (j, q) ↦ 512 j + q, with inverse c ↦ (c / 512, c mod 512). -/
def colEquiv : Fin 16 × Fin 512 ≃ Fin 8192 where
  toFun x := colOf x.1 x.2
  invFun c := (⟨c.val / 512, by have := c.isLt; omega⟩, ⟨c.val % 512, by omega⟩)
  left_inv := by
    rintro ⟨j, q⟩
    have hq := q.isLt
    apply Prod.ext
    · apply Fin.ext
      simp only [colOf_val]
      omega
    · apply Fin.ext
      simp only [colOf_val]
      omega
  right_inv := by
    intro c
    apply Fin.ext
    simp only [colOf_val]
    omega

/-- The 8192 columns are the 16 column blocks of 512 lanes. -/
theorem sum_colBlocks {M : Type*} [AddCommMonoid M] (f : Fin 8192 → M) :
    ∑ j : Fin 16, ∑ q : Fin 512, f (colOf j q) = ∑ c : Fin 8192, f c :=
  calc ∑ j : Fin 16, ∑ q : Fin 512, f (colOf j q)
      = ∑ x : Fin 16 × Fin 512, f (colEquiv x) := (Fintype.sum_prod_type' fun j q => f (colOf j q)).symm
    _ = ∑ c : Fin 8192, f c := Equiv.sum_comp colEquiv f

/-! ## The running sum -/

/-- A running sum that starts from zero at step 0 and adds `g n` at step `n`. -/
def runSum {M : Type*} [AddCommMonoid M] (g : ℕ → M) : ℕ → M
  | 0 => 0 + g 0
  | n + 1 => runSum g n + g (n + 1)

theorem runSum_eq_sum {M : Type*} [AddCommMonoid M] (g : ℕ → M) (n : ℕ) :
    runSum g n = ∑ k ∈ Finset.range (n + 1), g k := by
  induction n with
  | zero => simp [runSum]
  | succ n ih => rw [runSum, ih, ← Finset.sum_range_succ]

/-- After the sixteenth step it is the sum over the sixteen blocks. -/
theorem runSum_fifteen {M : Type*} [AddCommMonoid M] (g : ℕ → M) : runSum g 15 = ∑ j : Fin 16, g j.val := by
  rw [runSum_eq_sum]
  exact Finset.sum_range (n := 16) g

end Cert.Diffuse
-- ==== Proof.RowTotals.lean ====
/-
  The row-sum pass leaves the specification's row totals in its output array.

  Grid point t = 16 a + b pairs row block a (rows 1024 a + p) with column block b (columns 512 b + q). The four input
  windows' blocks at t are rows 1024 a … of the coordinates and of the exponents (as a column), and columns 512 b … of
  the transposed coordinates and of the exponents (as a row). Hence at row p the step function adds to the running
  sum the lane sum  Σ_q w(1024 a + p, 512 b + q)  of the specification's weights. The running sum is reset to zero
  where b = 0, so after point (a, b) it is  Σ_{j ≤ b} Σ_q w(1024 a + p, 512 j + q),  and after (a, 15) it is the row
  total of row 1024 a + p. The output's buffer holds the running sum exactly at those points, block (a, 0) of the
  output array is written back exactly there, and those eight blocks cover the array.
-/
import proofs.«159665_j72739566125272_1_alg».proof.Proof.WholeRun
import proofs.«159665_j72739566125272_1_alg».proof.Proof.RowSumPieces
import proofs.«159665_j72739566125272_1_alg».proof.Proof.Tile
import proofs.«159665_j72739566125272_1_alg».proof.Proof.Sums
import proofs.«159665_j72739566125272_1_alg».proof.Proof.Spec
import Idealize.ShloMosaic.Lib.Pipeline.Value
import Idealize.ShloMosaic.Lib.ValueIdx
import Idealize.ShloMosaic.Lib.ValueLayout
import Idealize.ShloMosaic.Lib.StableHlo.Run

-- membership in a rectangle of these extents recurses once per coordinate of the long axes
set_option maxRecDepth 16384

noncomputable section

namespace Cert.KernelIdeal.RowTotals

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Step Cert.Diffuse

variable (m : (ℓ : Loc nD τ sig) → Buf (Elt Ideal) ℓ)

/-! ## The arrays -/

/-- The coordinates as launched. -/
abbrev coordsOf (c : Dev nD) : S8192x3.Idx → EReal := m ((c.tc : Thread nD τ).loc main_arg1)
/-- The exponents as launched. -/
abbrev alphaOf (c : Dev nD) : S8192.Idx → EReal := m ((c.tc : Thread nD τ).loc main_arg2)

/-- The row-sum pass finds the coordinates as launched: no host operation writes them. -/
theorem entry_coords (c : Dev nD) : (Whole.E1 m c main_arg1 : S8192x3.Idx → EReal) = coordsOf m c :=
  (Gen.V1_of m c main_arg1 (by decide)).trans rfl

/-- It finds the exponents as a column: entry (r, 0) is exponent r. -/
theorem entry_alphaCol (c : Dev nD) :
    (Whole.E1 m c main_v0 : S8192x1.Idx → EReal) = shapeCast S8192x1 (alphaOf m c) shapeCasts_S8192_S8192x1 := by
  show StableHlo.after hostOps0 (Gen.V0 m c) (Proc.devRef .tc main_v0) = _
  after_results
  rfl

/-- It finds the exponents as a row: entry (0, r) is exponent r. -/
theorem entry_alphaRow (c : Dev nD) :
    (Whole.E1 m c main_v1 : S1x8192.Idx → EReal) = shapeCast S1x8192 (alphaOf m c) shapeCasts_S8192_S1x8192 := by
  show StableHlo.after hostOps0 (Gen.V0 m c) (Proc.devRef .tc main_v1) = _
  after_results
  rfl

/-- It finds the coordinates transposed: entry (k, r) is coordinate k of point r. -/
theorem entry_coordsT (c : Dev nD) :
    (Whole.E1 m c main_v2 : S3x8192.Idx → EReal)
      = transpose S3x8192 [1, 0] (coordsOf m c) transposes_S8192x3_S3x8192_1_0 := by
  show StableHlo.after hostOps0 (Gen.V0 m c) (Proc.devRef .tc main_v2) = _
  after_results

theorem alphaCol_apply (c : Dev nD) (r : Fin 8192) :
    (Whole.E1 m c main_v0 : S8192x1.Idx → EReal) (ix2 r (0 : Fin 1)) = alphaOf m c (ix1 r) := by
  rw [entry_alphaCol]
  exact shapeCast_apply (alphaOf m c) shapeCasts_S8192_S8192x1 (ix2 r (0 : Fin 1)) (ix1 r) (by
    rw [Shape.rowMajor_val_two, Shape.rowMajor_val_one]
    show r.val = r.val * 1 + 0
    omega)

theorem alphaRow_apply (c : Dev nD) (r : Fin 8192) :
    (Whole.E1 m c main_v1 : S1x8192.Idx → EReal) (ix2 (0 : Fin 1) r) = alphaOf m c (ix1 r) := by
  rw [entry_alphaRow]
  exact shapeCast_a_1a_apply (alphaOf m c) shapeCasts_S8192_S1x8192 (0 : Fin 1) r

theorem coordsT_apply (c : Dev nD) (k : Fin 3) (r : Fin 8192) :
    (Whole.E1 m c main_v2 : S3x8192.Idx → EReal) (ix2 k r) = coordsOf m c (ix2 r k) := by
  rw [entry_coordsT]
  exact transpose_ix2_apply (coordsOf m c) transposes_S8192x3_S3x8192_1_0 k r

/-! ## The index maps over the grid -/

/-- Point t = 16 a + b reads row block a of the coordinates and of the exponents' column, column block b of the
    transposed coordinates and of the exponents' row, and writes row block a of the output. -/
theorem idx_facts : ∀ t : Fin cfg0.N,
    win0_0.index t (0 : Fin 2) = t.val / 16 ∧ win0_0.index t (1 : Fin 2) = 0
    ∧ win0_1.index t (0 : Fin 2) = 0 ∧ win0_1.index t (1 : Fin 2) = t.val % 16
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

theorem lt_N (t : Fin cfg0.N) : t.val < 128 := lt_of_lt_of_eq t.isLt (show cfg0.N = 128 from N_0)

/-- A point's row block and column block. -/
abbrev rowBlk (t : Fin cfg0.N) : Fin 8 := ⟨t.val / 16, by have := lt_N t; omega⟩
abbrev colBlk (t : Fin cfg0.N) : Fin 16 := ⟨t.val % 16, by omega⟩

/-! ## The input blocks at a point -/

/-- The four input blocks at point t, as the row-sum pass finds its arrays. -/
abbrev blkCoords (c : Dev nD) (t : Fin cfg0.N) : Vec Ideal S1024x3 .f32 := RowSum.iblk0 (Whole.E1 m) c 0 t
abbrev blkCoordsT (c : Dev nD) (t : Fin cfg0.N) : Vec Ideal S3x512 .f32 := RowSum.iblk0 (Whole.E1 m) c 1 t
abbrev blkAlphaCol (c : Dev nD) (t : Fin cfg0.N) : Vec Ideal S1024x1 .f32 := RowSum.iblk0 (Whole.E1 m) c 2 t
abbrev blkAlphaRow (c : Dev nD) (t : Fin cfg0.N) : Vec Ideal S1x512 .f32 := RowSum.iblk0 (Whole.E1 m) c 3 t

/-- Row p of the coordinates' block is point 1024 a + p. -/
theorem blkCoords_apply (c : Dev nD) (t : Fin cfg0.N) (p : Fin 1024) (k : Fin 3) :
    blkCoords m c t (ix2 p k) = coordsOf m c (ix2 (rowOf (rowBlk t) p) k) := by
  obtain ⟨e00, e01, -, -, -, -, -, -, -, -⟩ := idx_facts t
  have hemb : ((cfg0.win 0).blk t).view.emb (ix2 p k) = (ix2 (rowOf (rowBlk t) p) k : S8192x3.Idx) := by
    funext a; apply Fin.ext
    match a with
    | ⟨0, _⟩ =>
      show win0_0.index t (0 : Fin 2) * 1024 + 1 * p.val = 1024 * (t.val / 16) + p.val
      omega
    | ⟨1, _⟩ =>
      show win0_0.index t (1 : Fin 2) * 3 + 1 * k.val = k.val
      omega
  show (Whole.E1 m c main_arg1 : S8192x3.Idx → EReal) (((cfg0.win 0).blk t).view.emb (ix2 p k)) = _
  rw [hemb, entry_coords]

/-- Column q of the transposed coordinates' block is point 512 b + q. -/
theorem blkCoordsT_apply (c : Dev nD) (t : Fin cfg0.N) (k : Fin 3) (q : Fin 512) :
    blkCoordsT m c t (ix2 k q) = coordsOf m c (ix2 (colOf (colBlk t) q) k) := by
  obtain ⟨-, -, e10, e11, -, -, -, -, -, -⟩ := idx_facts t
  have hemb : ((cfg0.win 1).blk t).view.emb (ix2 k q) = (ix2 k (colOf (colBlk t) q) : S3x8192.Idx) := by
    funext a; apply Fin.ext
    match a with
    | ⟨0, _⟩ =>
      show win0_1.index t (0 : Fin 2) * 3 + 1 * k.val = k.val
      omega
    | ⟨1, _⟩ =>
      show win0_1.index t (1 : Fin 2) * 512 + 1 * q.val = 512 * (t.val % 16) + q.val
      omega
  show (Whole.E1 m c main_v2 : S3x8192.Idx → EReal) (((cfg0.win 1).blk t).view.emb (ix2 k q)) = _
  rw [hemb, coordsT_apply]

/-- Row p of the exponents' column block is exponent 1024 a + p. -/
theorem blkAlphaCol_apply (c : Dev nD) (t : Fin cfg0.N) (p : Fin 1024) :
    blkAlphaCol m c t (ix2 p (0 : Fin 1)) = alphaOf m c (ix1 (rowOf (rowBlk t) p)) := by
  obtain ⟨-, -, -, -, e20, e21, -, -, -, -⟩ := idx_facts t
  have hemb : ((cfg0.win 2).blk t).view.emb (ix2 p (0 : Fin 1)) = (ix2 (rowOf (rowBlk t) p) (0 : Fin 1) : S8192x1.Idx) := by
    funext a; apply Fin.ext
    match a with
    | ⟨0, _⟩ =>
      show win0_2.index t (0 : Fin 2) * 1024 + 1 * p.val = 1024 * (t.val / 16) + p.val
      omega
    | ⟨1, _⟩ =>
      show win0_2.index t (1 : Fin 2) * 1 + 1 * 0 = 0
      omega
  show (Whole.E1 m c main_v0 : S8192x1.Idx → EReal) (((cfg0.win 2).blk t).view.emb (ix2 p (0 : Fin 1))) = _
  rw [hemb, alphaCol_apply]

/-- Column q of the exponents' row block is exponent 512 b + q. -/
theorem blkAlphaRow_apply (c : Dev nD) (t : Fin cfg0.N) (q : Fin 512) :
    blkAlphaRow m c t (ix2 (0 : Fin 1) q) = alphaOf m c (ix1 (colOf (colBlk t) q)) := by
  obtain ⟨-, -, -, -, -, -, e30, e31, -, -⟩ := idx_facts t
  have hemb : ((cfg0.win 3).blk t).view.emb (ix2 (0 : Fin 1) q) = (ix2 (0 : Fin 1) (colOf (colBlk t) q) : S1x8192.Idx) := by
    funext a; apply Fin.ext
    match a with
    | ⟨0, _⟩ =>
      show win0_3.index t (0 : Fin 2) * 1 + 1 * 0 = 0
      omega
    | ⟨1, _⟩ =>
      show win0_3.index t (1 : Fin 2) * 512 + 1 * q.val = 512 * (t.val % 16) + q.val
      omega
  show (Whole.E1 m c main_v1 : S1x8192.Idx → EReal) (((cfg0.win 3).blk t).view.emb (ix2 (0 : Fin 1) q)) = _
  rw [hemb, alphaRow_apply]

/-! ## One point -/

/-- The two spellings of "the pair is on the diagonal". -/
theorem diag_iff (a : Fin 8) (b : Fin 16) (p : Fin 1024) (q : Fin 512) :
    1024 * a.val + p.val = 512 * b.val + q.val ↔ rowOf a p = colOf b q :=
  ⟨fun h => Fin.ext h, fun h => congrArg Fin.val h⟩

/-- The lane sum of column block j of row r's weights (zero past the last block). -/
def blockSum (X : SCoords.Idx → EReal) (A : SAlpha.Idx → EReal) (r : Fin 8192) (j : ℕ) : EReal :=
  if h : j < 16 then ∑ q : Fin 512, weight X A r (colOf ⟨j, h⟩ q) else 0

theorem blockSum_fin (X : SCoords.Idx → EReal) (A : SAlpha.Idx → EReal) (r : Fin 8192) (j : Fin 16) :
    blockSum X A r j.val = ∑ q : Fin 512, weight X A r (colOf j q) := by
  unfold blockSum
  rw [dif_pos j.isLt]

/-- At point (a, b), over blocks that hold rows 1024 a … and columns 512 b … of the arrays, the step function adds
    to row p of the running sum the lane sum of column block b of row 1024 a + p. -/
theorem step_apply (X : SCoords.Idx → EReal) (A : SAlpha.Idx → EReal) (a : Fin 8) (b : Fin 16)
    (x0 : Vec Ideal S1024x3 .f32) (x1 : Vec Ideal S3x512 .f32) (x2 : Vec Ideal S1024x1 .f32) (x3 : Vec Ideal S1x512 .f32)
    (h0 : ∀ (p : Fin 1024) (k : Fin 3), x0 (ix2 p k) = X (ix2 (rowOf a p) k))
    (h1 : ∀ (k : Fin 3) (q : Fin 512), x1 (ix2 k q) = X (ix2 (colOf b q) k))
    (h2 : ∀ p : Fin 1024, x2 (ix2 p (0 : Fin 1)) = A (ix1 (rowOf a p)))
    (h3 : ∀ q : Fin 512, x3 (ix2 (0 : Fin 1) q) = A (ix1 (colOf b q)))
    (s : Vec Ideal S1024x1 .f32) (p : Fin 1024) :
    acc0 (F := Ideal) a.val b.val x0 x1 x2 x3 s (ix2 p (0 : Fin 1))
      = s (ix2 p (0 : Fin 1)) + blockSum X A (rowOf a p) b.val := by
  rw [Tile.acc0_apply a.val b.val a.isLt b.isLt x0 x1 x2 x3 s p, blockSum_fin]
  refine congrArg (s (ix2 p (0 : Fin 1)) + ·) ?_
  refine Finset.sum_congr rfl fun q _ => ?_
  simp only [h0, h1, h2, h3]
  exact wt_congr _ _ _ _ _ _ _ _ (diag_iff a b p q)

/-! ## The running sum, point by point -/

/-- The running sum's two defining equations. -/
theorem runSum_zero (g : ℕ → EReal) : runSum g 0 = 0 + g 0 := rfl
theorem runSum_succ (g : ℕ → EReal) (n : ℕ) : runSum g (n + 1) = runSum g n + g (n + 1) := rfl

/-- After point t = 16 a + b the scratch holds, at row p, the sum over the column blocks 0 … b of the lane sums of
    row 1024 a + p. -/
theorem scratch_inv (c : Dev nD) : ∀ (n : ℕ) (t : Fin cfg0.N), t.val = n → ∀ p : Fin 1024,
    (RowSum.outsAt0 (Whole.E1 m) c t.val t.isLt).2 (ix2 p (0 : Fin 1))
      = runSum (blockSum (coordsOf m c) (alphaOf m c) (rowOf (rowBlk t) p)) (t.val % 16) := by
  intro n
  induction n using Nat.strong_induction_on with
  | _ n ih =>
    intro t ht p
    have hN := lt_N t
    by_cases h0 : t.val % 16 = 0
    · -- the column block is 0: the update of zeros
      have h := RowSum.scratch0_reset (Whole.E1 m) c t h0
      rw [RowSum.coords0_row t, RowSum.coords0_col t] at h
      refine (congrFun h _).trans ?_
      refine (step_apply (coordsOf m c) (alphaOf m c) (rowBlk t) (colBlk t) (blkCoords m c t) (blkCoordsT m c t)
        (blkAlphaCol m c t) (blkAlphaRow m c t) (blkCoords_apply m c t) (blkCoordsT_apply m c t)
        (blkAlphaCol_apply m c t) (blkAlphaRow_apply m c t) (k0_pay2 (F := Ideal)) p).trans ?_
      rw [Tile.pay2_apply]
      show (0 : EReal) + blockSum _ _ _ (t.val % 16) = runSum _ (t.val % 16)
      rw [h0]
      exact (runSum_zero _).symm
    · -- any other column block: the update of what the point before left
      have hlt : t.val - 1 < cfg0.N := Nat.lt_of_le_of_lt (Nat.sub_le _ _) t.isLt
      have h := RowSum.scratch0_step (Whole.E1 m) c t h0
      rw [RowSum.coords0_row t, RowSum.coords0_col t] at h
      refine (congrFun h _).trans ?_
      refine (step_apply (coordsOf m c) (alphaOf m c) (rowBlk t) (colBlk t) (blkCoords m c t) (blkCoordsT m c t)
        (blkAlphaCol m c t) (blkAlphaRow m c t) (blkCoords_apply m c t) (blkCoordsT_apply m c t)
        (blkAlphaCol_apply m c t) (blkAlphaRow_apply m c t)
        ((RowSum.outsAt0 (Whole.E1 m) c (t.val - 1) hlt).2) p).trans ?_
      have hk : t.val % 16 = (t.val - 1) % 16 + 1 := by omega
      have hrow : rowBlk (⟨t.val - 1, hlt⟩ : Fin cfg0.N) = rowBlk t :=
        Fin.ext (by show (t.val - 1) / 16 = t.val / 16; omega)
      have hprev := ih (t.val - 1) (by omega) ⟨t.val - 1, hlt⟩ rfl p
      rw [hrow] at hprev
      show _ + blockSum _ _ _ (t.val % 16) = runSum _ (t.val % 16)
      rw [hk, runSum_succ]
      exact congrArg (· + _) hprev

/-- After the last column block the scratch holds the row totals of the point's row block. -/
theorem scratch_last (c : Dev nD) (t : Fin cfg0.N) (h15 : t.val % 16 = 15) (p : Fin 1024) :
    (RowSum.outsAt0 (Whole.E1 m) c t.val t.isLt).2 (ix2 p (0 : Fin 1))
      = rowTotal (coordsOf m c) (alphaOf m c) (rowOf (rowBlk t) p) := by
  rw [scratch_inv m c t.val t rfl p, h15, runSum_fifteen]
  unfold rowTotal
  rw [← sum_colBlocks (fun c' => weight (coordsOf m c) (alphaOf m c) (rowOf (rowBlk t) p) c')]
  exact Finset.sum_congr rfl fun j _ => blockSum_fin _ _ _ j

/-! ## From the blocks to the array -/

/-- The specification's row totals, as contents of the output array. -/
abbrev totals (c : Dev nD) : S8192x1.Idx → EReal :=
  fun i => rowTotal (coordsOf m c) (alphaOf m c) (i 0)

/-- What a point that writes back writes is its block of the row totals: there the output's buffer holds the
    scratch, whose row p is the total of row 1024 a + p, and block (a, 0) of the array is rows 1024 a … . -/
theorem flushed_eq (c : Dev nD) (t : Fin cfg0.N) (hf : (cfg0.win 4).flush t = true) :
    (RowSum.dat0 (Whole.E1 m) c).flushed 4 t = ((cfg0.win 4).blk t).view.read (Elt Ideal) (totals m c) := by
  have h15 : t.val % 16 = 15 := (flush0_4 t).mp hf
  obtain ⟨-, -, -, -, -, -, -, -, e40, e41⟩ := idx_facts t
  show (cfg0.win 4).cut (grid0.coords t) ((RowSum.dat0 (Whole.E1 m) c).after 4 t) = _
  rw [RowSum.after0_4, RowSum.out0_last (Whole.E1 m) c t h15]
  funext y
  have hy0 : (y 0).val < 1024 := (y 0).isLt
  have hy1 : (y 1).val < 1 := (y 1).isLt
  have hx : (cfg0.win 4).xinj (grid0.coords t) y = (ix2 (⟨(y 0).val, hy0⟩ : Fin 1024) (0 : Fin 1) : S1024x1.Idx) := by
    funext a; apply Fin.ext
    match a with
    | ⟨0, _⟩ => rfl
    | ⟨1, _⟩ => show (y 1).val = 0; omega
  show (RowSum.outsAt0 (Whole.E1 m) c t.val t.isLt).2 ((cfg0.win 4).xinj (grid0.coords t) y)
    = totals m c (((cfg0.win 4).blk t).view.emb y)
  rw [hx, scratch_last m c t h15]
  refine congrArg (rowTotal (coordsOf m c) (alphaOf m c)) (Fin.ext ?_)
  show 1024 * (t.val / 16) + (y 0).val = win0_4.index t (0 : Fin 2) * 1024 + 1 * (y 0).val
  omega

/-- An index of the output array is in point t's block iff each coordinate is in the block's range on its axis. -/
theorem mem_blk (t : Fin cfg0.N) (i : S8192x1.Idx) :
    i ∈ ((cfg0.win 4).blk t).view.set
      ↔ ∀ a : Fin 2, win0_4.index t a * S1024x1.size a ≤ (i a).val
          ∧ (i a).val < win0_4.index t a * S1024x1.size a + S1024x1.size a := by
  show i ∈ ((View.whole main_v4).slice (win0_4.rect t)).set ↔ _
  rw [View.set_slice_whole, Rect.mem_set_unit]
  exact Iff.rfl

/-- Row r of the output array is covered by the last column block's point of r's row block. -/
theorem covered (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 128 := N_0
  obtain ⟨t, ht⟩ : ∃ t : Fin cfg0.N, t.val = 16 * ((i 0).val / 1024) + 15 :=
    ⟨⟨16 * ((i 0).val / 1024) + 15, by rw [hN]; omega⟩, rfl⟩
  obtain ⟨-, -, -, -, -, -, -, -, e40, e41⟩ := idx_facts t
  refine ⟨t, (flush0_4 t).mpr (by rw [ht]; omega), ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1 ≤ (i 1).val ∧ (i 1).val < win0_4.index t (1 : Fin 2) * 1 + 1
    omega

/-- THE ROW TOTALS: after the row-sum pass its output array holds, at row r, the specification's total weight of
    row r of the launched coordinates and exponents. -/
theorem rowTotals_eq (c : Dev nD) :
    (RowSum.dat0 (Whole.E1 m) c).arrAt 4 cfg0.N
      = fun i : S8192x1.Idx => Cert.Diffuse.rowTotal (m ((c.tc : Thread nD τ).loc main_arg1)) (m ((c.tc : Thread nD τ).loc main_arg2)) (i 0) :=
  (RowSum.dat0 (Whole.E1 m) c).arrAt_eq_of_cover 4 (totals m c) (flushed_eq m c) (fun i => covered i)

end Cert.KernelIdeal.RowTotals

end
-- ==== Proof.MainValue.lean ====
/-
  What the main pass leaves in its two output arrays, at the extended reals.

  Grid point t = 16 a + b pairs row block a (rows 1024 a + p) with column block b (columns 512 b + q). The pass is
  entered with the coordinates, their transpose, the exponents as a column and as a row, the narrowed latents, and
  the rows' totals Σ_c w(r, c) that the row-sum pass left. At every point the first output's buffer holds the tile
  w(r, c) / (Σ_c w(r, c) + 1e-8) of its block, which is written back at every point: the 128 blocks tile the matrix,
  so the matrix ends as the normalised weights K. The accumulator after point (a, b) holds, at (p, d), the running sum
  over the column blocks 0 … b of Σ_q K(1024 a + p, 512 j + q) · latent(512 j + q, d); after column block 15 that is
  Σ_k K(r, k) · latent(k, d), which the second output's buffer then holds and which is written back exactly there:
  the 8 row blocks tile the result, so it ends as K · latent.
-/
import proofs.«159665_j72739566125272_1_alg».proof.Proof.WholeRun
import proofs.«159665_j72739566125272_1_alg».proof.Proof.MainPassPieces
import proofs.«159665_j72739566125272_1_alg».proof.Proof.RowTotals
import proofs.«159665_j72739566125272_1_alg».proof.Proof.Tile
import proofs.«159665_j72739566125272_1_alg».proof.Proof.Sums
import proofs.«159665_j72739566125272_1_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.MainValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Step Cert.Diffuse

variable (m : (ℓ : Loc nD τ sig) → Buf (Elt Ideal) ℓ)

/-! ## The arguments, and what the pass finds in its windows' arrays -/

/-- The points' coordinates, as launched. -/
abbrev argX (c : Dev nD) : SCoords.Idx → EReal := m ((c.tc : Thread nD τ).loc main_arg1)
/-- The exponents, as launched. -/
abbrev argA (c : Dev nD) : SAlpha.Idx → EReal := m ((c.tc : Thread nD τ).loc main_arg2)
/-- The latents, as launched. -/
abbrev argL (c : Dev nD) : SLatent.Idx → EReal := m ((c.tc : Thread nD τ).loc main_arg0)

/-- The coordinates are an input of the row-sum pass, which leaves them as launched. -/
theorem E2_arg1 (c : Dev nD) : Whole.E2 m c main_arg1 = m ((c.tc : Thread nD τ).loc main_arg1) :=
  Whole.X2_main_arg1 m c

/-- The transposed coordinates: an input of the row-sum pass, written before it by the transposition. -/
theorem E2_v2 (c : Dev nD) :
    Whole.E2 m c main_v2
      = transpose S3x8192 [1, 0] (argX m c) transposes_S8192x3_S3x8192_1_0 :=
  calc Whole.X2 m c (Proc.devRef .tc main_v2)
    _ = (RowSum.dat0 (Whole.E1 m) c).arrAt 1 cfg0.N := Whole.X2_arr m c 1
    _ = (RowSum.dat0 (Whole.E1 m) c).A 1 := (RowSum.dat0 (Whole.E1 m) c).arrAt_in 1 rfl _
    _ = Whole.X1 m c (Proc.devRef .tc main_v2) := RowSum.A_eq0 (Whole.E1 m) c 1
    _ = _ := by
      show StableHlo.after (hostOps0 (F := Ideal)) (Gen.V0 m c) (Proc.devRef .tc main_v2) = _
      after_results
      all_goals rfl

/-- The exponents as a column: an input of the row-sum pass, written before it by a reshape. -/
theorem E2_v0 (c : Dev nD) :
    Whole.E2 m c main_v0 = shapeCast S8192x1 (argA m c) shapeCasts_S8192_S8192x1 :=
  calc Whole.X2 m c (Proc.devRef .tc main_v0)
    _ = (RowSum.dat0 (Whole.E1 m) c).arrAt 2 cfg0.N := Whole.X2_arr m c 2
    _ = (RowSum.dat0 (Whole.E1 m) c).A 2 := (RowSum.dat0 (Whole.E1 m) c).arrAt_in 2 rfl _
    _ = Whole.X1 m c (Proc.devRef .tc main_v0) := RowSum.A_eq0 (Whole.E1 m) c 2
    _ = _ := by
      show StableHlo.after (hostOps0 (F := Ideal)) (Gen.V0 m c) (Proc.devRef .tc main_v0) = _
      after_results
      all_goals rfl

/-- The exponents as a row: an input of the row-sum pass, written before it by a reshape. -/
theorem E2_v1 (c : Dev nD) :
    Whole.E2 m c main_v1 = shapeCast S1x8192 (argA m c) shapeCasts_S8192_S1x8192 :=
  calc Whole.X2 m c (Proc.devRef .tc main_v1)
    _ = (RowSum.dat0 (Whole.E1 m) c).arrAt 3 cfg0.N := Whole.X2_arr m c 3
    _ = (RowSum.dat0 (Whole.E1 m) c).A 3 := (RowSum.dat0 (Whole.E1 m) c).arrAt_in 3 rfl _
    _ = Whole.X1 m c (Proc.devRef .tc main_v1) := RowSum.A_eq0 (Whole.E1 m) c 3
    _ = _ := by
      show StableHlo.after (hostOps0 (F := Ideal)) (Gen.V0 m c) (Proc.devRef .tc main_v1) = _
      after_results
      all_goals rfl

/-- The rows' totals: what the row-sum pass left in its output array. -/
theorem E2_v4 (c : Dev nD) :
    Whole.E2 m c main_v4 = fun i : S8192x1.Idx => rowTotal (argX m c) (argA m c) (i 0) :=
  (Whole.X2_arr m c 4).trans (RowTotals.rowTotals_eq m c)

/-- The narrowed latents: no array of the row-sum pass, written before it by the narrowing. -/
theorem E2_v3 (c : Dev nD) :
    Whole.E2 m c main_v3
      = truncf (F := Ideal) (s := S8192x128) (φ := .f32) .bf16 (m ((c.tc : Thread nD τ).loc main_arg0)) bitsLt_bf16_f32 :=
  calc Whole.X2 m c (Proc.devRef .tc main_v3)
    _ = Whole.X1 m c (Proc.devRef .tc main_v3) := Whole.X2_of_ne m c main_v3 (by decide)
    _ = _ := by
      show StableHlo.after (hostOps0 (F := Ideal)) (Gen.V0 m c) (Proc.devRef .tc main_v3) = _
      after_results
      all_goals rfl

/-! ## Where each window's block sits: point t = 16 a + b reads row block a = t / 16 and column block b = t % 16 -/

theorem idx0 : ∀ t : Fin cfg1.N, win1_0.index t (0 : Fin 2) = t.val / 16 ∧ win1_0.index t (1 : Fin 2) = 0 :=
  (by decide +kernel : ∀ t : Fin grid1.N, _)
theorem idx1 : ∀ t : Fin cfg1.N, win1_1.index t (0 : Fin 2) = 0 ∧ win1_1.index t (1 : Fin 2) = t.val % 16 :=
  (by decide +kernel : ∀ t : Fin grid1.N, _)
theorem idx2 : ∀ t : Fin cfg1.N, win1_2.index t (0 : Fin 2) = t.val / 16 ∧ win1_2.index t (1 : Fin 2) = 0 :=
  (by decide +kernel : ∀ t : Fin grid1.N, _)
theorem idx3 : ∀ t : Fin cfg1.N, win1_3.index t (0 : Fin 2) = 0 ∧ win1_3.index t (1 : Fin 2) = t.val % 16 :=
  (by decide +kernel : ∀ t : Fin grid1.N, _)
theorem idx4 : ∀ t : Fin cfg1.N, win1_4.index t (0 : Fin 2) = t.val / 16 ∧ win1_4.index t (1 : Fin 2) = 0 :=
  (by decide +kernel : ∀ t : Fin grid1.N, _)
theorem idx5 : ∀ t : Fin cfg1.N, win1_5.index t (0 : Fin 2) = t.val % 16 ∧ win1_5.index t (1 : Fin 2) = 0 :=
  (by decide +kernel : ∀ t : Fin grid1.N, _)
theorem idx6 : ∀ t : Fin cfg1.N, win1_6.index t (0 : Fin 2) = t.val / 16 ∧ win1_6.index t (1 : Fin 2) = t.val % 16 :=
  (by decide +kernel : ∀ t : Fin grid1.N, _)
theorem idx7 : ∀ t : Fin cfg1.N, win1_7.index t (0 : Fin 2) = t.val / 16 ∧ win1_7.index t (1 : Fin 2) = 0 :=
  (by decide +kernel : ∀ t : Fin grid1.N, _)

theorem lt128 (t : Fin cfg1.N) : t.val < 128 := lt_of_lt_of_eq t.isLt (show cfg1.N = 128 from N_1)

/-- The row block of point t. -/
abbrev rowBlk (t : Fin cfg1.N) : Fin 8 := ⟨t.val / 16, by have := lt128 t; omega⟩
/-- The column block of point t. -/
abbrev colBlk (t : Fin cfg1.N) : Fin 16 := ⟨t.val % 16, Nat.mod_lt _ (by norm_num)⟩

/-! ## The input blocks at a point, each at its literal type -/

abbrev xb0 (c : Dev nD) (t : Fin cfg1.N) : Vec Ideal S1024x3 .f32 := MainPass.iblk1 (Whole.E2 m) c 0 t
abbrev xb1 (c : Dev nD) (t : Fin cfg1.N) : Vec Ideal S3x512 .f32 := MainPass.iblk1 (Whole.E2 m) c 1 t
abbrev xb2 (c : Dev nD) (t : Fin cfg1.N) : Vec Ideal S1024x1 .f32 := MainPass.iblk1 (Whole.E2 m) c 2 t
abbrev xb3 (c : Dev nD) (t : Fin cfg1.N) : Vec Ideal S1x512 .f32 := MainPass.iblk1 (Whole.E2 m) c 3 t
abbrev xb4 (c : Dev nD) (t : Fin cfg1.N) : Vec Ideal S1024x1 .f32 := MainPass.iblk1 (Whole.E2 m) c 4 t
abbrev xb5 (c : Dev nD) (t : Fin cfg1.N) : Vec Ideal S512x128 .bf16 := MainPass.iblk1 (Whole.E2 m) c 5 t

/-! ## Each input block, entry by entry, as entries of the arguments -/

/-- Row p of the coordinates' block at t is row 1024 (t / 16) + p of the coordinates. -/
theorem xb0_apply (c : Dev nD) (t : Fin cfg1.N) (p : Fin 1024) (k : Fin 3) (r : Fin 8192)
    (hr : r.val = 1024 * (t.val / 16) + p.val) : xb0 m c t (ix2 p k) = argX m c (ix2 r k) := by
  show Whole.E2 m c main_arg1 (((cfg1.win 0).blk t).view.emb (ix2 p k)) = _
  rw [E2_arg1 m c]
  refine congrArg (m ((c.tc : Thread nD τ).loc main_arg1)) (funext fun a => Fin.ext ?_)
  have e := idx0 t
  match a with
  | ⟨0, _⟩ => show win1_0.index t (0 : Fin 2) * 1024 + 1 * p.val = r.val; omega
  | ⟨1, _⟩ => show win1_0.index t (1 : Fin 2) * 3 + 1 * k.val = k.val; omega

/-- Column q of the transposed coordinates' block at t is row 512 (t % 16) + q of the coordinates. -/
theorem xb1_apply (c : Dev nD) (t : Fin cfg1.N) (k : Fin 3) (q : Fin 512) (s : Fin 8192)
    (hs : s.val = 512 * (t.val % 16) + q.val) : xb1 m c t (ix2 k q) = argX m c (ix2 s k) := by
  show Whole.E2 m c main_v2 (((cfg1.win 1).blk t).view.emb (ix2 k q)) = _
  rw [E2_v2 m c]
  have e := idx1 t
  have he : ((cfg1.win 1).blk t).view.emb (ix2 k q) = (ix2 k s : S3x8192.Idx) := funext fun a => Fin.ext (by
    match a with
    | ⟨0, _⟩ => show win1_1.index t (0 : Fin 2) * 3 + 1 * k.val = k.val; omega
    | ⟨1, _⟩ => show win1_1.index t (1 : Fin 2) * 512 + 1 * q.val = s.val; omega)
  exact (congrArg (transpose S3x8192 [1, 0] (argX m c) transposes_S8192x3_S3x8192_1_0) he).trans
    (transpose_ix2_apply _ _ k s)

/-- Row p of the exponent column's block at t is exponent 1024 (t / 16) + p. -/
theorem xb2_apply (c : Dev nD) (t : Fin cfg1.N) (p : Fin 1024) (r : Fin 8192)
    (hr : r.val = 1024 * (t.val / 16) + p.val) : xb2 m c t (ix2 p (0 : Fin 1)) = argA m c (ix1 r) := by
  show Whole.E2 m c main_v0 (((cfg1.win 2).blk t).view.emb (ix2 p (0 : Fin 1))) = _
  rw [E2_v0 m c]
  have e := idx2 t
  have he : ((cfg1.win 2).blk t).view.emb (ix2 p (0 : Fin 1)) = (ix2 r (0 : Fin 1) : S8192x1.Idx) := funext fun a => Fin.ext (by
    match a with
    | ⟨0, _⟩ => show win1_2.index t (0 : Fin 2) * 1024 + 1 * p.val = r.val; omega
    | ⟨1, _⟩ => show win1_2.index t (1 : Fin 2) * 1 + 1 * 0 = 0; omega)
  exact (congrArg (shapeCast S8192x1 (argA m c) shapeCasts_S8192_S8192x1) he).trans
    (shapeCast_apply _ _ _ (ix1 r) (by
      rw [Shape.rowMajor_val_one, Shape.rowMajor_val_two]
      show r.val = r.val * 1 + 0
      omega))

/-- Column q of the exponent row's block at t is exponent 512 (t % 16) + q. -/
theorem xb3_apply (c : Dev nD) (t : Fin cfg1.N) (q : Fin 512) (s : Fin 8192)
    (hs : s.val = 512 * (t.val % 16) + q.val) : xb3 m c t (ix2 (0 : Fin 1) q) = argA m c (ix1 s) := by
  show Whole.E2 m c main_v1 (((cfg1.win 3).blk t).view.emb (ix2 (0 : Fin 1) q)) = _
  rw [E2_v1 m c]
  have e := idx3 t
  have he : ((cfg1.win 3).blk t).view.emb (ix2 (0 : Fin 1) q) = (ix2 (0 : Fin 1) s : S1x8192.Idx) := funext fun a => Fin.ext (by
    match a with
    | ⟨0, _⟩ => show win1_3.index t (0 : Fin 2) * 1 + 1 * 0 = 0; omega
    | ⟨1, _⟩ => show win1_3.index t (1 : Fin 2) * 512 + 1 * q.val = s.val; omega)
  exact (congrArg (shapeCast S1x8192 (argA m c) shapeCasts_S8192_S1x8192) he).trans
    (shapeCast_a_1a_apply _ _ (0 : Fin 1) s)

/-- The totals' array at row r is the total of row r. -/
theorem E2_v4_apply (c : Dev nD) (r : Fin 8192) :
    Whole.E2 m c main_v4 (ix2 r (0 : Fin 1) : S8192x1.Idx) = rowTotal (argX m c) (argA m c) r :=
  congrFun (E2_v4 m c) (ix2 r (0 : Fin 1))

/-- Row p of the totals' block at t is the total of row 1024 (t / 16) + p. -/
theorem xb4_apply (c : Dev nD) (t : Fin cfg1.N) (p : Fin 1024) (r : Fin 8192)
    (hr : r.val = 1024 * (t.val / 16) + p.val) :
    xb4 m c t (ix2 p (0 : Fin 1)) = rowTotal (argX m c) (argA m c) r := by
  show Whole.E2 m c main_v4 (((cfg1.win 4).blk t).view.emb (ix2 p (0 : Fin 1))) = _
  have e := idx4 t
  have he : ((cfg1.win 4).blk t).view.emb (ix2 p (0 : Fin 1)) = (ix2 r (0 : Fin 1) : S8192x1.Idx) := funext fun a => Fin.ext (by
    match a with
    | ⟨0, _⟩ => show win1_4.index t (0 : Fin 2) * 1024 + 1 * p.val = r.val; omega
    | ⟨1, _⟩ => show win1_4.index t (1 : Fin 2) * 1 + 1 * 0 = 0; omega)
  exact (congrArg (Whole.E2 m c main_v4) he).trans (E2_v4_apply m c r)

/-- Row q of the latents' block at t is row 512 (t % 16) + q of the latents (the narrowing changes no extended real). -/
theorem xb5_apply (c : Dev nD) (t : Fin cfg1.N) (q : Fin 512) (d : Fin 128) (s : Fin 8192)
    (hs : s.val = 512 * (t.val % 16) + q.val) : xb5 m c t (ix2 q d) = argL m c (ix2 s d) := by
  show Whole.E2 m c main_v3 (((cfg1.win 5).blk t).view.emb (ix2 q d)) = _
  rw [E2_v3 m c]
  show m ((c.tc : Thread nD τ).loc main_arg0) (((cfg1.win 5).blk t).view.emb (ix2 q d)) = _
  refine congrArg (m ((c.tc : Thread nD τ).loc main_arg0)) (funext fun a => Fin.ext ?_)
  have e := idx5 t
  match a with
  | ⟨0, _⟩ => show win1_5.index t (0 : Fin 2) * 512 + 1 * q.val = s.val; omega
  | ⟨1, _⟩ => show win1_5.index t (1 : Fin 2) * 128 + 1 * d.val = d.val; omega

/-! ## The matrix: the tile at point t is the block (t / 16, t % 16) of the normalised weights -/

/-- Entry (p, q) of the tile at t is the normalised weight of row 1024 (t / 16) + p and column 512 (t % 16) + q. -/
theorem tile_point (c : Dev nD) (t : Fin cfg1.N) (p : Fin 1024) (q : Fin 512) :
    tile1 (F := Ideal) (t.val / 16) (t.val % 16) (xb0 m c t) (xb1 m c t) (xb2 m c t) (xb3 m c t) (xb4 m c t) (ix2 p q)
      = normW (argX m c) (argA m c) (rowOf (rowBlk t) p) (colOf (colBlk t) q) := by
  have hr : (rowOf (rowBlk t) p).val = 1024 * (t.val / 16) + p.val := rfl
  have hs : (colOf (colBlk t) q).val = 512 * (t.val % 16) + q.val := rfl
  rw [Tile.tile1_apply (t.val / 16) (t.val % 16) (rowBlk t).isLt (colBlk t).isLt (xb0 m c t) (xb1 m c t) (xb2 m c t) (xb3 m c t)
    (xb4 m c t) p q]
  rw [xb0_apply m c t p 0 _ hr, xb0_apply m c t p 1 _ hr, xb0_apply m c t p 2 _ hr,
    xb1_apply m c t 0 q _ hs, xb1_apply m c t 1 q _ hs, xb1_apply m c t 2 q _ hs,
    xb2_apply m c t p _ hr, xb3_apply m c t q _ hs, xb4_apply m c t p _ hr]
  unfold normW weight
  congr 1
  exact wt_congr _ _ _ _ _ _ _ _ ⟨fun h => Fin.ext h, fun h => congrArg Fin.val h⟩

/-- What every point writes back of the first output is its block of the normalised weights. -/
theorem flushed6_eq (c : Dev nD) (t : Fin cfg1.N) :
    (MainPass.dat1 (Whole.E2 m) c).flushed 6 t
      = ((cfg1.win 6).blk t).view.read (Elt Ideal) (GK (argX m c) (argA m c)) := by
  show (cfg1.win 6).cut (grid1.coords t) ((MainPass.dat1 (Whole.E2 m) c).after 6 t) = _
  rw [MainPass.after1_6, MainPass.tile1_at, MainPass.coords1_row t, MainPass.coords1_col t]
  refine funext fun (y : S1024x512.Idx) => ?_
  obtain ⟨p, q, rfl⟩ : ∃ (p : Fin 1024) (q : Fin 512), y = ix2 p q := ⟨y 0, y 1, eq_ix2 y⟩
  have hx : (cfg1.win 6).xinj (grid1.coords t) (ix2 p q) = (ix2 p q : S1024x512.Idx) := funext fun a => Fin.ext rfl
  have e := idx6 t
  have hi : ((cfg1.win 6).blk t).view.emb (ix2 p q) = (ix2 (rowOf (rowBlk t) p) (colOf (colBlk t) q) : SPair.Idx) :=
    funext fun a => Fin.ext (by
      match a with
      | ⟨0, _⟩ => show win1_6.index t (0 : Fin 2) * 1024 + 1 * p.val = 1024 * (t.val / 16) + p.val; omega
      | ⟨1, _⟩ => show win1_6.index t (1 : Fin 2) * 512 + 1 * q.val = 512 * (t.val % 16) + q.val; omega)
  show tile1 (F := Ideal) (t.val / 16) (t.val % 16) (xb0 m c t) (xb1 m c t) (xb2 m c t) (xb3 m c t) (xb4 m c t)
      ((cfg1.win 6).xinj (grid1.coords t) (ix2 p q))
    = GK (argX m c) (argA m c) (((cfg1.win 6).blk t).view.emb (ix2 p q))
  rw [hx, hi]
  exact tile_point m c t p q

/-- An entry of the matrix lies in point t's block iff each coordinate lies in the block's range. -/
theorem mem_blk6 (t : Fin cfg1.N) (i : S8192x8192.Idx) :
    i ∈ ((cfg1.win 6).blk t).view.set ↔ ∀ a : Fin 2, win1_6.index t a * S1024x512.size a ≤ (i a).val
      ∧ (i a).val < win1_6.index t a * S1024x512.size a + S1024x512.size a := by
  show i ∈ ((View.whole main_v5_0).slice (win1_6.rect t)).set ↔ _
  rw [View.set_slice_whole, Rect.mem_set_unit]
  exact Iff.rfl

/-- Entry (r, k) lies in the block of point 16 (r / 1024) + k / 512. -/
theorem cover6 (i : S8192x8192.Idx) :
    ∃ t : Fin cfg1.N, (cfg1.win 6).flush t = true ∧ i ∈ ((cfg1.win 6).blk t).view.set := by
  have h0 : (i 0).val < 8192 := idx2_lt0 i
  have h1 : (i 1).val < 8192 := idx2_lt1 i
  obtain ⟨t, ht⟩ : ∃ t : Fin cfg1.N, t.val = 16 * ((i 0).val / 1024) + (i 1).val / 512 :=
    ⟨⟨16 * ((i 0).val / 1024) + (i 1).val / 512, lt_of_lt_of_eq (by omega) (show 128 = cfg1.N from N_1.symm)⟩, rfl⟩
  refine ⟨t, flush1_6 t, ?_⟩
  rw [mem_blk6]
  have e := idx6 t
  intro a
  match a with
  | ⟨0, _⟩ =>
    show win1_6.index t (0 : Fin 2) * 1024 ≤ (i 0).val ∧ (i 0).val < win1_6.index t (0 : Fin 2) * 1024 + 1024
    omega
  | ⟨1, _⟩ =>
    show win1_6.index t (1 : Fin 2) * 512 ≤ (i 1).val ∧ (i 1).val < win1_6.index t (1 : Fin 2) * 512 + 512
    omega

/-- The matrix the main pass leaves is the normalised weights. -/
theorem K_eq (c : Dev nD) :
    (MainPass.dat1 (Whole.E2 m) c).arrAt 6 cfg1.N
      = Cert.Diffuse.GK (m ((c.tc : Thread nD τ).loc main_arg1)) (m ((c.tc : Thread nD τ).loc main_arg2)) :=
  (MainPass.dat1 (Whole.E2 m) c).arrAt_eq_of_cover 6 (GK (argX m c) (argA m c)) (fun t _ => flushed6_eq m c t) cover6

/-! ## The aggregated latents: the accumulator is a running sum over the column blocks -/

/-- Column block j's share of entry (p, d) of row block a's result: the sum over the block's 512 columns. -/
def blockTerm (c : Dev nD) (a : Fin 8) (p : Fin 1024) (d : Fin 128) (j : ℕ) : EReal :=
  if h : j < 16 then
    ∑ q : Fin 512, normW (argX m c) (argA m c) (rowOf a p) (colOf ⟨j, h⟩ q) * argL m c (ix2 (colOf ⟨j, h⟩ q) d)
  else 0

/-- One point's update of the accumulator adds that point's column block's share. -/
theorem acc_step (c : Dev nD) (t : Fin cfg1.N) (s : Vec Ideal S1024x128 .f32) (p : Fin 1024) (d : Fin 128) :
    acc1 (F := Ideal) (t.val / 16) (t.val % 16) (xb0 m c t) (xb1 m c t) (xb2 m c t) (xb3 m c t) (xb4 m c t) (xb5 m c t) s (ix2 p d)
      = s (ix2 p d) + blockTerm m c (rowBlk t) p d (t.val % 16) := by
  rw [Tile.acc1_apply (t.val / 16) (t.val % 16) (xb0 m c t) (xb1 m c t) (xb2 m c t) (xb3 m c t) (xb4 m c t) (xb5 m c t) s p d]
  refine congrArg (s (ix2 p d) + ·) ?_
  unfold blockTerm
  refine Eq.trans ?_ (dif_pos (colBlk t).isLt).symm
  refine Finset.sum_congr rfl fun q _ => ?_
  rw [tile_point m c t p q, xb5_apply m c t q d (colOf (colBlk t) q) rfl]
  all_goals rfl

/-- After point n = 16 a + b the accumulator holds, at (p, d), the running sum of the shares of column blocks 0 … b. -/
theorem acc_inv (c : Dev nD) (p : Fin 1024) (d : Fin 128) : ∀ (n : ℕ) (hn : n < cfg1.N),
    (MainPass.outsAt1 (Whole.E2 m) c n hn).2.2 (ix2 p d) = runSum (blockTerm m c (rowBlk ⟨n, hn⟩) p d) (n % 16) := by
  intro n
  induction n with
  | zero =>
    intro hn
    refine (congrFun (MainPass.scratch1_reset (Whole.E2 m) c ⟨0, hn⟩ (Nat.zero_mod 16)) (ix2 p d)).trans ?_
    rw [MainPass.coords1_row, MainPass.coords1_col]
    refine (acc_step m c ⟨0, hn⟩ _ p d).trans ?_
    rw [Tile.pay3_apply (ix2 p d)]
    rfl
  | succ n ih =>
    intro hn
    by_cases h0 : (n + 1) % 16 = 0
    · refine (congrFun (MainPass.scratch1_reset (Whole.E2 m) c ⟨n + 1, hn⟩ h0) (ix2 p d)).trans ?_
      rw [MainPass.coords1_row, MainPass.coords1_col]
      refine (acc_step m c ⟨n + 1, hn⟩ _ p d).trans ?_
      rw [Tile.pay3_apply (ix2 p d)]
      show 0 + blockTerm m c (rowBlk ⟨n + 1, hn⟩) p d ((n + 1) % 16) = runSum _ ((n + 1) % 16)
      rw [h0]
      rfl
    · refine (congrFun (MainPass.scratch1_step (Whole.E2 m) c ⟨n + 1, hn⟩ h0) (ix2 p d)).trans ?_
      rw [MainPass.coords1_row, MainPass.coords1_col]
      refine (acc_step m c ⟨n + 1, hn⟩ _ p d).trans ?_
      have hrow : rowBlk ⟨n, Nat.lt_of_succ_lt hn⟩ = rowBlk ⟨n + 1, hn⟩ :=
        Fin.ext (by show n / 16 = (n + 1) / 16; omega)
      have hmod : (n + 1) % 16 = n % 16 + 1 := by omega
      show (MainPass.outsAt1 (Whole.E2 m) c n _).2.2 (ix2 p d) + blockTerm m c (rowBlk ⟨n + 1, hn⟩) p d ((n + 1) % 16)
        = runSum (blockTerm m c (rowBlk ⟨n + 1, hn⟩) p d) ((n + 1) % 16)
      rw [ih (Nat.lt_of_succ_lt hn), hrow, hmod]
      rfl

/-- Where the column block is 15 the second output's write-back writes its block of the aggregated latents. -/
theorem flushed7_eq (c : Dev nD) (t : Fin cfg1.N) (hf : (cfg1.win 7).flush t = true) :
    (MainPass.dat1 (Whole.E2 m) c).flushed 7 t
      = ((cfg1.win 7).blk t).view.read (Elt Ideal) (Gout (argX m c) (argA m c) (argL m c)) := by
  have h15 : t.val % 16 = 15 := (flush1_7 t).mp hf
  show (cfg1.win 7).cut (grid1.coords t) ((MainPass.dat1 (Whole.E2 m) c).after 7 t) = _
  rw [MainPass.after1_7, MainPass.out1_last (Whole.E2 m) c t h15]
  refine funext fun (y : S1024x128.Idx) => ?_
  obtain ⟨p, d, rfl⟩ : ∃ (p : Fin 1024) (d : Fin 128), y = ix2 p d := ⟨y 0, y 1, eq_ix2 y⟩
  have hx : (cfg1.win 7).xinj (grid1.coords t) (ix2 p d) = (ix2 p d : S1024x128.Idx) := funext fun a => Fin.ext rfl
  have e := idx7 t
  have hi : ((cfg1.win 7).blk t).view.emb (ix2 p d) = (ix2 (rowOf (rowBlk t) p) d : SLatent.Idx) :=
    funext fun a => Fin.ext (by
      match a with
      | ⟨0, _⟩ => show win1_7.index t (0 : Fin 2) * 1024 + 1 * p.val = 1024 * (t.val / 16) + p.val; omega
      | ⟨1, _⟩ => show win1_7.index t (1 : Fin 2) * 128 + 1 * d.val = d.val; omega)
  show (MainPass.outsAt1 (Whole.E2 m) c t.val t.isLt).2.2 ((cfg1.win 7).xinj (grid1.coords t) (ix2 p d))
    = Gout (argX m c) (argA m c) (argL m c) (((cfg1.win 7).blk t).view.emb (ix2 p d))
  rw [hx, hi, acc_inv m c p d t.val t.isLt, h15, runSum_fifteen]
  show ∑ j : Fin 16, blockTerm m c (rowBlk t) p d j.val
    = ∑ k : Fin 8192, normW (argX m c) (argA m c) (rowOf (rowBlk t) p) k * argL m c (ix2 k d)
  refine Eq.trans ?_ (sum_colBlocks (fun k => normW (argX m c) (argA m c) (rowOf (rowBlk t) p) k * argL m c (ix2 k d)))
  refine Finset.sum_congr rfl fun j _ => ?_
  unfold blockTerm
  exact (dif_pos j.isLt).trans rfl

/-- An entry of the result lies in point t's block iff each coordinate lies in the block's range. -/
theorem mem_blk7 (t : Fin cfg1.N) (i : S8192x128.Idx) :
    i ∈ ((cfg1.win 7).blk t).view.set ↔ ∀ a : Fin 2, win1_7.index t a * S1024x128.size a ≤ (i a).val
      ∧ (i a).val < win1_7.index t a * S1024x128.size a + S1024x128.size a := by
  show i ∈ ((View.whole main_v5_1).slice (win1_7.rect t)).set ↔ _
  rw [View.set_slice_whole, Rect.mem_set_unit]
  exact Iff.rfl

/-- Row r of the result lies in the block of the last point of its row block, 16 (r / 1024) + 15. -/
theorem cover7 (i : S8192x128.Idx) :
    ∃ t : Fin cfg1.N, (cfg1.win 7).flush t = true ∧ i ∈ ((cfg1.win 7).blk t).view.set := by
  have h0 : (i 0).val < 8192 := idx2_lt0 i
  have h1 : (i 1).val < 128 := idx2_lt1 i
  obtain ⟨t, ht⟩ : ∃ t : Fin cfg1.N, t.val = 16 * ((i 0).val / 1024) + 15 :=
    ⟨⟨16 * ((i 0).val / 1024) + 15, lt_of_lt_of_eq (by omega) (show 128 = cfg1.N from N_1.symm)⟩, rfl⟩
  refine ⟨t, (flush1_7 t).mpr (by omega), ?_⟩
  rw [mem_blk7]
  have e := idx7 t
  intro a
  match a with
  | ⟨0, _⟩ =>
    show win1_7.index t (0 : Fin 2) * 1024 ≤ (i 0).val ∧ (i 0).val < win1_7.index t (0 : Fin 2) * 1024 + 1024
    omega
  | ⟨1, _⟩ =>
    show win1_7.index t (1 : Fin 2) * 128 ≤ (i 1).val ∧ (i 1).val < win1_7.index t (1 : Fin 2) * 128 + 128
    omega

/-- The second array the main pass leaves is the normalised weights applied to the latents. -/
theorem out_eq (c : Dev nD) :
    (MainPass.dat1 (Whole.E2 m) c).arrAt 7 cfg1.N
      = Cert.Diffuse.Gout (m ((c.tc : Thread nD τ).loc main_arg1)) (m ((c.tc : Thread nD τ).loc main_arg2))
          (m ((c.tc : Thread nD τ).loc main_arg0)) :=
  (MainPass.dat1 (Whole.E2 m) c).arrAt_eq_of_cover 7 (Gout (argX m c) (argA m c) (argL m c)) (flushed7_eq m c) cover7

end Cert.KernelIdeal.MainValue

end
-- ==== Proof.RefValue.lean ====
/-
  The reference program's two results, read at the extended reals, are the specification's reference-form arrays.

  Index by index. At the pair (r, c):
  * the squared norm of a point is the zero word plus the sum over its three coordinates of their squares, that is
    (x₀² + x₁²) + x₂²; the inner product of two points is the sum over the three coordinates of the products, the right
    factor read through the transposed array, that is (x₀y₀ + x₁y₁) + x₂y₂;
  * so the distance term is `distS` of the two points' coordinates, the exponent `halfS` of the two exponents, and the
    clipped power times the decay, clipped again, is `wtRef`'s first factor;
  * the two coordinate counters compared for equality and read as an unsigned number give 1 on the diagonal and 0 off it
    (both coordinates are below 8192, far below 2³², so the 32-bit words are equal exactly when the coordinates are), so the
    second factor is 1 − δ and the product is `weightRef`;
  * a row's total is the zero word plus the sum over the 8192 columns of the weights, `rowTotalRef`; the quotient by the
    total plus 1e-8 is `normWRef`; and the second result is, at (r, d), the sum over k of `normWRef r k` times the
    latent at (k, d).
-/
import proofs.«159665_j72739566125272_1_alg».proof.Proof.Gen.ReferenceIdeal.Run
import proofs.«159665_j72739566125272_1_alg».proof.Proof.Gen.ReferenceIdeal.Read
import proofs.«159665_j72739566125272_1_alg».proof.Proof.Spec
import Mathlib.Algebra.BigOperators.Fin

noncomputable section

namespace Cert.ReferenceIdeal.RefValue

open Idealize.ShloMosaic Idealize.ShloMosaic.ValueIdx Cert.ReferenceIdeal Cert.ReferenceIdeal.Gen Cert.Diffuse
open Idealize.ShloMosaic.TcCoe Idealize.SL.Sem

/-! ## The diagonal indicator -/

/-- Two coordinates below 8192, as 32-bit words (the first with the zero word added), compared for equality: the
    comparison's bit, read as a natural number, is 1 when they are equal and 0 when they are not. -/
theorem eqWord_toNat (a b : ℕ) (ha : a < 8192) (hb : b < 8192) :
    (IntOp.cmpi .eq (IntOp.addi (BitVec.ofNat 32 a) 0#32) (BitVec.ofNat 32 b)).toNat = if a = b then 1 else 0 := by
  have h0 : IntOp.addi (BitVec.ofNat 32 a) 0#32 = BitVec.ofNat 32 a := BitVec.add_zero _
  have hc : ∀ x y : BitVec 32, IntOp.cmpi .eq x y = BitVec.ofBool (x == y) := fun _ _ => rfl
  rw [h0, hc]
  by_cases h : a = b
  · subst h
    rw [if_pos rfl, beq_self_eq_true]
    rfl
  · have hne : BitVec.ofNat 32 a ≠ BitVec.ofNat 32 b := fun e => h (by
      have t := congrArg BitVec.toNat e
      simp only [BitVec.toNat_ofNat] at t
      omega)
    rw [if_neg h, beq_false_of_ne hne]
    rfl

/-- The indicator of the diagonal: 1 at (r, r), 0 elsewhere. -/
theorem delta_at (r k : Fin 8192) :
    Read.val_main_v39 (F := Ideal) (ix2 r k) = if r = k then (1 : EReal) else 0 := by
  rw [Read.val_main_v39_apply, Read.val_main_v38_apply, Read.val_main_v37_apply, Read.val_main_v34_apply,
    Read.val_main_v35_apply, Read.val_main_v36_apply, Read.val_main_c_apply]
  show (((IntOp.cmpi .eq (IntOp.addi (BitVec.ofNat 32 r.val) 0#32) (BitVec.ofNat 32 k.val)).toNat : ℝ) : EReal) = _
  rw [eqWord_toNat r.val k.val r.isLt k.isLt]
  by_cases e : r = k
  · rw [if_pos e, if_pos (congrArg Fin.val e)]
    simp
  · rw [if_neg e, if_neg (fun q => e (Fin.ext q))]
    simp

/-! ## The broadcast literals -/

/- Each is the literal's word, read through a rank-0 array spread over the pairs. -/
theorem c9 (i : S8192x8192.Idx) : Read.val_main_v9 (F := Ideal) i = lit 0x40000000#32 :=
  (Read.val_main_v9_apply i).trans (Read.val_main_cst_0_apply _)
theorem c12 (i : S8192x8192.Idx) : Read.val_main_v12 (F := Ideal) i = lit 0x2B8CBCCC#32 :=
  (Read.val_main_v12_apply i).trans (Read.val_main_cst_1_apply _)
theorem c15 (i : S8192x8192.Idx) : Read.val_main_v15 (F := Ideal) i = lit 0x358637BD#32 :=
  (Read.val_main_v15_apply i).trans (Read.val_main_cst_2_apply _)
theorem c22 (i : S8192x8192.Idx) : Read.val_main_v22 (F := Ideal) i = lit 0x3F000000#32 :=
  (Read.val_main_v22_apply i).trans (Read.val_main_cst_3_apply _)
theorem c24 (i : S8192x8192.Idx) : Read.val_main_call0_v1 (F := Ideal) i = lit 0x358637BD#32 :=
  (Read.val_main_call0_v1_apply i).trans ((Read.val_main_call0_v0_apply _).trans (Read.val_main_cst_4_apply _))
theorem c27lo (i : S8192x8192.Idx) : Read.val_main_call1_v1 (F := Ideal) i = lit 0x322BCC77#32 :=
  (Read.val_main_call1_v1_apply i).trans ((Read.val_main_call1_v0_apply _).trans (Read.val_main_cst_5_apply _))
theorem c27hi (i : S8192x8192.Idx) : Read.val_main_call1_v4 (F := Ideal) i = lit 0x447A0000#32 :=
  (Read.val_main_call1_v4_apply i).trans ((Read.val_main_call1_v3_apply _).trans (Read.val_main_cst_6_apply _))
theorem c29 (i : S8192x8192.Idx) : Read.val_main_v29 (F := Ideal) i = lit 0x41400000#32 :=
  (Read.val_main_v29_apply i).trans (Read.val_main_cst_7_apply _)
theorem c33lo (i : S8192x8192.Idx) : Read.val_main_call2_v1 (F := Ideal) i = lit 0x00000000#32 :=
  (Read.val_main_call2_v1_apply i).trans ((Read.val_main_call2_v0_apply _).trans (Read.val_main_cst_8_apply _))
theorem c33hi (i : S8192x8192.Idx) : Read.val_main_call2_v4 (F := Ideal) i = lit 0x447A0000#32 :=
  (Read.val_main_call2_v4_apply i).trans ((Read.val_main_call2_v3_apply _).trans (Read.val_main_cst_9_apply _))
theorem c40 (i : S8192x8192.Idx) : Read.val_main_v40 (F := Ideal) i = lit 0x3F800000#32 :=
  (Read.val_main_v40_apply i).trans (Read.val_main_cst_10_apply _)
theorem c45 (i : S8192x1.Idx) : Read.val_main_v45 (F := Ideal) i = lit 0x322BCC77#32 :=
  (Read.val_main_v45_apply i).trans (Read.val_main_cst_12_apply _)

/-! ## One pair -/

variable (X : (⟨S8192x3, .f32⟩ : BufTy).Contents (Elt Ideal)) (A : (⟨S8192, .f32⟩ : BufTy).Contents (Elt Ideal))
  (L : (⟨S8192x128, .f32⟩ : BufTy).Contents (Elt Ideal))

/-- A point's squared norm: (x₀² + x₁²) + x₂². -/
theorem sq_at (r : Fin 8192) :
    Read.val_main_v1 (F := Ideal) X (ix1 r)
      = X (ix2 r 0) * X (ix2 r 0) + X (ix2 r 1) * X (ix2 r 1) + X (ix2 r 2) * X (ix2 r 2) := by
  have e : ∀ j : Fin 3, Read.val_main_v0 (F := Ideal) X (Read.idx_main_v1 (ix1 r) j) = X (ix2 r j) * X (ix2 r j) := fun j => by
    have q : Read.idx_main_v1 (ix1 r) j = ix2 r j :=
      funext fun a => Fin.ext (by match a with | ⟨0, _⟩ => rfl | ⟨1, _⟩ => rfl)
    rw [q]; rfl
  rw [Read.val_main_v1_apply, Fin.sum_univ_three, e, e, e]
  show Ideal.ofBits .f32 0x00000000#32 + _ = _
  rw [Ideal.ofBits_zero_f32, zero_add]

/-- The squared norm of the row's point, spread over the pairs. -/
theorem rowSq_at (r k : Fin 8192) :
    Read.val_main_v4 (F := Ideal) X (ix2 r k) = Read.val_main_v1 (F := Ideal) X (ix1 r) := by
  rw [Read.val_main_v4_apply, Read.val_main_v2_apply]
  exact congrArg (Read.val_main_v1 (F := Ideal) X) (funext fun a => Fin.ext (by match a with | ⟨0, _⟩ => rfl))

/-- The squared norm of the column's point, spread over the pairs. -/
theorem colSq_at (r k : Fin 8192) :
    Read.val_main_v5 (F := Ideal) X (ix2 r k) = Read.val_main_v1 (F := Ideal) X (ix1 k) := by
  rw [Read.val_main_v5_apply, Read.val_main_v3_apply]
  exact congrArg (Read.val_main_v1 (F := Ideal) X) (funext fun a => Fin.ext (by match a with | ⟨0, _⟩ => rfl))

/-- The inner product of the two points: (x₀y₀ + x₁y₁) + x₂y₂. -/
theorem dot_at (r k : Fin 8192) :
    Read.val_main_v8 (F := Ideal) X (ix2 r k)
      = X (ix2 r 0) * X (ix2 k 0) + X (ix2 r 1) * X (ix2 k 1) + X (ix2 r 2) * X (ix2 k 2) := by
  have e : ∀ j : Fin 3, X (Read.lidx_main_v8 (ix2 r k) j) * Read.val_main_v7 (F := Ideal) X (Read.ridx_main_v8 (ix2 r k) j)
      = X (ix2 r j) * X (ix2 k j) := fun j => by
    have ql : Read.lidx_main_v8 (ix2 r k) j = ix2 r j :=
      funext fun a => Fin.ext (by match a with | ⟨0, _⟩ => rfl | ⟨1, _⟩ => rfl)
    have qr : Read.idx_main_v7 (Read.ridx_main_v8 (ix2 r k) j) = ix2 k j :=
      funext fun a => Fin.ext (by match a with | ⟨0, _⟩ => rfl | ⟨1, _⟩ => rfl)
    rw [Read.val_main_v7_apply, ql, qr]
  rw [Read.val_main_v8_apply, Fin.sum_univ_three, e, e, e]

/-- The distance term of the pair. -/
theorem dist_at (r k : Fin 8192) :
    Read.val_main_v16 (F := Ideal) X (ix2 r k)
      = distS (X (ix2 r 0)) (X (ix2 r 1)) (X (ix2 r 2)) (X (ix2 k 0)) (X (ix2 k 1)) (X (ix2 k 2)) := by
  rw [Read.val_main_v16_apply, Read.val_main_v14_apply, Read.val_main_v13_apply, Read.val_main_v11_apply,
    Read.val_main_v6_apply, Read.val_main_v10_apply, rowSq_at X r k, colSq_at X r k, sq_at X r, sq_at X k, dot_at X r k,
    c9, c12, c15]
  rfl

/-- Half the sum of the pair's exponents. -/
theorem half_at (r k : Fin 8192) :
    Read.val_main_v23 (F := Ideal) A (ix2 r k) = halfS (A (ix1 r)) (A (ix1 k)) := by
  have er : Read.val_main_v19 (F := Ideal) A (ix2 r k) = A (ix1 r) := by
    rw [Read.val_main_v19_apply, Read.val_main_v17_apply]
    exact congrArg A (funext fun a => Fin.ext (by match a with | ⟨0, _⟩ => rfl))
  have ek : Read.val_main_v20 (F := Ideal) A (ix2 r k) = A (ix1 k) := by
    rw [Read.val_main_v20_apply, Read.val_main_v18_apply]
    exact congrArg A (funext fun a => Fin.ext (by match a with | ⟨0, _⟩ => rfl))
  rw [Read.val_main_v23_apply, Read.val_main_v21_apply, er, ek, c22]
  rfl

/-- The clipped power of the clipped distance. -/
theorem clipPow_at (r k : Fin 8192) :
    Read.val_main_v27 (F := Ideal) X A (ix2 r k)
      = min (lit 0x447A0000#32) (max (lit 0x322BCC77#32)
          (Ideal.pow (max (lit 0x358637BD#32)
              (distS (X (ix2 r 0)) (X (ix2 r 1)) (X (ix2 r 2)) (X (ix2 k 0)) (X (ix2 k 1)) (X (ix2 k 2))))
            (-(halfS (A (ix1 r)) (A (ix1 k)))))) := by
  rw [Read.val_main_v27_apply, Read.val_main_call1_v2_apply, Read.val_main_v26_apply, Read.val_main_v24_apply,
    Read.val_main_v25_apply, c24, c27lo, c27hi, dist_at X r k, half_at A r k]
  rfl

/-- The decay with the distance. -/
theorem decay_at (r k : Fin 8192) :
    Read.val_main_v31 (F := Ideal) X (ix2 r k)
      = Ideal.exp (Ideal.div (-(distS (X (ix2 r 0)) (X (ix2 r 1)) (X (ix2 r 2)) (X (ix2 k 0)) (X (ix2 k 1)) (X (ix2 k 2))))
          (lit 0x41400000#32)) := by
  rw [Read.val_main_v31_apply, Read.val_main_v30_apply, Read.val_main_v28_apply, c29, dist_at X r k]
  rfl

/-- The weight of the pair, the diagonal removed by the factor 1 − δ. -/
theorem weight_at (r k : Fin 8192) :
    Read.val_main_v42 (F := Ideal) X A (ix2 r k) = weightRef X A r k := by
  rw [Read.val_main_v42_apply, Read.val_main_v41_apply, Read.val_main_v33_apply, Read.val_main_call2_v2_apply,
    Read.val_main_v32_apply, c33lo, c33hi, c40, clipPow_at X A r k, decay_at X r k, delta_at r k]
  rfl

/-! ## A row -/

/-- A row's total weight. -/
theorem rowTotal_at (r : Fin 8192) :
    Read.val_main_v43 (F := Ideal) X A (ix1 r) = rowTotalRef X A r := by
  rw [Read.val_main_v43_apply]
  show Ideal.ofBits .f32 0x00000000#32 + _ = ∑ c : Fin 8192, weightRef X A r c
  rw [Ideal.ofBits_zero_f32, zero_add]
  refine Finset.sum_congr rfl fun k _ => ?_
  have q : Read.idx_main_v43 (ix1 r) k = ix2 r k :=
    funext fun a => Fin.ext (by match a with | ⟨0, _⟩ => rfl | ⟨1, _⟩ => rfl)
  rw [q]
  exact weight_at X A r k

/-- The normalised weight of the pair. -/
theorem norm_at (r k : Fin 8192) :
    Read.val_main_v48 (F := Ideal) X A (ix2 r k) = normWRef X A r k := by
  have t : Read.val_main_v47 (F := Ideal) X A (ix2 r k) = rowTotalRef X A r + lit 0x322BCC77#32 := by
    have q : Read.idx_main_v44 (Read.idx_main_v47 (ix2 r k)) = ix1 r :=
      funext fun a => Fin.ext (by match a with | ⟨0, _⟩ => rfl)
    rw [Read.val_main_v47_apply, Read.val_main_v46_apply, Read.val_main_v44_apply, c45, q, rowTotal_at X A r]
    rfl
  rw [Read.val_main_v48_apply, weight_at X A r k, t]
  rfl

/-- The aggregated latents at (r, d): the sum over k of the normalised weight of (r, k) times the latent at (k, d). -/
theorem out_at (r : Fin 8192) (d : Fin 128) :
    Read.val_main_v49 (F := Ideal) L X A (ix2 r d) = ∑ k : Fin 8192, normWRef X A r k * L (ix2 k d) := by
  rw [Read.val_main_v49_apply]
  refine Finset.sum_congr rfl fun k _ => ?_
  have ql : Read.lidx_main_v49 (ix2 r d) k = ix2 r k :=
    funext fun a => Fin.ext (by match a with | ⟨0, _⟩ => rfl | ⟨1, _⟩ => rfl)
  have qr : Read.ridx_main_v49 (ix2 r d) k = ix2 k d :=
    funext fun a => Fin.ext (by match a with | ⟨0, _⟩ => rfl | ⟨1, _⟩ => rfl)
  rw [ql, qr, norm_at X A r k]

/-! ## The two results -/

/-- The normalised matrix, as a function of the coordinates and the exponents. -/
theorem K_fun : Read.val_main_v48 (F := Ideal) X A = GKRef X A :=
  funext fun (i : S8192x8192.Idx) => by
    obtain ⟨r, k, rfl⟩ : ∃ (r : Fin 8192) (k : Fin 8192), i = ix2 r k := ⟨i 0, i 1, eq_ix2 i⟩
    exact norm_at X A r k

/-- The aggregated latents, as a function of the three arrays. -/
theorem out_fun : Read.val_main_v49 (F := Ideal) L X A = GoutRef X A L :=
  funext fun (i : S8192x128.Idx) => by
    obtain ⟨r, d, rfl⟩ : ∃ (r : Fin 8192) (d : Fin 128), i = ix2 r d := ⟨i 0, i 1, eq_ix2 i⟩
    exact out_at X A L r d

/-- The reference's normalised matrix is the specification's, in its reference form. -/
theorem res_K_eq (m : (ℓ : Loc nD τ sig) → Buf (Elt Ideal) ℓ) (c : Dev nD) :
    Cert.ReferenceIdeal.Value.res_out1 (F := Ideal) m c
      = GKRef (m ((c.tc : Thread nD τ).loc main_arg1)) (m ((c.tc : Thread nD τ).loc main_arg2)) :=
  (Read.val_main_v48_eq m c).trans (K_fun _ _)

/-- The reference's aggregated latents are the specification's, in its reference form. -/
theorem res_out_eq (m : (ℓ : Loc nD τ sig) → Buf (Elt Ideal) ℓ) (c : Dev nD) :
    Cert.ReferenceIdeal.Value.res_out0 (F := Ideal) m c
      = GoutRef (m ((c.tc : Thread nD τ).loc main_arg1)) (m ((c.tc : Thread nD τ).loc main_arg2)) (m ((c.tc : Thread nD τ).loc main_arg0)) :=
  (Read.val_main_v49_eq m c).trans (out_fun _ _ _)

end Cert.ReferenceIdeal.RefValue

end
-- ==== Proof.Algebra.lean ====
/-
  The two spellings of the pair weight agree on real arguments.

  With real coordinates and real exponents every intermediate of the weight is a real number: the squared norms and
  the inner product, their combination, its maximum with the (non-negative) floor, the square root of that
  non-negative real, and the sum with the (positive) offset; so is half the sum of the exponents. The base
  D̃ = max(D, t) is then a real at least t > 0, and for a positive real base
      D̃ ^ (−a) = exp (log D̃ · (−a)) = exp ((0 − a) · log D̃),
  which is the one place where the two forms differ off the diagonal (besides max being commutative and 0 − x = −x).
  On the diagonal the reference form is (a value) · (1 − 1) = 0, the kernel form selects 0; off it the factor is
  1 − 0 = 1. Of the float words only this is used: 0x00000000 is 0, 0x3F800000 is 1, the words of 2 and 1/2 are
  real, the floor's word is a non-negative real, and the offset's word is a positive real.
-/
import proofs.«159665_j72739566125272_1_alg».proof.Proof.Spec
import Idealize.ShloMosaic.PureOps.Ideal
import Idealize.ShloMosaic.PureOps.Ideal.Laws
import Idealize.ShloMosaic.Lib.IdealHost
import Mathlib.Analysis.SpecialFunctions.Pow.Real
import Mathlib.Data.EReal.Basic
import Mathlib.Data.EReal.Operations
import Mathlib.Data.EReal.Inv
import Mathlib.Order.MinMax

noncomputable section

namespace Cert.Diffuse

open Idealize.ShloMosaic Idealize.ShloMosaic.ValueIdx

/-! ## The extended reals -/

/-- The inclusion of the reals in the extended reals commutes with `max`. -/
theorem coe_max_real (x y : ℝ) : ((max x y : ℝ) : EReal) = max (x : EReal) (y : EReal) :=
  EReal.coe_strictMono.monotone.map_max

/-- `1 − 1 = 0` in the extended reals. -/
theorem one_sub_one_ereal : (1 : EReal) - 1 = 0 := by
  rw [← EReal.coe_one, ← EReal.coe_sub, sub_self, EReal.coe_zero]

/-! ## The float words -/

/-- The word of `0.0`. -/
theorem lit_zero : lit 0x00000000#32 = 0 := Ideal.ofBits_zero_f32

/-- The word of `1.0`. -/
theorem lit_one : lit 0x3F800000#32 = 1 := Ideal.ofBits_one_f32

/-- The word of `2.0` is a real. -/
theorem lit_two_real : ∃ r : ℝ, lit 0x40000000#32 = (r : EReal) :=
  ⟨2, by simp [lit, Ideal.ofBits, Ideal.ieee, -EReal.coe_mul] <;> norm_num⟩

/-- The word of `0.5` is a real. -/
theorem lit_half_real : ∃ r : ℝ, lit 0x3F000000#32 = (r : EReal) :=
  ⟨1 / 2, by simp [lit, Ideal.ofBits, Ideal.ieee, -EReal.coe_mul] <;> norm_num⟩

/-- The floor's word (`1e-12`: 9223372 · 2⁻⁶³) is a non-negative real. -/
theorem lit_floor_real : ∃ r : ℝ, 0 ≤ r ∧ lit 0x2B8CBCCC#32 = (r : EReal) :=
  ⟨9223372 * (2 : ℝ) ^ (-63 : ℤ), by positivity,
    by simp [lit, Ideal.ofBits, Ideal.ieee, -EReal.coe_mul] <;> norm_num⟩

/-- The offset's word (`1e-6`: 8796093 · 2⁻⁴³) is a positive real. -/
theorem lit_tiny_real : ∃ r : ℝ, 0 < r ∧ lit 0x358637BD#32 = (r : EReal) :=
  ⟨8796093 * (2 : ℝ) ^ (-43 : ℤ), by positivity,
    by simp [lit, Ideal.ofBits, Ideal.ieee, -EReal.coe_mul] <;> norm_num⟩

/-! ## The scalars of a pair are real -/

/-- The distance term of two real points is a real. -/
theorem distS_real (a0 a1 a2 b0 b1 b2 : ℝ) :
    ∃ d : ℝ, distS (a0 : EReal) a1 a2 b0 b1 b2 = (d : EReal) := by
  obtain ⟨two, h2⟩ := lit_two_real
  obtain ⟨m, hm0, hm⟩ := lit_floor_real
  obtain ⟨t, _, ht⟩ := lit_tiny_real
  unfold distS
  rw [h2, hm, ht]
  simp only [← EReal.coe_mul, ← EReal.coe_add, ← EReal.coe_sub]
  rw [← coe_max_real, Ideal.sqrt_coe]
  split_ifs with hneg
  · exact absurd hneg (not_lt.2 (le_max_of_le_right hm0))
  · exact ⟨_, (EReal.coe_add _ _).symm⟩

/-- Half the sum of two real exponents is a real. -/
theorem halfS_real (ar ac : ℝ) : ∃ h : ℝ, halfS (ar : EReal) ac = (h : EReal) := by
  obtain ⟨c, hc⟩ := lit_half_real
  exact ⟨c * (ar + ac), by rw [halfS, hc, EReal.coe_mul, EReal.coe_add]⟩

/-! ## The power as an exponential -/

/-- For a positive real `t` and reals `d`, `h`: `max(t, d) ^ (−h) = exp ((0 − h) · log (max(d, t)))`. -/
theorem pow_neg_eq_exp_log {t : ℝ} (ht : 0 < t) (d h : ℝ) :
    Ideal.pow (max (t : EReal) (d : EReal)) (-(h : EReal))
      = Ideal.exp (((0 : EReal) - (h : EReal)) * Ideal.log (max (d : EReal) (t : EReal))) := by
  have hpos : 0 < max t d := lt_max_of_lt_left ht
  rw [zero_sub, max_comm (d : EReal) (t : EReal), ← coe_max_real, ← EReal.coe_neg, Ideal.pow_coe_coe, Ideal.log_coe,
    if_neg (not_le.2 hpos), ← EReal.coe_mul, Ideal.exp_coe, Real.rpow_eq_pow, Real.rpow_def_of_pos hpos,
    mul_comm]

/-! ## One pair -/

theorem wtRef_eq_wt (a0 a1 a2 b0 b1 b2 ar ac : ℝ) (diag : Prop) [Decidable diag] :
    wtRef (a0 : EReal) a1 a2 b0 b1 b2 ar ac diag = wt (a0 : EReal) a1 a2 b0 b1 b2 ar ac diag := by
  obtain ⟨d, hd⟩ := distS_real a0 a1 a2 b0 b1 b2
  obtain ⟨h, hh⟩ := halfS_real ar ac
  obtain ⟨t, ht0, ht⟩ := lit_tiny_real
  have key : Ideal.pow (max (lit 0x358637BD#32) (distS (a0 : EReal) a1 a2 b0 b1 b2)) (-(halfS (ar : EReal) ac))
      = Ideal.exp ((lit 0x00000000#32 - halfS (ar : EReal) ac)
          * Ideal.log (max (distS (a0 : EReal) a1 a2 b0 b1 b2) (lit 0x358637BD#32))) := by
    rw [hd, hh, ht, lit_zero]
    exact pow_neg_eq_exp_log ht0 d h
  have hneg : lit 0x00000000#32 - distS (a0 : EReal) a1 a2 b0 b1 b2
      = -(distS (a0 : EReal) a1 a2 b0 b1 b2) := by
    rw [lit_zero, zero_sub]
  unfold wtRef wt
  by_cases hdiag : diag
  · rw [if_pos hdiag, if_pos hdiag, lit_one, one_sub_one_ereal, mul_zero, lit_zero]
  · rw [if_neg hdiag, if_neg hdiag, key, hneg, lit_one, sub_zero, mul_one]

/-- The same, for extended reals that are real. -/
theorem wtRef_eq_wt_of_real {a0 a1 a2 b0 b1 b2 ar ac : EReal}
    (h0 : ∃ x : ℝ, a0 = (x : EReal)) (h1 : ∃ x : ℝ, a1 = (x : EReal)) (h2 : ∃ x : ℝ, a2 = (x : EReal))
    (k0 : ∃ x : ℝ, b0 = (x : EReal)) (k1 : ∃ x : ℝ, b1 = (x : EReal)) (k2 : ∃ x : ℝ, b2 = (x : EReal))
    (hr : ∃ x : ℝ, ar = (x : EReal)) (hc : ∃ x : ℝ, ac = (x : EReal)) (diag : Prop) [Decidable diag] :
    wtRef a0 a1 a2 b0 b1 b2 ar ac diag = wt a0 a1 a2 b0 b1 b2 ar ac diag := by
  obtain ⟨x0, rfl⟩ := h0
  obtain ⟨x1, rfl⟩ := h1
  obtain ⟨x2, rfl⟩ := h2
  obtain ⟨y0, rfl⟩ := k0
  obtain ⟨y1, rfl⟩ := k1
  obtain ⟨y2, rfl⟩ := k2
  obtain ⟨er, rfl⟩ := hr
  obtain ⟨ec, rfl⟩ := hc
  exact wtRef_eq_wt x0 x1 x2 y0 y1 y2 er ec diag

/-! ## The arrays -/

theorem weightRef_eq_weight (X : SCoords.Idx → EReal) (A : SAlpha.Idx → EReal)
    (hX : ∀ i, ∃ x : ℝ, X i = (x : EReal)) (hA : ∀ i, ∃ a : ℝ, A i = (a : EReal)) (r c : Fin 8192) :
    weightRef X A r c = weight X A r c := by
  unfold weightRef weight
  exact wtRef_eq_wt_of_real (hX _) (hX _) (hX _) (hX _) (hX _) (hX _) (hA _) (hA _) _

/-- The normalised weights of the two forms agree. -/
theorem normWRef_eq_normW (X : SCoords.Idx → EReal) (A : SAlpha.Idx → EReal)
    (hX : ∀ i, ∃ x : ℝ, X i = (x : EReal)) (hA : ∀ i, ∃ a : ℝ, A i = (a : EReal)) :
    normWRef X A = normW X A := by
  have hw : weightRef X A = weight X A :=
    funext fun r => funext fun c => weightRef_eq_weight X A hX hA r c
  funext r c
  unfold normWRef normW rowTotalRef rowTotal
  rw [hw]

theorem GKRef_eq_GK (X : SCoords.Idx → EReal) (A : SAlpha.Idx → EReal)
    (hX : ∀ i, ∃ x : ℝ, X i = (x : EReal)) (hA : ∀ i, ∃ a : ℝ, A i = (a : EReal)) : GKRef X A = GK X A := by
  unfold GKRef GK
  rw [normWRef_eq_normW X A hX hA]

theorem GoutRef_eq_Gout (X : SCoords.Idx → EReal) (A : SAlpha.Idx → EReal) (L : SLatent.Idx → EReal)
    (hX : ∀ i, ∃ x : ℝ, X i = (x : EReal)) (hA : ∀ i, ∃ a : ℝ, A i = (a : EReal)) : GoutRef X A L = Gout X A L := by
  unfold GoutRef Gout
  rw [normWRef_eq_normW X A hX hA]

end Cert.Diffuse

end
-- ==== Proof.Finite.lean ====
/-
  Finite inputs are real.

  The precondition states, of each of the three argument arrays, that every element x satisfies |x| < +∞; the three
  statements are joined by "and", and each is an "and" over all elements of its array. Over the extended reals
  |x| = max x (−x), and |x| < ⊤ excludes both ⊤ (where |x| = ⊤) and ⊥ (where −x = ⊤). So every coordinate and every
  exponent is the coercion of a real number.
-/
import proofs.«159665_j72739566125272_1_alg».proof.Defs
import proofs.«159665_j72739566125272_1_alg».proof.Proof.Gen.Pre_finite_inputs
import Idealize.ShloMosaic.Lib.ReduceAll
import Idealize.ShloMosaic.Lib.ValueIdx
import Mathlib.Data.EReal.Operations

namespace Cert.Diffuse

open Idealize.ShloMosaic

/-- The ordered "less than" on the extended reals answers 1 exactly when the strict inequality holds. -/
theorem cmp_olt_eq_one {x y : EReal} : Ideal.cmp .olt x y = 1#1 ↔ x < y := by
  show BitVec.ofBool (decide (x < y)) = 1#1 ↔ x < y
  by_cases hxy : x < y
  · simp [hxy]
  · simp [hxy]

/-- The word of +∞ denotes ⊤. -/
theorem ofBits_inf : Ideal.ofBits .f32 0x7F800000#32 = (⊤ : EReal) := by
  simp [Ideal.ofBits, Ideal.ieee]

/-- An extended real whose absolute value is below ⊤ is a real number: ⊥ has −⊥ = ⊤, and ⊤ is ⊤. -/
theorem real_of_abs_lt_top (x : EReal) (hx : max x (-x) < ⊤) : ∃ r : ℝ, x = (r : EReal) := by
  induction x using EReal.rec with
  | bot => simp at hx
  | coe r => exact ⟨r, rfl⟩
  | top => simp at hx

/-- The same from the comparison of |x| against the word of +∞. -/
theorem real_of_cmp (x : EReal)
    (hx : Ideal.cmp .olt (max x (-x)) (Ideal.ofBits .f32 0x7F800000#32) = 1#1) : ∃ r : ℝ, x = (r : EReal) := by
  rw [cmp_olt_eq_one, ofBits_inf] at hx
  exact real_of_abs_lt_top x hx

/-- Under the precondition every coordinate and every exponent is a real number. -/
theorem real_of_finite [Cert.Pre_finite_inputs.Facts]
    (L : (⟨2, ![8192, 128]⟩ : Shape).Idx → EReal) (X : (⟨2, ![8192, 3]⟩ : Shape).Idx → EReal)
    (A : (⟨1, ![8192]⟩ : Shape).Idx → EReal)
    (h : Cert.Pre_finite_inputs.fn (F := Ideal) L X A = (fun _ => 1#1)) :
    (∀ i, ∃ x : ℝ, X i = (x : EReal)) ∧ (∀ i, ∃ a : ℝ, A i = (a : EReal)) := by
  have h0 := congrFun h ValueIdx.ix0
  dsimp only [Cert.Pre_finite_inputs.fn, Idealize.ShloMosaic.andi] at h0
  obtain ⟨h01, h2⟩ := IntOp.andi_eq_one.1 h0
  obtain ⟨-, h1⟩ := IntOp.andi_eq_one.1 h01
  haveI : Subsingleton Cert.Pre_finite_inputs.S_.Idx := ⟨fun a b => funext fun d => d.elim0⟩
  refine ⟨fun i => ?_, fun i => ?_⟩
  · exact real_of_cmp (X i) (Host.reduce_andi_all _ _ _ _ _ h1 i)
  · exact real_of_cmp (A i) (Host.reduce_andi_all _ _ _ _ _ h2 i)

end Cert.Diffuse
-- ==== Proof.lean ====
/-
  Equivalence over the extended reals of a two-pass kernel for one step of distance-weighted diffusion against its
  plain reference.

  For 8192 points x_r ∈ ℝ³ with exponents α_r the weight of a pair is
      w(r, c) = clip(clip(D̃^(−a), 1e-8, 1000) · exp(−D / 12), 0, 1000) off the diagonal, 0 on it,
  D = sqrt(max(|x_r|² + |x_c|² − 2 x_r·x_c, 1e-12)) + 1e-6, D̃ = max(D, 1e-6), a = (α_r + α_c)/2; the results are
  K(r, c) = w(r, c) / (Σ_c w(r, c) + 1e-8) and K · latent. The kernel makes two passes over an 8 × 16 grid of
  [1024, 512] tiles: the first accumulates each row's total over the 16 column blocks, the second recomputes the
  tile, divides by the total, writes the tile of K and accumulates the tile times the latent block. The reference
  forms the whole matrix. Over the extended reals the two agree because (i) a sum over the 8192 columns is the sum over
  the 16 blocks of the sums over their 512 lanes, in any grouping; (ii) for a positive real base the power is
  exp(exponent · log base), and the base D̃ ≥ 1e-6 is a positive real when the coordinates are finite — the one place
  the precondition is used; (iii) selecting 0 on the diagonal is multiplying by 1 − δ.

  The three frames: each kernel program's run is composed from its two passes as regions of the pipeline (the
  modules RowSum*, MainPass*, WholeRun), the reference's from its generated run. `preserves` is trivial: the ideal
  pass rewrote nothing.
-/
import proofs.«159665_j72739566125272_1_alg».proof.Defs
import proofs.«159665_j72739566125272_1_alg».proof.Proof.Gen.Kernel
import proofs.«159665_j72739566125272_1_alg».proof.Proof.Gen.KernelIdeal
import proofs.«159665_j72739566125272_1_alg».proof.Proof.Gen.ReferenceIdeal
import proofs.«159665_j72739566125272_1_alg».proof.Proof.Gen.Pre_finite_inputs
import proofs.«159665_j72739566125272_1_alg».proof.Proof.Gen.ReferenceIdeal.Run
import proofs.«159665_j72739566125272_1_alg».proof.Proof.WholeRun
import proofs.«159665_j72739566125272_1_alg».proof.Proof.KWholeRun
import proofs.«159665_j72739566125272_1_alg».proof.Proof.MainValue
import proofs.«159665_j72739566125272_1_alg».proof.Proof.RefValue
import proofs.«159665_j72739566125272_1_alg».proof.Proof.Algebra
import proofs.«159665_j72739566125272_1_alg».proof.Proof.Finite
import Idealize.ShloMosaic.Adequacy
import Idealize.ShloMosaic.Init

noncomputable section

namespace Cert.Proof

open Idealize.ShloMosaic Idealize.SL.Sem

/-- The word-level kernel runs and leaves its arguments: its two passes composed. -/
theorem frame_k : Cert.frame_Kernel := fun m ρ _ => Cert.Kernel.Whole.frame (F := Bits) m ρ
/-- The same for the idealized kernel. -/
theorem frame_ki : Cert.frame_KernelIdeal := fun m ρ _ => Cert.KernelIdeal.Whole.frame (F := Ideal) m ρ
/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with K and K · latent of the (agreeing) arguments: the kernel's two output arrays are the
    specification's by the blocks-to-arrays argument, the reference's by reading its operations at an index, and the
    two spellings of the weight agree on the finite inputs the precondition grants. -/
theorem algebraic : Cert.algebraic_KernelIdeal_ReferenceIdeal := by
  intro m ρ m' ρ' hpre hagree
  have hreal := fun c => Cert.Diffuse.real_of_finite _ _ _ (hpre c)
  refine ⟨fun c => Cert.Diffuse.Gout (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg0)),
    fun c => Cert.Diffuse.GK (m ((c.tc : Thread Cert.KernelIdeal.nD Cert.KernelIdeal.τ).loc Cert.KernelIdeal.main_arg1))
        (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.MainValue.out_eq m c), (h c).2.1.trans (Cert.KernelIdeal.MainValue.K_eq m c), (h c).2.2⟩)
      (Cert.KernelIdeal.Whole.run_results (F := Ideal) m ρ)
  · refine (θ_run Cert.ReferenceIdeal.defs _ _).mono (fun _ h c => ⟨?_, ?_, (h c).2.2⟩)
      (Cert.ReferenceIdeal.Value.run (F := Ideal) m' ρ')
    · refine (h c).1.trans ((Cert.ReferenceIdeal.RefValue.res_out_eq m' c).trans ?_)
      rw [(hagree c).1, (hagree c).2.1, (hagree c).2.2]
      exact Cert.Diffuse.GoutRef_eq_Gout _ _ _ (hreal c).1 (hreal c).2
    · refine (h c).2.1.trans ((Cert.ReferenceIdeal.RefValue.res_K_eq m' c).trans ?_)
      rw [(hagree c).2.1, (hagree c).2.2]
      exact Cert.Diffuse.GKRef_eq_GK _ _ (hreal c).1 (hreal c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
